-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S100000x64 .f32) (main_arg1 : FVec F S1250000 .f32) (main_arg2 : IVec S1250000 32) (main_arg3 : IVec S1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000 .f32 := Host.absf main_arg1
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_c_2 : IVec S_ 32 := constantI S_ 32 0#32
  let main_v9 : IVec S1250000 32 := broadcastInDim S1250000 ![] bcast_S_S1250000 main_c_2
  let main_v10 : IVec S1250000 1 := cmpi .sge main_arg2 main_v9
  let main_c_3 : IVec S_ 1 := constantI S_ 1 1#1
  let main_v11 : IVec S_ 1 := (fun x v => Host.reduce IntOp.andi x v reducesTo_S1250000_S_d0 h_S_) main_v10 main_c_3
  let main_v12 : IVec S_ 1 := andi main_v8 main_v11
  let main_c_4 : IVec S_ 32 := constantI S_ 32 100000#32
  let main_v13 : IVec S1250000 32 := broadcastInDim S1250000 ![] bcast_S_S1250000 main_c_4
  let main_v14 : IVec S1250000 1 := cmpi .slt main_arg2 main_v13
  let main_c_5 : IVec S_ 1 := constantI S_ 1 1#1
  let main_v15 : IVec S_ 1 := (fun x v => Host.reduce IntOp.andi x v reducesTo_S1250000_S_d0 h_S_) main_v14 main_c_5
  fn_part1 (F := F) main_v12 main_v15
-- ==== Kernel.lean ====
abbrev S100000x64 : Shape := ⟨2, ![100000, 64]⟩
abbrev S1250000 : Shape := ⟨1, ![1250000]⟩
abbrev S_ : Shape := ⟨0, ![]⟩
abbrev S100352x64 : Shape := ⟨2, ![100352, 64]⟩
abbrev S1253376 : Shape := ⟨1, ![1253376]⟩
abbrev S1253376x64 : Shape := ⟨2, ![1253376, 64]⟩
abbrev S8192 : Shape := ⟨1, ![8192]⟩
abbrev S512x64 : Shape := ⟨2, ![512, 64]⟩
abbrev S8192x64 : Shape := ⟨2, ![8192, 64]⟩
abbrev S8192x1 : Shape := ⟨2, ![8192, 1]⟩
abbrev S1x512 : Shape := ⟨2, ![1, 512]⟩
abbrev S8192x512 : Shape := ⟨2, ![8192, 512]⟩
abbrev S100352x1 : Shape := ⟨2, ![100352, 1]⟩
abbrev S512x1 : Shape := ⟨2, ![512, 1]⟩
abbrev S100352 : Shape := ⟨1, ![100352]⟩
abbrev S512 : Shape := ⟨1, ![512]⟩
abbrev S100000 : Shape := ⟨1, ![100000]⟩

abbrev nBuf : Space → Nat
  | .hbm => 29
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S1250000, .f32⟩
  | .hbm, ⟨2, _⟩ => ⟨S1250000, .i32⟩
  | .hbm, ⟨3, _⟩ => ⟨S1250000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S_, .i32⟩
  | .hbm, ⟨13, _⟩ => ⟨S_, .f32⟩
  | .hbm, ⟨14, _⟩ => ⟨S100352x64, .f32⟩
  | .hbm, ⟨15, _⟩ => ⟨S_, .i32⟩
  | .hbm, ⟨16, _⟩ => ⟨S_, .f32⟩
  | .hbm, ⟨17, _⟩ => ⟨S1253376, .f32⟩
  | .hbm, ⟨18, _⟩ => ⟨S_, .i32⟩
  | .hbm, ⟨19, _⟩ => ⟨S_, .i32⟩
  | .hbm, ⟨20, _⟩ => ⟨S1253376, .i32⟩
  | .hbm, ⟨21, _⟩ => ⟨S_, .i32⟩
  | .hbm, ⟨22, _⟩ => ⟨S_, .i32⟩
  | .hbm, ⟨23, _⟩ => ⟨S1253376, .i32⟩
  | .hbm, ⟨24, _⟩ => ⟨S1253376x64, .bf16⟩
  | .hbm, ⟨25, _⟩ => ⟨S100352x64, .f32⟩
  | .hbm, ⟨26, _⟩ => ⟨S100352x1, .f32⟩
  | .hbm, ⟨27, _⟩ => ⟨S100352, .f32⟩
  | .hbm, ⟨28, _⟩ => ⟨S100000, .f32⟩
  | .local _ .vmem, ⟨0, _⟩ => ⟨S8192, .i32⟩
  | .local _ .vmem, ⟨1, _⟩ => ⟨S8192, .i32⟩
  | .local _ .vmem, ⟨2, _⟩ => ⟨S8192, .f32⟩
  | .local _ .vmem, ⟨3, _⟩ => ⟨S8192, .f32⟩
  | .local _ .vmem, ⟨4, _⟩ => ⟨S512x64, .f32⟩
  | .local _ .vmem, ⟨5, _⟩ => ⟨S512x64, .f32⟩
  | .local _ .vmem, ⟨6, _⟩ => ⟨S8192x64, .bf16⟩
  | .local _ .vmem, ⟨7, _⟩ => ⟨S8192x64, .bf16⟩
  | .local _ .vmem, ⟨8, _⟩ => ⟨S8192x64, .f32⟩
  | .local _ .vmem, ⟨9, _⟩ => ⟨S8192, .i32⟩
  | .local _ .vmem, ⟨10, _⟩ => ⟨S8192, .i32⟩
  | .local _ .vmem, ⟨11, _⟩ => ⟨S8192x64, .bf16⟩
  | .local _ .vmem, ⟨12, _⟩ => ⟨S8192x64, .bf16⟩
  | .local _ .vmem, ⟨13, _⟩ => ⟨S512x64, .f32⟩
  | .local _ .vmem, ⟨14, _⟩ => ⟨S512x64, .f32⟩
  | .local _ .vmem, ⟨15, _⟩ => ⟨S512x1, .f32⟩
  | .local _ .vmem, ⟨16, _⟩ => ⟨S512x1, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S512x64, .f32⟩
  | .local _ .vmem, ⟨21, _⟩ => ⟨S512x1, .f32⟩
  | .local _ .vmem, ⟨22, _⟩ => ⟨S512x1, .f32⟩
  | .local _ .vmem, ⟨23, _⟩ => ⟨S512, .f32⟩
  | .local _ .vmem, ⟨24, _⟩ => ⟨S512, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_call1_v0 : Ref sig .tc := ⟨.hbm, 13, rfl⟩
abbrev main_v1 : Ref sig .tc := ⟨.hbm, 14, rfl⟩
abbrev main_c_2 : Ref sig .tc := ⟨.hbm, 15, rfl⟩
abbrev main_call2_v0 : Ref sig .tc := ⟨.hbm, 16, rfl⟩
abbrev main_v2 : Ref sig .tc := ⟨.hbm, 17, rfl⟩
abbrev main_c_3 : Ref sig .tc := ⟨.hbm, 18, rfl⟩
abbrev main_call3_v0 : Ref sig .tc := ⟨.hbm, 19, rfl⟩
abbrev main_v3 : Ref sig .tc := ⟨.hbm, 20, rfl⟩
abbrev main_c_4 : Ref sig .tc := ⟨.hbm, 21, rfl⟩
abbrev main_call4_v0 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev main_v7 : Ref sig .tc := ⟨.hbm, 27, rfl⟩
abbrev main_v8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![153, 196], ![false, false]⟩

def k0_cond2 (i : grid0.Coords) : BitVec 1 :=
  let arg1 : BitVec 32 := BitVec.ofNat 32 (i 1).val
  let c195_i32 : BitVec 32 := 195#32
  let v25 : BitVec 1 := Scalar.cmpi .eq arg1 c195_i32
  let v26 : BitVec 32 := Scalar.extui v25
  let c0_i32_7 : BitVec 32 := 0#32
  let v27 : BitVec 1 := Scalar.cmpi .ne v26 c0_i32_7
  v27

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![196, 153], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8192x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![196], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1250000 : S_.BroadcastsInDim S1250000 (![] : Fin 0 → Fin S1250000.rank)
  pads_S100000x64_S100352x64_03520_000 : S100000x64.Pads (![0, 0] : Fin 2 → Nat) ![352, 0] ![0, 0] S100352x64
  h_S_ : 0 < S_.numel
  pads_S1250000_S1253376_033760 : S1250000.Pads (![0] : Fin 1 → Nat) ![3376] ![0] S1253376
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  iota_S1x512_d1_w32 : S1x512.Iotas .tc 32 [1]
  broadcasts_S8192x1_S8192x512 : S8192x1.Broadcasts S8192x512
  broadcasts_S1x512_S8192x512 : S1x512.Broadcasts S8192x512
  natLt_1_32 : 1 < 32
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S8192x1_S8192x64 : S8192x1.Broadcasts S8192x64
  packedbf16_S8192x64_S8192x64_0_0 : (Rect.unit (s := S8192x64) ![0, 0] S8192x64.size inb_S8192x64_S8192x64_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  reduces_S512x64_S512 : S512x64.Reduces [1] S512
  inb_S512_S512_0 : ∀ a, (![0] : Fin 1 → Nat) a + S512.size a ≤ S512.size a
  h_S512 : 0 < S512.numel
  slices_S100352_S100000_0 : S100352.Slices ![0] S100000
  dot_S8192x512_S512x64_S8192x64_1_0_0_1_n_n_wf : DotDims.WF S8192x512 S512x64 S8192x64 [1] [0] [0] [1] [] []
  dot_S8192x512_S8192x64_S512x64_0_0_1_1_n_n_wf : DotDims.WF S8192x512 S8192x64 S512x64 [0] [0] [1] [1] [] []
  dot_S8192x512_S8192x1_S512x1_0_0_1_1_n_n_wf : DotDims.WF S8192x512 S8192x1 S512x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S1253376.size a
  hwx0_0 : ∀ i : grid0.Coords, EltTy.bits .i32 = 32 ∨ (Rect.block (s := S1253376) S8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1253376.size a
  hwx0_1 : ∀ i : grid0.Coords, EltTy.bits .f32 = 32 ∨ (Rect.block (s := S1253376) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S100352x64.size a
  hwx0_2 : ∀ i : grid0.Coords, EltTy.bits .f32 = 32 ∨ (Rect.block (s := S100352x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S1253376x64.size a
  hwx0_3 : ∀ i : grid0.Coords, EltTy.bits .bf16 = 32 ∨ (Rect.block (s := S1253376x64) S8192x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S1253376.size a
  hwx1_0 : ∀ i : grid1.Coords, EltTy.bits .i32 = 32 ∨ (Rect.block (s := S1253376) S8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S1253376x64.size a
  hwx1_1 : ∀ i : grid1.Coords, EltTy.bits .bf16 = 32 ∨ (Rect.block (s := S1253376x64) S8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S100352x64.size a
  hwx1_2 : ∀ i : grid1.Coords, EltTy.bits .f32 = 32 ∨ (Rect.block (s := S100352x64) S512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S100352x1.size a
  hwx1_3 : ∀ i : grid1.Coords, EltTy.bits .f32 = 32 ∨ (Rect.block (s := S100352x1) S512x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S100352x64.size a
  hwx2_0 : ∀ i : grid2.Coords, EltTy.bits .f32 = 32 ∨ (Rect.block (s := S100352x64) S512x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S100352x64.size a
  hwx2_1 : ∀ i : grid2.Coords, EltTy.bits .f32 = 32 ∨ (Rect.block (s := S100352x64) S512x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S100352x1.size a
  hwx2_2 : ∀ i : grid2.Coords, EltTy.bits .f32 = 32 ∨ (Rect.block (s := S100352x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S100352.size a
  hwx2_3 : ∀ i : grid2.Coords, EltTy.bits .f32 = 32 ∨ (Rect.block (s := S100352) S512.size (cc2_transform_3 i) (hinb2_3 i)).WholeWords (EltTy.packing .f32)

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x512_S8192x64_S512x64_0_0_1_1_n_n : DotDims S8192x512 S8192x64 S512x64 where
  lhsContracting := [0]
  rhsContracting := [0]
  lhsNonContracting := [1]
  rhsNonContracting := [1]
  lhsBatch := []
  rhsBatch := []
  wf := dot_S8192x512_S8192x64_S512x64_0_0_1_1_n_n_wf
def dot_S8192x512_S8192x1_S512x1_0_0_1_1_n_n : DotDims S8192x512 S8192x1 S512x1 where
  lhsContracting := [0]
  rhsContracting := [0]
  lhsNonContracting := [1]
  rhsNonContracting := [1]
  lhsBatch := []
  rhsBatch := []
  wf := dot_S8192x512_S8192x1_S512x1_0_0_1_1_n_n_wf

abbrev win0_0 : Pipeline.Window sig grid0 :=
  Pipeline.Window.ofSpec (Memref.whole main_v3) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S512x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_0) S512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_1) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .f32⟩
  | .hbm, ⟨2, _⟩ => ⟨S1250000, .i32⟩
  | .hbm, ⟨3, _⟩ => ⟨S1250000, .i32⟩
  | .hbm, ⟨4, _⟩ => ⟨S_, .i32⟩
  | .hbm, ⟨5, _⟩ => ⟨S1250000, .i32⟩
  | .hbm, ⟨6, _⟩ => ⟨S1250000, .i1⟩
  | .hbm, ⟨7, _⟩ => ⟨S_, .i32⟩
  | .hbm, ⟨8, _⟩ => ⟨S1250000, .i32⟩
  | .hbm, ⟨9, _⟩ => ⟨S1250000, .i32⟩
  | .hbm, ⟨10, _⟩ => ⟨S1250000, .i32⟩
  | .hbm, ⟨11, _⟩ => ⟨S1250000x1, .i32⟩
  | .hbm, ⟨12, _⟩ => ⟨S1250000x64, .f32⟩
  | .hbm, ⟨13, _⟩ => ⟨S1250000x1, .f32⟩
  | .hbm, ⟨14, _⟩ => ⟨S1250000x64, .f32⟩
  | .hbm, ⟨15, _⟩ => ⟨S1250000x64, .f32⟩
  | .hbm, ⟨16, _⟩ => ⟨S_, .f32⟩
  | .hbm, ⟨17, _⟩ => ⟨S100000x64, .f32⟩
  | .hbm, ⟨18, _⟩ => ⟨S1250000x1, .i32⟩
  | .hbm, ⟨19, _⟩ => ⟨S100000x64, .f32⟩
  | .hbm, ⟨20, _⟩ => ⟨S_, .f32⟩
  | .hbm, ⟨21, _⟩ => ⟨S1250000, .f32⟩
  | .hbm, ⟨22, _⟩ => ⟨S_, .f32⟩
  | .hbm, ⟨23, _⟩ => ⟨S100000, .f32⟩
  | .hbm, ⟨24, _⟩ => ⟨S1250000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000, .f32⟩
  | .hbm, ⟨35, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S100000_d1 : S100000x64.ReducesTo [1] S100000
  h_S_ : 0 < S_.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf

class Facts : Prop extends Facts₀ where

variable [Facts]
-- ==== Proof.K.Dats.lean ====
/-
  What each of the three pipelined calls leaves in its staging buffers, point by point, as pure functions of
  the arrays the call is entered with.

  Call 0 walks a grid of 153 edge tiles by 196 node tiles, node tile innermost.  Its scratch accumulator is
  zeroed at node tile 0 and then, at every node tile n, gains the product of the tile's one-hot matrix
  (edge row r, column j is 1 exactly when the edge's source id is 512·n + j) with the node tile's feature
  rows; at node tile 195 the accumulator, scaled row by row by the edge weights, is the message block written out.
  Call 1 walks 196 node tiles by 153 edge tiles, edge tile innermost: its two output blocks (feature sums and
  in-degrees of the node tile) are zeroed at edge tile 0 and gain, at every edge tile, the transposed one-hot
  matrix of the destination ids times the message block (respectively times a column of ones).
  Call 2 is pointwise per node tile: |Σ_d (h − sum / max(deg, 1))|.
-/
import proofs.«415711_j52312701665803_3_alg».proof.Proof.Gen.Kernel.Launch
import proofs.«415711_j52312701665803_3_alg».proof.Proof.Gen.Kernel.Skeleton
import proofs.«415711_j52312701665803_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when a call is entered: every definition below is stated at it
variable (V : (c : Dev nD) → (b : Ref sig .tc) → Buf (Elt F) ((c : Thread nD τ).loc b))

/-! ## Call 0: gather by one-hot products, accumulated over the node tiles -/

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge tile's source ids, its weights, and the node tile's feature rows at point `t`. -/
abbrev srcB (c : Dev nD) (t : Fin cfg0.N) : Vec F S8192 .i32 := iblk0 V c 0 t
abbrev wtsB (c : Dev nD) (t : Fin cfg0.N) : Vec F S8192 .f32 := iblk0 V c 1 t
abbrev hB (c : Dev nD) (t : Fin cfg0.N) : Vec F S512x64 .f32 := iblk0 V c 2 t

/-- The accumulator after point `n`: the point's one-hot product added to zero at the first node tile of an
    edge tile (`n % 196 = 0`), to what the point before left otherwise. -/
def acc0 (c : Dev nD) : (n : ℕ) → n < cfg0.N → Vec F S8192x64 .f32
  | 0, hn => k0_pay2 (grid0.coords ⟨0, hn⟩) (srcB V c ⟨0, hn⟩) (hB V c ⟨0, hn⟩) k0_pay1
  | n + 1, hn => k0_pay2 (grid0.coords ⟨n + 1, hn⟩) (srcB V c ⟨n + 1, hn⟩) (hB V c ⟨n + 1, hn⟩)
      (if (n + 1) % 196 = 0 then k0_pay1 else acc0 c n (Nat.lt_of_succ_lt hn))

/-- The message block the body stores at a last node tile: the accumulator scaled by the weights. -/
def msg0 (c : Dev nD) (t : Fin cfg0.N) : Vec F S8192x64 .bf16 := k0_pay3 (acc0 V c t.val t.isLt) (wtsB V c t)

/-- The core's scoped buffers other than call 0's staging buffers and its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The invariant of call 0 before point `n`: before the first point everything scoped that the call does not
    stage is at some contents; afterwards the accumulator holds what the point before left. -/
def Phi0 (c : Dev nD) : (n : ℕ) → n ≤ cfg0.N → sProp 𝕄
  | 0, _ => Pipeline.ΦA spec0 c
  | n + 1, hn => iprop(owns (c : Thread nD τ) (Memref.whole cc0_scratch0) fullShare (acc0 V c n hn) ∗ rest0 (F := F) c ∗ (∃ r, prngReg c r))

/-- The proof data of call 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => msg0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = msg0 V c t := by dsimp only [dat0]

/-! ## Call 1: scatter by transposed one-hot products, accumulated over the edge tiles -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge tile's destination ids and its message block at point `t`. -/
abbrev dstB (c : Dev nD) (t : Fin cfg1.N) : Vec F S8192 .i32 := iblk1 V c 0 t
abbrev msgB (c : Dev nD) (t : Fin cfg1.N) : Vec F S8192x64 .bf16 := iblk1 V c 1 t

/-- The feature-sum block after point `n`: the point's product added to zero at the first edge tile of a
    node tile (`n % 153 = 0`), to what the point before left otherwise. -/
def sum1 (c : Dev nD) : (n : ℕ) → n < cfg1.N → Vec F S512x64 .f32
  | 0, hn => k1_pay4 (grid1.coords ⟨0, hn⟩) (dstB V c ⟨0, hn⟩) (msgB V c ⟨0, hn⟩) k1_pay1
  | n + 1, hn => k1_pay4 (grid1.coords ⟨n + 1, hn⟩) (dstB V c ⟨n + 1, hn⟩) (msgB V c ⟨n + 1, hn⟩)
      (if (n + 1) % 153 = 0 then k1_pay1 else sum1 c n (Nat.lt_of_succ_lt hn))

/-- The in-degree block after point `n`, likewise. -/
def deg1 (c : Dev nD) : (n : ℕ) → n < cfg1.N → Vec F S512x1 .f32
  | 0, hn => k1_pay5 (grid1.coords ⟨0, hn⟩) (dstB V c ⟨0, hn⟩) k1_pay2
  | n + 1, hn => k1_pay5 (grid1.coords ⟨n + 1, hn⟩) (dstB V c ⟨n + 1, hn⟩)
      (if (n + 1) % 153 = 0 then k1_pay2 else deg1 c n (Nat.lt_of_succ_lt hn))

/-- The proof data of call 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => sum1 V c t.val t.isLt
    | ⟨3, _⟩ => deg1 V c t.val t.isLt
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = sum1 V c t.val t.isLt := by dsimp only [dat1]
theorem after1_3 (c : Dev nD) (t : Fin cfg1.N) : (dat1 V c).after 3 t = deg1 V c t.val t.isLt := by dsimp only [dat1]

/-! ## Call 2: the score of a node tile -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The score block of node tile `t`: of the tile's sums, in-degrees and features. -/
def score2 (c : Dev nD) (t : Fin cfg2.N) : Vec F S512 .f32 := k2_pay1 (iblk2 V c 1 t) (iblk2 V c 2 t) (iblk2 V c 0 t)

/-- The proof data of call 2. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => score2 V c t
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = score2 V c t := by dsimp only [dat2]

end Cert.Kernel.Hand

end
-- ==== Proof.K.Grid.lean ====
/-
  The grids' coordinates in closed form, and the kernels' conditions on them.  A grid point is numbered row-major:
  on the 153 × 196 grid of call 0 point t has coordinates (t / 196, t % 196), on the 196 × 153 grid of call 1
  (t / 153, t % 153), on the 196-point grid of call 2 (t).  The printed test "coordinate = k" is a word compare
  widened to 32 bits and compared with zero; it holds exactly when the coordinate is k.
-/
import proofs.«415711_j52312701665803_3_alg».proof.Proof.Gen.Kernel.Launch

noncomputable section

namespace Cert.Kernel.Hand

open Cert.Kernel Cert.Kernel.Gen
open Idealize.ShloMosaic

theorem ofNat_eq_iff (n k : ℕ) (hn : n < 2 ^ 32) (hk : k < 2 ^ 32) : (BitVec.ofNat 32 n = BitVec.ofNat 32 k) ↔ n = k := by
  constructor
  · intro h
    have := congrArg BitVec.toNat h
    simp only [BitVec.toNat_ofNat] at this
    rwa [Nat.mod_eq_of_lt hn, Nat.mod_eq_of_lt hk] at this
  · rintro rfl; rfl

/-- The printed test "word of n = word of k", widened and compared with zero, says n = k. -/
theorem cond_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  rw [← ofNat_eq_iff n k hn hk]
  by_cases h : BitVec.ofNat 32 n = BitVec.ofNat 32 k
  · simp only [h, iff_true]
    simp only [Scalar.cmpi, IntOp.cmpi, beq_self_eq_true, Scalar.extui]
    decide
  · simp only [h, iff_false]
    have hb : (BitVec.ofNat 32 n == BitVec.ofNat 32 k) = false := by simpa using h
    simp only [Scalar.cmpi, IntOp.cmpi, hb, Scalar.extui]
    decide

/-! ## Call 0: 153 edge tiles by 196 node tiles -/

theorem lt_N0 (t : Fin cfg0.N) : t.val < 29988 := lt_of_lt_of_eq t.isLt N_0

/-- The node-tile coordinate of point `t`. -/
theorem coords0_1 (t : Fin cfg0.N) : ((grid0.coords t) 1).val = t.val % 196 := by
  show t.val / grid0.stride 1 % 196 = _
  rw [show grid0.stride 1 = 1 from by decide, Nat.div_one]

/-- The edge-tile coordinate of point `t`. -/
theorem coords0_0 (t : Fin cfg0.N) : ((grid0.coords t) 0).val = t.val / 196 := by
  show t.val / grid0.stride 0 % 153 = _
  rw [show grid0.stride 0 = 196 from by decide]
  exact Nat.mod_eq_of_lt (by have := lt_N0 t; omega)

/-- The accumulator is zeroed exactly at the first node tile of an edge tile. -/
theorem hfirst0 (t : Fin cfg0.N) :
    Scalar.cmpi .ne (Scalar.extui (Scalar.cmpi .eq (BitVec.ofNat 32 ((grid0.coords t) 1).val) 0#32)) 0#32 = 1#1 ↔ t.val % 196 = 0 := by
  rw [coords0_1]
  exact cond_iff (t.val % 196) 0 (by omega) (by omega)

/-- The message block is stored exactly at the last node tile of an edge tile. -/
theorem hlast0 (t : Fin cfg0.N) : k0_cond2 (grid0.coords t) = 1#1 ↔ t.val % 196 = 195 := by
  unfold k0_cond2
  dsimp only
  rw [coords0_1]
  exact cond_iff (t.val % 196) 195 (by omega) (by omega)

/-! ## Call 1: 196 node tiles by 153 edge tiles -/

theorem lt_N1 (t : Fin cfg1.N) : t.val < 29988 := lt_of_lt_of_eq t.isLt N_1

/-- The edge-tile coordinate of point `t`. -/
theorem coords1_1 (t : Fin cfg1.N) : ((grid1.coords t) 1).val = t.val % 153 := by
  show t.val / grid1.stride 1 % 153 = _
  rw [show grid1.stride 1 = 1 from by decide, Nat.div_one]

/-- The node-tile coordinate of point `t`. -/
theorem coords1_0 (t : Fin cfg1.N) : ((grid1.coords t) 0).val = t.val / 153 := by
  show t.val / grid1.stride 0 % 196 = _
  rw [show grid1.stride 0 = 153 from by decide]
  exact Nat.mod_eq_of_lt (by have := lt_N1 t; omega)

/-- The two output blocks are zeroed exactly at the first edge tile of a node tile. -/
theorem hfirst1 (t : Fin cfg1.N) :
    Scalar.cmpi .ne (Scalar.extui (Scalar.cmpi .eq (BitVec.ofNat 32 ((grid1.coords t) 1).val) 0#32)) 0#32 = 1#1 ↔ t.val % 153 = 0 := by
  rw [coords1_1]
  exact cond_iff (t.val % 153) 0 (by omega) (by omega)

/-! ## Call 2: 196 node tiles -/

theorem lt_N2 (t : Fin cfg2.N) : t.val < 196 := lt_of_lt_of_eq t.isLt N_2

theorem coords2_0 (t : Fin cfg2.N) : ((grid2.coords t) 0).val = t.val := by
  show t.val / grid2.stride 0 % 196 = _
  rw [show grid2.stride 0 = 1 from by decide, Nat.div_one]
  exact Nat.mod_eq_of_lt (lt_N2 t)

end Cert.Kernel.Hand

end
-- ==== Proof.K.Body0.lean ====
import proofs.«415711_j52312701665803_3_alg».proof.Proof.K.Dats
import proofs.«415711_j52312701665803_3_alg».proof.Proof.K.Grid
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two conditions of the body, in closed form over the grid

The body branches twice on the node-tile coordinate alone: it clears the accumulator when the coordinate is 0,
and writes the message block out when it is 195. Along the row-major walk of the 153 × 196 grid the node-tile
coordinate of point `t` is `t mod 196`. -/

/-- The accumulator is cleared at this point: the node-tile coordinate is 0. -/
abbrev cond0_reset (i : grid0.Coords) : Prop :=
  (Scalar.cmpi .ne (Scalar.extui (Scalar.cmpi .eq (BitVec.ofNat 32 (i 1).val) 0#32)) 0#32) = 1#1

/-- The message block is written at this point: the node-tile coordinate is 195. -/
abbrev cond0_emit (i : grid0.Coords) : Prop := k0_cond2 i = 1#1

/-- At point `t` the first holds exactly when `t mod 196 = 0`, the second exactly when `t mod 196 = 195`. -/
theorem hcond0_reset (t : Fin cfg0.N) : cond0_reset (grid0.coords t) ↔ t.val % 196 = 0 := hfirst0 t

theorem hcond0_emit (t : Fin cfg0.N) : cond0_emit (grid0.coords t) ↔ t.val % 196 = 195 := hlast0 t

/-! ## Where the windows are idle -/

/-- The three input windows are live at every point. -/
theorem live0_0 (i : grid0.Coords) : cfg0.idle 0 i = false := rfl
theorem live0_1 (i : grid0.Coords) : cfg0.idle 1 i = false := rfl
theorem live0_2 (i : grid0.Coords) : cfg0.idle 2 i = false := rfl

/-- The output window is idle exactly where the message block is not written. -/
theorem idle0_3_eq (i : grid0.Coords) : cfg0.idle 3 i = !(k0_cond2 i == 1#1) := rfl

theorem idle0_3_of (i : grid0.Coords) (h : ¬cond0_emit i) : cfg0.idle 3 i = true := by
  rw [idle0_3_eq, Bool.not_eq_true', beq_eq_false_iff_ne]; exact h

theorem live0_3_of (i : grid0.Coords) (h : cond0_emit i) : cfg0.idle 3 i = false := by
  rw [idle0_3_eq, show k0_cond2 i = 1#1 from h]
  try rfl

/-- Away from the last node tile of an edge tile the message block is not written back. -/
theorem noFlush0_3 (t : Fin cfg0.N) (h : ¬t.val % 196 = 195) : (cfg0.win 3).flush t = false :=
  Bool.eq_false_iff.mpr fun hf => h ((flush0_3 t).mp hf)

/-! ## The staging buffers at a point -/

abbrev ms0_0 (t : Fin cfg0.N) : Memref sig .tc .vmem S8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x64 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S8192x64 .f32 := Memref.whole cc0_scratch0

/-- Zero offsets, as the body's whole-buffer loads and stores spell them. -/
theorem zeroOff0_1 : (![0] : Fin 1 → Nat) = fun _ => 0 := funext fun a => by fin_cases a <;> rfl
theorem zeroOff0_2 : (![0, 0] : Fin 2 → Nat) = fun _ => 0 := funext fun a => by fin_cases a <;> rfl

/-! ## The body on whole buffers, case by case

Every load and store of the body is of a whole buffer, so each case is stated with the contents it leaves written
out. In all three the body reads the source ids `x0` and the feature rows `x2` and leaves the accumulator at the
one-hot product of the two added to what the accumulator held — zero, after the clearing store, in the first case. -/

set_option maxHeartbeats 1000000 in
/-- First node tile of an edge tile: the accumulator, found at anything, is cleared and then gains the product. -/
theorem run0_reset (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S512x64 .f32) (harg4 : arg4.IsWhole) (arg5 : Memref sig .tc .vmem S8192x64 .bf16) (harg5 : arg5.IsWhole)
    (arg6 : Memref sig .tc .vmem S8192x64 .f32) (harg6 : arg6.IsWhole) (hc0 : cond0_reset i) (hc1 : ¬cond0_emit i)
    (x0 : Vec F S8192 .i32) (x2 : Vec F S512x64 .f32) (E : Set ℕ) (K : PUnit → sProp 𝕄) :
    iprop(owns (c : Thread nD τ) arg2 fullShare x0 ∗ owns (c : Thread nD τ) arg4 fullShare x2 ∗ (∃ d, owns (c : Thread nD τ) arg6 fullShare d)
        ∗ (iprop(owns (c : Thread nD τ) arg2 fullShare x0 ∗ owns (c : Thread nD τ) arg4 fullShare x2
            ∗ owns (c : Thread nD τ) arg6 fullShare (k0_pay2 i x0 x2 k0_pay1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f2, %hf2, H2⟩, ⟨%ds, %fs, -, HS⟩, Hk⟩
  obtain rfl := harg2.eq_unread hf0; obtain rfl := harg4.eq_unread hf2
  sl_exec (disch := first | exact hc0 | exact hc1)
  sl_step
  iapply Hk
  isplitl [H0]
  · iexists _; isplitr; · ipureintro; exact harg2.read_unread _
    iexact H0
  isplitl [H2]
  · iexists _; isplitr; · ipureintro; exact harg4.read_unread _
    iexact H2
  iexists _; isplitr
  swap; · iexact HS
  ipureintro
  sl_unfold_words
  rw [View.read_writes_eq_canon _ _ _ (fun y => ⟨_, List.Mem.head _, View.mem_set_unit_zero zeroOff0_2 inb_S8192x64_S8192x64_0_0 y⟩)]
  rw [View.canon_cons_unit_zero (S := S8192x64) zeroOff0_2]
  simp only [View.readAt_eq_ld, harg2.read_unread, harg4.read_unread, View.ld_unit_zero (S := S8192) zeroOff0_1,
    View.ld_unit_zero (S := S512x64) zeroOff0_2, View.readCov_unit_zero (S := S8192x64) _ zeroOff0_2]

set_option maxHeartbeats 1000000 in
/-- A node tile that is neither first nor last: the accumulator, found at `xs`, gains the product. -/
theorem run0_add (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S512x64 .f32) (harg4 : arg4.IsWhole) (arg5 : Memref sig .tc .vmem S8192x64 .bf16) (harg5 : arg5.IsWhole)
    (arg6 : Memref sig .tc .vmem S8192x64 .f32) (harg6 : arg6.IsWhole) (hc0 : ¬cond0_reset i) (hc1 : ¬cond0_emit i)
    (x0 : Vec F S8192 .i32) (x2 : Vec F S512x64 .f32) (xs : Vec F S8192x64 .f32) (E : Set ℕ) (K : PUnit → sProp 𝕄) :
    iprop(owns (c : Thread nD τ) arg2 fullShare x0 ∗ owns (c : Thread nD τ) arg4 fullShare x2 ∗ owns (c : Thread nD τ) arg6 fullShare xs
        ∗ (iprop(owns (c : Thread nD τ) arg2 fullShare x0 ∗ owns (c : Thread nD τ) arg4 fullShare x2
            ∗ owns (c : Thread nD τ) arg6 fullShare (k0_pay2 i x0 x2 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f2, %hf2, H2⟩, ⟨%fs, %hfs, HS⟩, Hk⟩
  obtain rfl := harg2.eq_unread hf0; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H2]
  · iexists _; isplitr; · ipureintro; exact harg4.read_unread _
    iexact H2
  iexists _; isplitr
  swap; · iexact HS
  ipureintro
  sl_unfold_words
  rw [View.read_writes_eq_canon _ _ _ (fun y => ⟨_, List.Mem.head _, View.mem_set_unit_zero zeroOff0_2 inb_S8192x64_S8192x64_0_0 y⟩)]
  rw [View.canon_cons_unit_zero (S := S8192x64) zeroOff0_2]
  simp only [View.readAt_eq_ld, harg2.read_unread, harg4.read_unread, harg6.read_unread, View.ld_unit_zero (S := S8192) zeroOff0_1,
    View.ld_unit_zero (S := S512x64) zeroOff0_2, View.ld_unit_zero (S := S8192x64) zeroOff0_2]

set_option maxHeartbeats 1000000 in
/-- Last node tile of an edge tile: the accumulator gains the product, and the output buffer, found at anything, is
    left at the new accumulator scaled row by row by the weights `x1`. -/
theorem run0_emit (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S512x64 .f32) (harg4 : arg4.IsWhole) (arg5 : Memref sig .tc .vmem S8192x64 .bf16) (harg5 : arg5.IsWhole)
    (arg6 : Memref sig .tc .vmem S8192x64 .f32) (harg6 : arg6.IsWhole) (hc0 : ¬cond0_reset i) (hc1 : cond0_emit i)
    (x0 : Vec F S8192 .i32) (x1 : Vec F S8192 .f32) (x2 : Vec F S512x64 .f32) (xs : Vec F S8192x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 i x0 x2 xs) x1)
            ∗ owns (c : Thread nD τ) arg6 fullShare (k0_pay2 i x0 x2 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.Mem.head _, View.mem_set_unit_zero zeroOff0_2 inb_S8192x64_S8192x64_0_0 y⟩)]
    rw [View.canon_cons_unit_zero (S := S8192x64) zeroOff0_2]
    simp only [View.readAt_eq_ld, harg2.read_unread, harg3.read_unread, harg4.read_unread, harg6.read_unread,
      View.ld_unit_zero (S := S8192) zeroOff0_1, View.ld_unit_zero (S := S512x64) zeroOff0_2,
      View.ld_unit_zero (S := S8192x64) zeroOff0_2, View.readCov_unit_zero (S := S8192x64) _ zeroOff0_2]
  iexists _; isplitr
  swap; · iexact HS
  ipureintro
  sl_unfold_words
  rw [View.read_writes_eq_canon _ _ _ (fun y => ⟨_, List.Mem.head _, View.mem_set_unit_zero zeroOff0_2 inb_S8192x64_S8192x64_0_0 y⟩)]
  rw [View.canon_cons_unit_zero (S := S8192x64) zeroOff0_2]
  simp only [View.readAt_eq_ld, harg2.read_unread, harg4.read_unread, harg6.read_unread, View.ld_unit_zero (S := S8192) zeroOff0_1,
    View.ld_unit_zero (S := S512x64) zeroOff0_2, View.ld_unit_zero (S := S8192x64) zeroOff0_2]

/-! ## The accumulator from point to point -/

/-- At a first node tile the accumulator after the point is the product alone. -/
theorem acc0_reset (c : Dev nD) (t : Fin cfg0.N) (h0 : t.val % 196 = 0) :
    acc0 V c t.val t.isLt = k0_pay2 (grid0.coords t) (srcB V c t) (hB V c t) k0_pay1 := by
  obtain ⟨n, hn⟩ := t
  cases n with
  | zero => rfl
  | succ n =>
    dsimp only at h0
    exact congrArg (k0_pay2 (grid0.coords ⟨n + 1, hn⟩) (srcB V c ⟨n + 1, hn⟩) (hB V c ⟨n + 1, hn⟩)) (if_pos h0)

/-- At any other node tile it is the product added to what the point before left. -/
theorem acc0_step (c : Dev nD) (t : Fin cfg0.N) (h0 : ¬t.val % 196 = 0) :
    acc0 V c t.val t.isLt = k0_pay2 (grid0.coords t) (srcB V c t) (hB V c t)
      (acc0 V c (t.val - 1) (Nat.lt_of_le_of_lt (Nat.sub_le _ _) t.isLt)) := by
  obtain ⟨n, hn⟩ := t
  cases n with
  | zero => exact absurd (Nat.zero_mod _) h0
  | succ n =>
    dsimp only at h0
    exact congrArg (k0_pay2 (grid0.coords ⟨n + 1, hn⟩) (srcB V c ⟨n + 1, hn⟩) (hB V c ⟨n + 1, hn⟩)) (if_neg h0)

/-! ## The invariant between points -/

theorem Phi0_zero (c : Dev nD) (n : ℕ) (h : n ≤ cfg0.N) (hz : n = 0) : Phi0 V c n h = Pipeline.ΦA spec0 c := by
  subst hz; rfl

/-- After point `n`: the accumulator at what that point left. -/
theorem Phi0_succ (c : Dev nD) (n : ℕ) (hn : n < cfg0.N) :
    Phi0 V c (n + 1) hn = iprop(owns (c : Thread nD τ) scM0 fullShare (acc0 V c n hn) ∗ rest0 (F := F) c ∗ (∃ r, prngReg c r)) := rfl

/-- Before a point that is not the first: the accumulator at what the point before left. -/
theorem Phi0_pos (c : Dev nD) (n : ℕ) (h : n ≤ cfg0.N) (hz : n ≠ 0) :
    Phi0 V c n h = iprop(owns (c : Thread nD τ) scM0 fullShare (acc0 V c (n - 1) (by omega)) ∗ rest0 (F := F) c ∗ (∃ r, prngReg c r)) := by
  cases n with
  | zero => exact absurd rfl hz
  | succ n => rfl

/-- What the launch hands the call: the accumulator at anything, the other scoped buffers, the generator register. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

theorem Phi0_castSucc (c : Dev nD) (t : Fin cfg0.N) :
    (dat0 V c).Φ t.castSucc = Phi0 V c t.val (Nat.le_of_lt t.isLt) := by
  dsimp only [dat0]; simp only [Fin.coe_castSucc]

/-! ## The input windows' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [live0_0 (grid0.coords t), after0_0]
theorem leaves0_1 (c : Dev nD) (t : Fin cfg0.N) :
    (dat0 V c).leavesExact 1 t = owns (c : Thread nD τ) (ms0_1 t) fullShare (iblk0 V c 1 t) := by
  unfold Dat.leavesExact; rw [live0_1 (grid0.coords t), after0_1]
theorem leaves0_2 (c : Dev nD) (t : Fin cfg0.N) :
    (dat0 V c).leavesExact 2 t = owns (c : Thread nD τ) (ms0_2 t) fullShare (iblk0 V c 2 t) := by
  unfold Dat.leavesExact; rw [live0_2 (grid0.coords t), after0_2]
theorem leaves0_3_emit (c : Dev nD) (t : Fin cfg0.N) (h : cond0_emit (grid0.coords t)) :
    (dat0 V c).leavesExact 3 t = owns (c : Thread nD τ) (ms0_3 t) fullShare (msg0 V c t) := by
  unfold Dat.leavesExact; rw [live0_3_of (grid0.coords t) h, after0_3]

set_option maxHeartbeats 4800000 in
/-- The body at any point. The input buffers hold their blocks; `t mod 196` says which case the point is in; the
    invariant hands the body the accumulator at what the point before left (at anything before the first point) and
    takes it back at what this point leaves; the output buffer is handed back untouched except at a last node tile,
    where it holds the message block; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2]
  have hN : t.val < 29988 := lt_of_lt_of_eq t.isLt (show cfg0.N = 29988 from N_0)
  by_cases h0 : t.val % 196 = 0
  · have hA : cond0_reset (grid0.coords t) := (hcond0_reset t).mpr h0
    have hC : ¬cond0_emit (grid0.coords t) := fun h => by have := (hcond0_emit t).mp h; omega
    rw [Dat.leavesExact_idle (dat0 V c) 3 t (idle0_3_of _ hC) (noFlush0_3 t (by omega))]
    rw [acc0_reset V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩, ⟨%d3, H3⟩⟩
      iapply (run0_reset c (grid0.coords t) (ms0_0 t) (hs0_0 t) (ms0_1 t) (hs0_1 t) (ms0_2 t) (hs0_2 t) (ms0_3 t) (hs0_3 t)
        scM0 (Memref.isWhole_whole _) hA hC (srcB V c t) (hB V c t) Set.univ _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨HS, HR, Hg⟩, Ho, ⟨%d0, H0⟩, ⟨%d1, H1⟩, ⟨%d2, H2⟩, ⟨%d3, H3⟩⟩
      iapply (run0_reset c (grid0.coords t) (ms0_0 t) (hs0_0 t) (ms0_1 t) (hs0_1 t) (ms0_2 t) (hs0_2 t) (ms0_3 t) (hs0_3 t)
        scM0 (Memref.isWhole_whole _) hA hC (srcB V c t) (hB V c t) Set.univ _)
      isplitl [H0]; · iexact H0
      isplitl [H2]; · iexact H2
      isplitl [HS]; · iexists _; iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hA : ¬cond0_reset (grid0.coords t) := fun h => h0 ((hcond0_reset t).mp h)
    have hz : t.val ≠ 0 := by omega
    rw [acc0_step V c t h0]
    rw [Phi0_castSucc V c t, Phi0_pos V c _ _ hz]
    by_cases h1 : t.val % 196 = 195
    · have hC : cond0_emit (grid0.coords t) := (hcond0_emit t).mpr h1
      rw [leaves0_3_emit V c t hC]
      unfold msg0
      rw [acc0_step V c t h0]
      iintro ⟨⟨HS, HR, Hg⟩, Ho, ⟨%d0, H0⟩, ⟨%d1, H1⟩, ⟨%d2, H2⟩, ⟨%d3, H3⟩⟩
      iapply (run0_emit c (grid0.coords t) (ms0_0 t) (hs0_0 t) (ms0_1 t) (hs0_1 t) (ms0_2 t) (hs0_2 t) (ms0_3 t) (hs0_3 t)
        scM0 (Memref.isWhole_whole _) hA hC (srcB V c t) (wtsB V c t) (hB V c t)
        (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hC : ¬cond0_emit (grid0.coords t) := fun h => h1 ((hcond0_emit t).mp h)
      rw [Dat.leavesExact_idle (dat0 V c) 3 t (idle0_3_of _ hC) (noFlush0_3 t h1)]
      iintro ⟨⟨HS, HR, Hg⟩, Ho, ⟨%d0, H0⟩, ⟨%d1, H1⟩, ⟨%d2, H2⟩, ⟨%d3, H3⟩⟩
      iapply (run0_add c (grid0.coords t) (ms0_0 t) (hs0_0 t) (ms0_1 t) (hs0_1 t) (ms0_2 t) (hs0_2 t) (ms0_3 t) (hs0_3 t)
        scM0 (Memref.isWhole_whole _) hA hC (srcB V c t) (hB V c t)
        (acc0 V c (t.val - 1) (Nat.lt_of_le_of_lt (Nat.sub_le _ _) t.isLt)) Set.univ _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-! ## The obligation at every point, and the invariant at the two ends -/

/-- The library's body obligation for call 0, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem Phi_in0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives it back: what the accumulator holds is forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨HS, HR, Hg⟩
  isplitl [HS HR]
  · isplitl [HS]; · iexists _; iexact HS
    iexact HR
  iexact Hg

/-- In particular after the last point. -/
theorem Phi_out0 (c : Dev nD) : (dat0 V c).Φ (Fin.last cfg0.N) ⊢ Pipeline.ΦA spec0 c :=
  Phi0_out V c _ (by rw [Fin.val_last]; have : cfg0.N = 29988 := N_0; omega)

end Cert.Kernel.Hand

end
-- ==== Proof.K.Body1.lean ====
/-
  The body obligation of the scatter call: at every point of its grid of 196 node tiles by 153 edge tiles (edge
  tile innermost) the body, handed the edge tile's destination ids and message block and the node tile's two
  output blocks, leaves the feature-sum block and the in-degree block at what the recursion over the points says:
  at a first edge tile (point ≡ 0 mod 153) the tile's two products added to zero, at a later one added to what the
  point before left — which is still in the buffers, because a block is written back only at a last edge tile
  (point ≡ 152 mod 153).
-/
import proofs.«415711_j52312701665803_3_alg».proof.Proof.K.Dats
import proofs.«415711_j52312701665803_3_alg».proof.Proof.K.Grid
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The body on any four whole buffers -/

/-- The condition under which the body zeroes its two output blocks: the edge-tile coordinate is 0. -/
abbrev cond1 (i : grid1.Coords) : Prop :=
  (Scalar.cmpi .ne (Scalar.extui (Scalar.cmpi .eq (BitVec.ofNat 32 (i 1).val) 0#32)) 0#32) = 1#1

/-- The body zeroes its output blocks exactly at the points ≡ 0 (mod 153): the edge tile is the innermost axis of
    the grid of 196 node tiles by 153 edge tiles, so point `t` is at edge tile `t mod 153`. -/
theorem hcond1 (t : Fin cfg1.N) : cond1 (grid1.coords t) ↔ t.val % 153 = 0 := hfirst1 t

/-- The zero offsets of a whole-buffer access, of rank 1 and of rank 2. -/
theorem hz1 : (![0] : Fin 1 → Nat) = fun _ => 0 := funext fun a => by fin_cases a; rfl
theorem hz2 : (![0, 0] : Fin 2 → Nat) = fun _ => 0 := funext fun a => by fin_cases a <;> rfl

set_option maxHeartbeats 1000000 in
/-- At a first edge tile: whatever the two output blocks held, they are zeroed, read back, and end at the tile's
    products added to zero; the two input blocks are only read. -/
theorem run1_reset (c : Dev nD) (i : grid1.Coords)
    (arg2 : Memref sig .tc .vmem S8192 .i32) (harg2 : arg2.IsWhole) (arg3 : Memref sig .tc .vmem S8192x64 .bf16) (harg3 : arg3.IsWhole)
    (arg4 : Memref sig .tc .vmem S512x64 .f32) (harg4 : arg4.IsWhole) (arg5 : Memref sig .tc .vmem S512x1 .f32) (harg5 : arg5.IsWhole)
    (hc : cond1 i) (x0 : Vec F S8192 .i32) (x1 : Vec F S8192x64 .bf16) (y2 : Vec F S512x64 .f32) (y3 : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ (iprop(owns (c : Thread nD τ) arg2 fullShare x0 ∗ owns (c : Thread nD τ) arg3 fullShare x1
            ∗ owns (c : Thread nD τ) arg4 fullShare (k1_pay4 i x0 x1 k1_pay1)
            ∗ owns (c : Thread nD τ) arg5 fullShare (k1_pay5 i x0 k1_pay2)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self, View.mem_set_unit_zero hz2 inb_S512x64_S512x64_0_0 y⟩)]
    rw [View.canon_cons_unit_zero (S := S512x64) hz2]
    simp only [View.readAt_eq_ld, harg2.read_unread, harg3.read_unread, View.ld_unit_zero (S := S8192) hz1,
      View.ld_unit_zero (S := S8192x64) hz2, View.readCov_unit_zero (S := S512x64) _ hz2]
  · iexists _; isplitr
    swap; · iexact H3
    ipureintro
    sl_unfold_words
    rw [View.read_writes_eq_canon _ _ _ (fun y => ⟨_, List.mem_cons_self, View.mem_set_unit_zero hz2 inb_S512x1_S512x1_0_0 y⟩)]
    rw [View.canon_cons_unit_zero (S := S512x1) hz2]
    simp only [View.readAt_eq_ld, harg2.read_unread, View.ld_unit_zero (S := S8192) hz1,
      View.readCov_unit_zero (S := S512x1) _ hz2]

set_option maxHeartbeats 1000000 in
/-- At a later edge tile: the two output blocks, found at `y2` and `y3`, end at the tile's products added to
    them; the two input blocks are only read. -/
theorem run1_acc (c : Dev nD) (i : grid1.Coords)
    (arg2 : Memref sig .tc .vmem S8192 .i32) (harg2 : arg2.IsWhole) (arg3 : Memref sig .tc .vmem S8192x64 .bf16) (harg3 : arg3.IsWhole)
    (arg4 : Memref sig .tc .vmem S512x64 .f32) (harg4 : arg4.IsWhole) (arg5 : Memref sig .tc .vmem S512x1 .f32) (harg5 : arg5.IsWhole)
    (hc : ¬cond1 i) (x0 : Vec F S8192 .i32) (x1 : Vec F S8192x64 .bf16) (y2 : Vec F S512x64 .f32) (y3 : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ (iprop(owns (c : Thread nD τ) arg2 fullShare x0 ∗ owns (c : Thread nD τ) arg3 fullShare x1
            ∗ owns (c : Thread nD τ) arg4 fullShare (k1_pay4 i x0 x1 y2)
            ∗ owns (c : Thread nD τ) arg5 fullShare (k1_pay5 i x0 y3)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self, View.mem_set_unit_zero hz2 inb_S512x64_S512x64_0_0 y⟩)]
    rw [View.canon_cons_unit_zero (S := S512x64) hz2]
    simp only [View.readAt_eq_ld, harg2.read_unread, harg3.read_unread, harg4.read_unread, View.ld_unit_zero (S := S8192) hz1,
      View.ld_unit_zero (S := S8192x64) hz2, View.ld_unit_zero (S := S512x64) hz2]
  · iexists _; isplitr
    swap; · iexact H3
    ipureintro
    sl_unfold_words
    rw [View.read_writes_eq_canon _ _ _ (fun y => ⟨_, List.mem_cons_self, View.mem_set_unit_zero hz2 inb_S512x1_S512x1_0_0 y⟩)]
    rw [View.canon_cons_unit_zero (S := S512x1) hz2]
    simp only [View.readAt_eq_ld, harg2.read_unread, harg5.read_unread, View.ld_unit_zero (S := S8192) hz1,
      View.ld_unit_zero (S := S512x1) hz2]

/-! ## The accumulated blocks, case by case -/

/-- The feature-sum block after a first edge tile: the tile's product added to zero. -/
theorem sum1_reset (c : Dev nD) (t : Fin cfg1.N) (h0 : t.val % 153 = 0) :
    sum1 V c t.val t.isLt = k1_pay4 (grid1.coords t) (dstB V c t) (msgB V c t) k1_pay1 := by
  obtain ⟨n, hn⟩ := t
  cases n with
  | zero => show sum1 V c 0 hn = _; rw [sum1]
  | succ n =>
    have h0' : (n + 1) % 153 = 0 := h0
    show sum1 V c (n + 1) hn = _
    rw [sum1, if_pos h0']

/-- The feature-sum block after a later edge tile: the tile's product added to what the point before left. -/
theorem sum1_acc (c : Dev nD) (t : Fin cfg1.N) (h0 : ¬t.val % 153 = 0) :
    sum1 V c t.val t.isLt = k1_pay4 (grid1.coords t) (dstB V c t) (msgB V c t)
      (sum1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 153 = 0 := h0
    show sum1 V c (n + 1) hn = _
    rw [sum1, if_neg h0']
    try rfl

/-- The in-degree block after a first edge tile: the tile's column sums added to zero. -/
theorem deg1_reset (c : Dev nD) (t : Fin cfg1.N) (h0 : t.val % 153 = 0) :
    deg1 V c t.val t.isLt = k1_pay5 (grid1.coords t) (dstB V c t) k1_pay2 := by
  obtain ⟨n, hn⟩ := t
  cases n with
  | zero => show deg1 V c 0 hn = _; rw [deg1]
  | succ n =>
    have h0' : (n + 1) % 153 = 0 := h0
    show deg1 V c (n + 1) hn = _
    rw [deg1, if_pos h0']

/-- The in-degree block after a later edge tile: the tile's column sums added to what the point before left. -/
theorem deg1_acc (c : Dev nD) (t : Fin cfg1.N) (h0 : ¬t.val % 153 = 0) :
    deg1 V c t.val t.isLt = k1_pay5 (grid1.coords t) (dstB V c t)
      (deg1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 153 = 0 := h0
    show deg1 V c (n + 1) hn = _
    rw [deg1, if_neg h0']
    try rfl

/-! ## What the body finds in the four buffers -/

/-- The destination ids are fetched at every point: the buffer holds the edge tile's block. -/
theorem before1_0 (c : Dev nD) (t : Fin cfg1.N) (d) : (dat1 V c).before 0 t d = iblk1 V c 0 t := by
  rw [Dat.before_fetched _ 0 t (fetch1_0 t)]
  unfold Dat.fetched Dat.blockOf iblk1
  rw [A_eq1]
  try rfl

/-- The messages are fetched at every point: the buffer holds the edge tile's block. -/
theorem before1_1 (c : Dev nD) (t : Fin cfg1.N) (d) : (dat1 V c).before 1 t d = iblk1 V c 1 t := by
  rw [Dat.before_fetched _ 1 t (fetch1_1 t)]
  unfold Dat.fetched Dat.blockOf iblk1
  rw [A_eq1]
  try rfl

/-- At a later edge tile the feature-sum buffer holds what the point before left: that point is not a last edge
    tile, so it did not write the block back. -/
theorem before1_2_acc (c : Dev nD) (t : Fin cfg1.N) (h0 : ¬t.val % 153 = 0) (d) :
    (dat1 V c).before 2 t d = sum1 V c (t.val - 1) (Nat.lt_of_le_of_lt (Nat.sub_le _ _) t.isLt) := by
  rw [Dat.before_out_kept _ 2 rfl t (by omega)
    (Bool.eq_false_iff.mpr fun h => by have := (flush1_2 _).mp h; dsimp only at this; omega)
    (fun _ => rfl) (fun _ _ => rfl)]
  dsimp only [dat1]

/-- Likewise the in-degree buffer. -/
theorem before1_3_acc (c : Dev nD) (t : Fin cfg1.N) (h0 : ¬t.val % 153 = 0) (d) :
    (dat1 V c).before 3 t d = deg1 V c (t.val - 1) (Nat.lt_of_le_of_lt (Nat.sub_le _ _) t.isLt) := by
  rw [Dat.before_out_kept _ 3 rfl t (by omega)
    (Bool.eq_false_iff.mpr fun h => by have := (flush1_3 _).mp h; dsimp only at this; omega)
    (fun _ => rfl) (fun _ _ => rfl)]
  dsimp only [dat1]

/-! ## The body at a point -/

/-- The four buffers the body is handed at point `t`, and that each is a whole buffer. -/
abbrev ms1_0 (t : Fin cfg1.N) : Memref sig .tc .vmem S8192 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)

/-- What the body is handed at point `t`: the invariant, what the core owes, and the four buffers at what they hold, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the two input buffers hold the edge tile's blocks; at a first edge tile the output
    buffers hold anything and are zeroed, at a later one they hold what the point before left; either way they end
    at the recursion's value at this point. The invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 153 = 0
  · rw [sum1_reset V c t h0, deg1_reset V c t h0]
    iintro ⟨HΦ, Ho, ⟨%d0, H0⟩, ⟨%d1, H1⟩, ⟨%d2, H2⟩, ⟨%d3, H3⟩⟩
    iapply (run1_reset c (grid1.coords t) (ms1_0 t) (hs1_0 t) (ms1_1 t) (hs1_1 t) (ms1_2 t) (hs1_2 t) (ms1_3 t) (hs1_3 t)
      ((hcond1 t).mpr h0) (dstB V c t) (msgB V c t) ((dat1 V c).before 2 t d2) ((dat1 V c).before 3 t d3) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [sum1_acc V c t h0, deg1_acc V c t h0]
    simp only [before1_2_acc V c t h0, before1_3_acc V c t h0]
    iintro ⟨HΦ, Ho, ⟨%d0, H0⟩, ⟨%d1, H1⟩, ⟨%d2, H2⟩, ⟨%d3, H3⟩⟩
    iapply (run1_acc c (grid1.coords t) (ms1_0 t) (hs1_0 t) (ms1_1 t) (hs1_1 t) (ms1_2 t) (hs1_2 t) (ms1_3 t) (hs1_3 t)
      (fun h => h0 ((hcond1 t).mp h)) (dstB V c t) (msgB V c t)
      (sum1 V c (t.val - 1) (Nat.lt_of_le_of_lt (Nat.sub_le _ _) t.isLt))
      (deg1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the scatter call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«415711_j52312701665803_3_alg».proof.Proof.K.Dats
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Call 2 at a grid point: three tiles in, the tile's scores out

The body reads the whole of its three input tiles (the sums, the in-degrees, the features, in that order), and
stores the whole score tile once. So the inputs are left as found and the output holds the pointwise score of
the three tiles, whatever it held before. -/

/-! ## The input tiles stay in their staging buffers -/

/-- The feature tile's current staging buffer holds the tile at every point: the window is an input, uncut and
    never idle, and the body leaves it as found. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Likewise the tile of feature sums. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Likewise the tile of in-degrees. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The body's accesses are of whole tiles -/

/-- The offsets of every access are zero. -/
theorem zeros2_r1 : (![0] : Fin 1 → Nat) = fun _ => 0 := funext fun a => by fin_cases a <;> rfl
theorem zeros2_r2 : (![0, 0] : Fin 2 → Nat) = fun _ => 0 := funext fun a => by fin_cases a <;> rfl

/-- The one store, of the whole score tile, covers that tile. -/
theorem cover2_3 (p : Vec F S512 .f32) (y : S512.Idx) :
    ∃ pc ∈ ([⟨Rect.unit (s := S512) ![0] S512.size inb_S512_S512_0, p⟩] : List (View.Piece (Elt F) S512 .f32)), y ∈ pc.1.set :=
  ⟨_, List.mem_singleton_self _, View.mem_set_unit_zero zeros2_r1 inb_S512_S512_0 y⟩

/-! ## The body's triple -/

set_option maxHeartbeats 1000000 in
/-- The body on whole staging memrefs — the features at `x0`, the sums at `x1`, the in-degrees at `x2`, the score
    tile at anything — runs to the continuation holding the inputs as they were and the score tile at the
    pointwise score of the three. -/
theorem sound_kernel2 (c : Dev nD) (E : Set ℕ) (i : grid2.Coords)
    (arg1 : Memref sig .tc .vmem S512x64 .f32) (harg1 : arg1.IsWhole)
    (arg2 : Memref sig .tc .vmem S512x64 .f32) (harg2 : arg2.IsWhole)
    (arg3 : Memref sig .tc .vmem S512x1 .f32) (harg3 : arg3.IsWhole)
    (arg4 : Memref sig .tc .vmem S512 .f32) (harg4 : arg4.IsWhole)
    (x0 : Vec F S512x64 .f32) (x1 : Vec F S512x64 .f32) (x2 : Vec F S512x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k2_pay1 x1 x2 x0)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover2_3 _)).trans ?_
  rw [View.canon_unit_zero zeros2_r1]
  simp only [View.readAt_eq_ld, View.ld_unit_zero (S := S512x64) zeros2_r2, View.ld_unit_zero (S := S512x1) zeros2_r2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their tiles, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold score2
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of @main: ten stretches of host operations, the three pipelined calls one after another, and a last host
  operation.  Between two of these the core's unscoped buffers stand at contents named here: the launch memory
  carried through the host prefix, then after each call its windows' arrays at what the call's write-backs leave and
  every other buffer untouched, then the last host operation applied.  From the three body obligations every weakly
  fair execution terminates with every unscoped buffer at the last of these contents; the four arguments are
  written by no host operation and are no window's array, so they end as launched.
-/
import proofs.«415711_j52312701665803_3_alg».proof.Proof.K.Dats
import proofs.«415711_j52312701665803_3_alg».proof.Proof.K.Body0
import proofs.«415711_j52312701665803_3_alg».proof.Proof.K.Body1
import proofs.«415711_j52312701665803_3_alg».proof.Proof.K.Body2
import proofs.«415711_j52312701665803_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

-- the launch memory and the generator registers
variable (m : (ℓ : Loc nD τ sig) → Buf (Elt F) ℓ) (ρ : Dev nD → PrngReg)

/-! ## The buffer contents at each boundary after the host prefix -/

/-- What call 0 is entered with: the launch memory carried through the ten host stretches, read at the
    TensorCore's references. -/
abbrev E0 : (c : Dev nD) → (b : Ref sig .tc) → Buf (Elt F) ((c : Thread nD τ).loc b) := fun c b => V10 m c b

/-- After call 0: its windows' arrays at what the write-backs leave (an input as entered), every other buffer as
    entered. -/
def W11 (c : Dev nD) : Valuation τ sig (Elt F) :=
  Pipeline.withArrays spec0 c (V10 m c) fun w => (dat0 (E0 m) c).arrAt w cfg0.N
theorem W11_arr (c : Dev nD) (w : Fin cfg0.W) :
    W11 m c (Proc.devRef .tc (Pipeline.arrRef spec0 w)) = (dat0 (E0 m) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m c (Proc.devRef .tc b) = V10 m c (Proc.devRef .tc b) := by
  unfold W11; exact Pipeline.withArrays_of_ne spec0 c _ _ b hb
/-- What call 1 is entered with: what call 0 left (no host operation stands between them). -/
abbrev E1 : (c : Dev nD) → (b : Ref sig .tc) → Buf (Elt F) ((c : Thread nD τ).loc b) := fun c b => W11 m c b
theorem hF0 (c : Dev nD) (w : Fin cfg0.W) : (dat0 (E0 m) c).arrAt w cfg0.N = E1 m c (Pipeline.arrRef spec0 w) :=
  (W11_arr m c w).symm
theorem hrest0 (c : Dev nD) : ∀ b, b ∉ Finset.univ.image (Pipeline.arrRef spec0) → E1 m c b = E0 m c b :=
  fun b hb => W11_of_ne m c b fun w e => hb (Finset.mem_image.mpr ⟨w, Finset.mem_univ _, e⟩)

/-- After call 1, likewise. -/
def W12 (c : Dev nD) : Valuation τ sig (Elt F) :=
  Pipeline.withArrays spec1 c (W11 m c) fun w => (dat1 (E1 m) c).arrAt w cfg1.N
theorem W12_arr (c : Dev nD) (w : Fin cfg1.W) :
    W12 m c (Proc.devRef .tc (Pipeline.arrRef spec1 w)) = (dat1 (E1 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
/-- What call 2 is entered with: what call 1 left. -/
abbrev E2 : (c : Dev nD) → (b : Ref sig .tc) → Buf (Elt F) ((c : Thread nD τ).loc b) := fun c b => W12 m c b
theorem hF1 (c : Dev nD) (w : Fin cfg1.W) : (dat1 (E1 m) c).arrAt w cfg1.N = E2 m c (Pipeline.arrRef spec1 w) :=
  (W12_arr m c w).symm
theorem hrest1 (c : Dev nD) : ∀ b, b ∉ Finset.univ.image (Pipeline.arrRef spec1) → E2 m c b = E1 m c b :=
  fun b hb => W12_of_ne m c b fun w e => hb (Finset.mem_image.mpr ⟨w, Finset.mem_univ _, e⟩)

/-- After call 2, likewise. -/
def W13 (c : Dev nD) : Valuation τ sig (Elt F) :=
  Pipeline.withArrays spec2 c (W12 m c) fun w => (dat2 (E2 m) c).arrAt w cfg2.N
theorem W13_arr (c : Dev nD) (w : Fin cfg2.W) :
    W13 m c (Proc.devRef .tc (Pipeline.arrRef spec2 w)) = (dat2 (E2 m) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m c (Proc.devRef .tc b) = W12 m c (Proc.devRef .tc b) := by
  unfold W13; exact Pipeline.withArrays_of_ne spec2 c _ _ b hb
/-- What call 2 left, read at the TensorCore's references. -/
abbrev E3 : (c : Dev nD) → (b : Ref sig .tc) → Buf (Elt F) ((c : Thread nD τ).loc b) := fun c b => W13 m c b
theorem hF2 (c : Dev nD) (w : Fin cfg2.W) : (dat2 (E2 m) c).arrAt w cfg2.N = E3 m c (Pipeline.arrRef spec2 w) :=
  (W13_arr m c w).symm
theorem hrest2 (c : Dev nD) : ∀ b, b ∉ Finset.univ.image (Pipeline.arrRef spec2) → E3 m c b = E2 m c b :=
  fun b hb => W13_of_ne m c b fun w e => hb (Finset.mem_image.mpr ⟨w, Finset.mem_univ _, e⟩)

/-- After the last host operation: the contents @main returns with. -/
abbrev W14 (c : Dev nD) : Valuation τ sig (Elt F) := StableHlo.after hostOps3 (W13 m c)

/-! ### The arguments end as launched -/

/-- `main_arg0` ends as launched: the last host stretch does not write it, it is no window's array of any of the
    three calls, and no stretch of the host prefix writes it. -/
theorem W14_main_arg0 (c : Dev nD) : W14 m c (Proc.devRef .tc main_arg0) = m ((c : Thread nD τ).loc main_arg0) :=
  calc W14 m c (Proc.devRef .tc main_arg0)
    _ = W13 m c (Proc.devRef .tc main_arg0) := StableHlo.after_of_writes_sub hostOps3 _ hostOps3_writes (by decide)
    _ = W12 m c (Proc.devRef .tc main_arg0) := W13_of_ne m c main_arg0 (by decide)
    _ = W11 m c (Proc.devRef .tc main_arg0) := W12_of_ne m c main_arg0 (by decide)
    _ = V10 m c (Proc.devRef .tc main_arg0) := W11_of_ne m c main_arg0 (by decide)
    _ = m ((c : Thread nD τ).loc main_arg0) :=
      (V10_of m c main_arg0 (by decide)).trans <| (V9_of m c main_arg0 (by decide)).trans <| (V8_of m c main_arg0 (by decide)).trans <|
      (V7_of m c main_arg0 (by decide)).trans <| (V6_of m c main_arg0 (by decide)).trans <| (V5_of m c main_arg0 (by decide)).trans <|
      (V4_of m c main_arg0 (by decide)).trans <| (V3_of m c main_arg0 (by decide)).trans <| (V2_of m c main_arg0 (by decide)).trans <|
      (V1_of m c main_arg0 (by decide)).trans rfl

/-- `main_arg1` ends as launched: the last host stretch does not write it, it is no window's array of any of the
    three calls, and no stretch of the host prefix writes it. -/
theorem W14_main_arg1 (c : Dev nD) : W14 m c (Proc.devRef .tc main_arg1) = m ((c : Thread nD τ).loc main_arg1) :=
  calc W14 m c (Proc.devRef .tc main_arg1)
    _ = W13 m c (Proc.devRef .tc main_arg1) := StableHlo.after_of_writes_sub hostOps3 _ hostOps3_writes (by decide)
    _ = W12 m c (Proc.devRef .tc main_arg1) := W13_of_ne m c main_arg1 (by decide)
    _ = W11 m c (Proc.devRef .tc main_arg1) := W12_of_ne m c main_arg1 (by decide)
    _ = V10 m c (Proc.devRef .tc main_arg1) := W11_of_ne m c main_arg1 (by decide)
    _ = m ((c : Thread nD τ).loc main_arg1) :=
      (V10_of m c main_arg1 (by decide)).trans <| (V9_of m c main_arg1 (by decide)).trans <| (V8_of m c main_arg1 (by decide)).trans <|
      (V7_of m c main_arg1 (by decide)).trans <| (V6_of m c main_arg1 (by decide)).trans <| (V5_of m c main_arg1 (by decide)).trans <|
      (V4_of m c main_arg1 (by decide)).trans <| (V3_of m c main_arg1 (by decide)).trans <| (V2_of m c main_arg1 (by decide)).trans <|
      (V1_of m c main_arg1 (by decide)).trans rfl

/-- `main_arg2` ends as launched: the last host stretch does not write it, it is no window's array of any of the
    three calls, and no stretch of the host prefix writes it. -/
theorem W14_main_arg2 (c : Dev nD) : W14 m c (Proc.devRef .tc main_arg2) = m ((c : Thread nD τ).loc main_arg2) :=
  calc W14 m c (Proc.devRef .tc main_arg2)
    _ = W13 m c (Proc.devRef .tc main_arg2) := StableHlo.after_of_writes_sub hostOps3 _ hostOps3_writes (by decide)
    _ = W12 m c (Proc.devRef .tc main_arg2) := W13_of_ne m c main_arg2 (by decide)
    _ = W11 m c (Proc.devRef .tc main_arg2) := W12_of_ne m c main_arg2 (by decide)
    _ = V10 m c (Proc.devRef .tc main_arg2) := W11_of_ne m c main_arg2 (by decide)
    _ = m ((c : Thread nD τ).loc main_arg2) :=
      (V10_of m c main_arg2 (by decide)).trans <| (V9_of m c main_arg2 (by decide)).trans <| (V8_of m c main_arg2 (by decide)).trans <|
      (V7_of m c main_arg2 (by decide)).trans <| (V6_of m c main_arg2 (by decide)).trans <| (V5_of m c main_arg2 (by decide)).trans <|
      (V4_of m c main_arg2 (by decide)).trans <| (V3_of m c main_arg2 (by decide)).trans <| (V2_of m c main_arg2 (by decide)).trans <|
      (V1_of m c main_arg2 (by decide)).trans rfl

/-- `main_arg3` ends as launched: the last host stretch does not write it, it is no window's array of any of the
    three calls, and no stretch of the host prefix writes it. -/
theorem W14_main_arg3 (c : Dev nD) : W14 m c (Proc.devRef .tc main_arg3) = m ((c : Thread nD τ).loc main_arg3) :=
  calc W14 m c (Proc.devRef .tc main_arg3)
    _ = W13 m c (Proc.devRef .tc main_arg3) := StableHlo.after_of_writes_sub hostOps3 _ hostOps3_writes (by decide)
    _ = W12 m c (Proc.devRef .tc main_arg3) := W13_of_ne m c main_arg3 (by decide)
    _ = W11 m c (Proc.devRef .tc main_arg3) := W12_of_ne m c main_arg3 (by decide)
    _ = V10 m c (Proc.devRef .tc main_arg3) := W11_of_ne m c main_arg3 (by decide)
    _ = m ((c : Thread nD τ).loc main_arg3) :=
      (V10_of m c main_arg3 (by decide)).trans <| (V9_of m c main_arg3 (by decide)).trans <| (V8_of m c main_arg3 (by decide)).trans <|
      (V7_of m c main_arg3 (by decide)).trans <| (V6_of m c main_arg3 (by decide)).trans <| (V5_of m c main_arg3 (by decide)).trans <|
      (V4_of m c main_arg3 (by decide)).trans <| (V3_of m c main_arg3 (by decide)).trans <| (V2_of m c main_arg3 (by decide)).trans <|
      (V1_of m c main_arg3 (by decide)).trans rfl

/-! ## The proof data family and the thread state -/

/-- Every call's proof data, each at the contents its call is entered with: a literal match, so that the
    configuration of a call named by a numeral reduces to the printed one. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the
    core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it is left at
    the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the contents @main returns with. -/
abbrev Tₙ (c : Dev nD) : sProp 𝕄 := StableHlo.held (c : Thread nD τ) (Pipeline.ucRefs τ sig) (W14 m c)

/-- The last host segment leaves the last thread state beside the core owing nothing. -/
theorem last_step (c : Dev nD) : iprop(StableHlo.held (c : Thread nD τ) (Pipeline.ucRefs τ sig) (W14 m c) ∗ R c)
    ⊢ iprop(Tₙ m c ∗ ∃ W, owes (c : Thread nD τ) (0 : CellTallies nD τ sig Unit) W) := by
  iintro ⟨Hh, -, HO⟩
  isplitl [Hh]; · iexact Hh
  iexact HO

/-! ## The three calls as segments -/

set_option backward.isDefEq.respectTransparency.types false in
/-- Call 0 as a segment: entered from every unscoped buffer at `V10`, left at `W11`. Its windows' arrays are split
    out of the unscoped buffers and put back at what the write-backs leave; the generator register goes into the
    call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi_in0 (E0 m) c)
    unfold Pipeline.ΦA
    iintro ⟨Hp, -, Hr⟩
    isplitl [Hr]; · iexact Hr
    iexact Hp
  hout c := by
    refine (Phi_out0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from every unscoped buffer at `W11`, left at `W12`. Its windows' arrays are split
    out of the unscoped buffers and put back at what the write-backs leave; the generator register goes into the
    call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from every unscoped buffer at `W12`, left at `W13`. Its windows' arrays are split
    out of the unscoped buffers and put back at what the write-backs leave; the generator register goes into the
    call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 14 segments in order: the ten host stretches, the three calls, the last host operation. -/
abbrev runSegs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .region (reg0 m),
    .region (reg1 m),
    .region (reg2 m),
    .host (hseg hostOps3 hostOps3_sub hostOps3_fresh (W13 m)) ]
/-- @main is the run of the segments. -/
theorem main_run (c : Dev nD) : main (F := F) c = Pipeline.Seg.run (runSegs m) := (main_chain c).trans (by chain_rfl)

set_option backward.isDefEq.respectTransparency.types false in
/-- From any memory with zero counters, every weakly fair execution of @main terminates, nothing faulting, and in every
    final state each core's unscoped buffers stand at the contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨Hh, HSI⟩
      unfold Tₙ StableHlo.held
      imodintro
      iapply (pointsTo_read_all (Pipeline.ucRefs τ sig) (fun b => (((c : Thread nD τ)).1, b)) (W14 m c) s')
      isplitl [Hh] <;> iassumption)
    (hQ := fun s h => h)

/-- The frame: every weakly fair execution of @main terminates, nothing faulting, and every final state has the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c)⟩) (run_all m ρ)

end Cert.Kernel.Hand

end
-- ==== Proof.KI.Dats.lean ====
/-
  What each of the three pipelined calls leaves in its staging buffers, point by point, as pure functions of
  the arrays the call is entered with.

  Call 0 walks a grid of 153 edge tiles by 196 node tiles, node tile innermost.  Its scratch accumulator is
  zeroed at node tile 0 and then, at every node tile n, gains the product of the tile's one-hot matrix
  (edge row r, column j is 1 exactly when the edge's source id is 512·n + j) with the node tile's feature
  rows; at node tile 195 the accumulator, scaled row by row by the edge weights, is the message block written out.
  Call 1 walks 196 node tiles by 153 edge tiles, edge tile innermost: its two output blocks (feature sums and
  in-degrees of the node tile) are zeroed at edge tile 0 and gain, at every edge tile, the transposed one-hot
  matrix of the destination ids times the message block (respectively times a column of ones).
  Call 2 is pointwise per node tile: |Σ_d (h − sum / max(deg, 1))|.
-/
import proofs.«415711_j52312701665803_3_alg».proof.Proof.Gen.KernelIdeal.Launch
import proofs.«415711_j52312701665803_3_alg».proof.Proof.Gen.KernelIdeal.Skeleton
import proofs.«415711_j52312701665803_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when a call is entered: every definition below is stated at it
variable (V : (c : Dev nD) → (b : Ref sig .tc) → Buf (Elt F) ((c : Thread nD τ).loc b))

/-! ## Call 0: gather by one-hot products, accumulated over the node tiles -/

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge tile's source ids, its weights, and the node tile's feature rows at point `t`. -/
abbrev srcB (c : Dev nD) (t : Fin cfg0.N) : Vec F S8192 .i32 := iblk0 V c 0 t
abbrev wtsB (c : Dev nD) (t : Fin cfg0.N) : Vec F S8192 .f32 := iblk0 V c 1 t
abbrev hB (c : Dev nD) (t : Fin cfg0.N) : Vec F S512x64 .f32 := iblk0 V c 2 t

/-- The accumulator after point `n`: the point's one-hot product added to zero at the first node tile of an
    edge tile (`n % 196 = 0`), to what the point before left otherwise. -/
def acc0 (c : Dev nD) : (n : ℕ) → n < cfg0.N → Vec F S8192x64 .f32
  | 0, hn => k0_pay2 (grid0.coords ⟨0, hn⟩) (srcB V c ⟨0, hn⟩) (hB V c ⟨0, hn⟩) k0_pay1
  | n + 1, hn => k0_pay2 (grid0.coords ⟨n + 1, hn⟩) (srcB V c ⟨n + 1, hn⟩) (hB V c ⟨n + 1, hn⟩)
      (if (n + 1) % 196 = 0 then k0_pay1 else acc0 c n (Nat.lt_of_succ_lt hn))

/-- The message block the body stores at a last node tile: the accumulator scaled by the weights. -/
def msg0 (c : Dev nD) (t : Fin cfg0.N) : Vec F S8192x64 .bf16 := k0_pay3 (acc0 V c t.val t.isLt) (wtsB V c t)

/-- The core's scoped buffers other than call 0's staging buffers and its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The invariant of call 0 before point `n`: before the first point everything scoped that the call does not
    stage is at some contents; afterwards the accumulator holds what the point before left. -/
def Phi0 (c : Dev nD) : (n : ℕ) → n ≤ cfg0.N → sProp 𝕄
  | 0, _ => Pipeline.ΦA spec0 c
  | n + 1, hn => iprop(owns (c : Thread nD τ) (Memref.whole cc0_scratch0) fullShare (acc0 V c n hn) ∗ rest0 (F := F) c ∗ (∃ r, prngReg c r))

/-- The proof data of call 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => msg0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = msg0 V c t := by dsimp only [dat0]

/-! ## Call 1: scatter by transposed one-hot products, accumulated over the edge tiles -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge tile's destination ids and its message block at point `t`. -/
abbrev dstB (c : Dev nD) (t : Fin cfg1.N) : Vec F S8192 .i32 := iblk1 V c 0 t
abbrev msgB (c : Dev nD) (t : Fin cfg1.N) : Vec F S8192x64 .bf16 := iblk1 V c 1 t

/-- The feature-sum block after point `n`: the point's product added to zero at the first edge tile of a
    node tile (`n % 153 = 0`), to what the point before left otherwise. -/
def sum1 (c : Dev nD) : (n : ℕ) → n < cfg1.N → Vec F S512x64 .f32
  | 0, hn => k1_pay4 (grid1.coords ⟨0, hn⟩) (dstB V c ⟨0, hn⟩) (msgB V c ⟨0, hn⟩) k1_pay1
  | n + 1, hn => k1_pay4 (grid1.coords ⟨n + 1, hn⟩) (dstB V c ⟨n + 1, hn⟩) (msgB V c ⟨n + 1, hn⟩)
      (if (n + 1) % 153 = 0 then k1_pay1 else sum1 c n (Nat.lt_of_succ_lt hn))

/-- The in-degree block after point `n`, likewise. -/
def deg1 (c : Dev nD) : (n : ℕ) → n < cfg1.N → Vec F S512x1 .f32
  | 0, hn => k1_pay5 (grid1.coords ⟨0, hn⟩) (dstB V c ⟨0, hn⟩) k1_pay2
  | n + 1, hn => k1_pay5 (grid1.coords ⟨n + 1, hn⟩) (dstB V c ⟨n + 1, hn⟩)
      (if (n + 1) % 153 = 0 then k1_pay2 else deg1 c n (Nat.lt_of_succ_lt hn))

/-- The proof data of call 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => sum1 V c t.val t.isLt
    | ⟨3, _⟩ => deg1 V c t.val t.isLt
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = sum1 V c t.val t.isLt := by dsimp only [dat1]
theorem after1_3 (c : Dev nD) (t : Fin cfg1.N) : (dat1 V c).after 3 t = deg1 V c t.val t.isLt := by dsimp only [dat1]

/-! ## Call 2: the score of a node tile -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The score block of node tile `t`: of the tile's sums, in-degrees and features. -/
def score2 (c : Dev nD) (t : Fin cfg2.N) : Vec F S512 .f32 := k2_pay1 (iblk2 V c 1 t) (iblk2 V c 2 t) (iblk2 V c 0 t)

/-- The proof data of call 2. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => score2 V c t
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = score2 V c t := by dsimp only [dat2]

end Cert.KernelIdeal.Hand

end
-- ==== Proof.KI.Grid.lean ====
/-
  The grids' coordinates in closed form, and the kernels' conditions on them.  A grid point is numbered row-major:
  on the 153 × 196 grid of call 0 point t has coordinates (t / 196, t % 196), on the 196 × 153 grid of call 1
  (t / 153, t % 153), on the 196-point grid of call 2 (t).  The printed test "coordinate = k" is a word compare
  widened to 32 bits and compared with zero; it holds exactly when the coordinate is k.
-/
import proofs.«415711_j52312701665803_3_alg».proof.Proof.Gen.KernelIdeal.Launch

noncomputable section

namespace Cert.KernelIdeal.Hand

open Cert.KernelIdeal Cert.KernelIdeal.Gen
open Idealize.ShloMosaic

theorem ofNat_eq_iff (n k : ℕ) (hn : n < 2 ^ 32) (hk : k < 2 ^ 32) : (BitVec.ofNat 32 n = BitVec.ofNat 32 k) ↔ n = k := by
  constructor
  · intro h
    have := congrArg BitVec.toNat h
    simp only [BitVec.toNat_ofNat] at this
    rwa [Nat.mod_eq_of_lt hn, Nat.mod_eq_of_lt hk] at this
  · rintro rfl; rfl

/-- The printed test "word of n = word of k", widened and compared with zero, says n = k. -/
theorem cond_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  rw [← ofNat_eq_iff n k hn hk]
  by_cases h : BitVec.ofNat 32 n = BitVec.ofNat 32 k
  · simp only [h, iff_true]
    simp only [Scalar.cmpi, IntOp.cmpi, beq_self_eq_true, Scalar.extui]
    decide
  · simp only [h, iff_false]
    have hb : (BitVec.ofNat 32 n == BitVec.ofNat 32 k) = false := by simpa using h
    simp only [Scalar.cmpi, IntOp.cmpi, hb, Scalar.extui]
    decide

/-! ## Call 0: 153 edge tiles by 196 node tiles -/

theorem lt_N0 (t : Fin cfg0.N) : t.val < 29988 := lt_of_lt_of_eq t.isLt N_0

/-- The node-tile coordinate of point `t`. -/
theorem coords0_1 (t : Fin cfg0.N) : ((grid0.coords t) 1).val = t.val % 196 := by
  show t.val / grid0.stride 1 % 196 = _
  rw [show grid0.stride 1 = 1 from by decide, Nat.div_one]

/-- The edge-tile coordinate of point `t`. -/
theorem coords0_0 (t : Fin cfg0.N) : ((grid0.coords t) 0).val = t.val / 196 := by
  show t.val / grid0.stride 0 % 153 = _
  rw [show grid0.stride 0 = 196 from by decide]
  exact Nat.mod_eq_of_lt (by have := lt_N0 t; omega)

/-- The accumulator is zeroed exactly at the first node tile of an edge tile. -/
theorem hfirst0 (t : Fin cfg0.N) :
    Scalar.cmpi .ne (Scalar.extui (Scalar.cmpi .eq (BitVec.ofNat 32 ((grid0.coords t) 1).val) 0#32)) 0#32 = 1#1 ↔ t.val % 196 = 0 := by
  rw [coords0_1]
  exact cond_iff (t.val % 196) 0 (by omega) (by omega)

/-- The message block is stored exactly at the last node tile of an edge tile. -/
theorem hlast0 (t : Fin cfg0.N) : k0_cond2 (grid0.coords t) = 1#1 ↔ t.val % 196 = 195 := by
  unfold k0_cond2
  dsimp only
  rw [coords0_1]
  exact cond_iff (t.val % 196) 195 (by omega) (by omega)

/-! ## Call 1: 196 node tiles by 153 edge tiles -/

theorem lt_N1 (t : Fin cfg1.N) : t.val < 29988 := lt_of_lt_of_eq t.isLt N_1

/-- The edge-tile coordinate of point `t`. -/
theorem coords1_1 (t : Fin cfg1.N) : ((grid1.coords t) 1).val = t.val % 153 := by
  show t.val / grid1.stride 1 % 153 = _
  rw [show grid1.stride 1 = 1 from by decide, Nat.div_one]

/-- The node-tile coordinate of point `t`. -/
theorem coords1_0 (t : Fin cfg1.N) : ((grid1.coords t) 0).val = t.val / 153 := by
  show t.val / grid1.stride 0 % 196 = _
  rw [show grid1.stride 0 = 153 from by decide]
  exact Nat.mod_eq_of_lt (by have := lt_N1 t; omega)

/-- The two output blocks are zeroed exactly at the first edge tile of a node tile. -/
theorem hfirst1 (t : Fin cfg1.N) :
    Scalar.cmpi .ne (Scalar.extui (Scalar.cmpi .eq (BitVec.ofNat 32 ((grid1.coords t) 1).val) 0#32)) 0#32 = 1#1 ↔ t.val % 153 = 0 := by
  rw [coords1_1]
  exact cond_iff (t.val % 153) 0 (by omega) (by omega)

/-! ## Call 2: 196 node tiles -/

theorem lt_N2 (t : Fin cfg2.N) : t.val < 196 := lt_of_lt_of_eq t.isLt N_2

theorem coords2_0 (t : Fin cfg2.N) : ((grid2.coords t) 0).val = t.val := by
  show t.val / grid2.stride 0 % 196 = _
  rw [show grid2.stride 0 = 1 from by decide, Nat.div_one]
  exact Nat.mod_eq_of_lt (lt_N2 t)

end Cert.KernelIdeal.Hand

end
-- ==== Proof.KI.Body0.lean ====
import proofs.«415711_j52312701665803_3_alg».proof.Proof.KI.Dats
import proofs.«415711_j52312701665803_3_alg».proof.Proof.KI.Grid
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two conditions of the body, in closed form over the grid

The body branches twice on the node-tile coordinate alone: it clears the accumulator when the coordinate is 0,
and writes the message block out when it is 195. Along the row-major walk of the 153 × 196 grid the node-tile
coordinate of point `t` is `t mod 196`. -/

/-- The accumulator is cleared at this point: the node-tile coordinate is 0. -/
abbrev cond0_reset (i : grid0.Coords) : Prop :=
  (Scalar.cmpi .ne (Scalar.extui (Scalar.cmpi .eq (BitVec.ofNat 32 (i 1).val) 0#32)) 0#32) = 1#1

/-- The message block is written at this point: the node-tile coordinate is 195. -/
abbrev cond0_emit (i : grid0.Coords) : Prop := k0_cond2 i = 1#1

/-- At point `t` the first holds exactly when `t mod 196 = 0`, the second exactly when `t mod 196 = 195`. -/
theorem hcond0_reset (t : Fin cfg0.N) : cond0_reset (grid0.coords t) ↔ t.val % 196 = 0 := hfirst0 t

theorem hcond0_emit (t : Fin cfg0.N) : cond0_emit (grid0.coords t) ↔ t.val % 196 = 195 := hlast0 t

/-! ## Where the windows are idle -/

/-- The three input windows are live at every point. -/
theorem live0_0 (i : grid0.Coords) : cfg0.idle 0 i = false := rfl
theorem live0_1 (i : grid0.Coords) : cfg0.idle 1 i = false := rfl
theorem live0_2 (i : grid0.Coords) : cfg0.idle 2 i = false := rfl

/-- The output window is idle exactly where the message block is not written. -/
theorem idle0_3_eq (i : grid0.Coords) : cfg0.idle 3 i = !(k0_cond2 i == 1#1) := rfl

theorem idle0_3_of (i : grid0.Coords) (h : ¬cond0_emit i) : cfg0.idle 3 i = true := by
  rw [idle0_3_eq, Bool.not_eq_true', beq_eq_false_iff_ne]; exact h

theorem live0_3_of (i : grid0.Coords) (h : cond0_emit i) : cfg0.idle 3 i = false := by
  rw [idle0_3_eq, show k0_cond2 i = 1#1 from h]
  try rfl

/-- Away from the last node tile of an edge tile the message block is not written back. -/
theorem noFlush0_3 (t : Fin cfg0.N) (h : ¬t.val % 196 = 195) : (cfg0.win 3).flush t = false :=
  Bool.eq_false_iff.mpr fun hf => h ((flush0_3 t).mp hf)

/-! ## The staging buffers at a point -/

abbrev ms0_0 (t : Fin cfg0.N) : Memref sig .tc .vmem S8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x64 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S8192x64 .f32 := Memref.whole cc0_scratch0

/-- Zero offsets, as the body's whole-buffer loads and stores spell them. -/
theorem zeroOff0_1 : (![0] : Fin 1 → Nat) = fun _ => 0 := funext fun a => by fin_cases a <;> rfl
theorem zeroOff0_2 : (![0, 0] : Fin 2 → Nat) = fun _ => 0 := funext fun a => by fin_cases a <;> rfl

/-! ## The body on whole buffers, case by case

Every load and store of the body is of a whole buffer, so each case is stated with the contents it leaves written
out. In all three the body reads the source ids `x0` and the feature rows `x2` and leaves the accumulator at the
one-hot product of the two added to what the accumulator held — zero, after the clearing store, in the first case. -/

set_option maxHeartbeats 1000000 in
/-- First node tile of an edge tile: the accumulator, found at anything, is cleared and then gains the product. -/
theorem run0_reset (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S512x64 .f32) (harg4 : arg4.IsWhole) (arg5 : Memref sig .tc .vmem S8192x64 .bf16) (harg5 : arg5.IsWhole)
    (arg6 : Memref sig .tc .vmem S8192x64 .f32) (harg6 : arg6.IsWhole) (hc0 : cond0_reset i) (hc1 : ¬cond0_emit i)
    (x0 : Vec F S8192 .i32) (x2 : Vec F S512x64 .f32) (E : Set ℕ) (K : PUnit → sProp 𝕄) :
    iprop(owns (c : Thread nD τ) arg2 fullShare x0 ∗ owns (c : Thread nD τ) arg4 fullShare x2 ∗ (∃ d, owns (c : Thread nD τ) arg6 fullShare d)
        ∗ (iprop(owns (c : Thread nD τ) arg2 fullShare x0 ∗ owns (c : Thread nD τ) arg4 fullShare x2
            ∗ owns (c : Thread nD τ) arg6 fullShare (k0_pay2 i x0 x2 k0_pay1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f2, %hf2, H2⟩, ⟨%ds, %fs, -, HS⟩, Hk⟩
  obtain rfl := harg2.eq_unread hf0; obtain rfl := harg4.eq_unread hf2
  sl_exec (disch := first | exact hc0 | exact hc1)
  sl_step
  iapply Hk
  isplitl [H0]
  · iexists _; isplitr; · ipureintro; exact harg2.read_unread _
    iexact H0
  isplitl [H2]
  · iexists _; isplitr; · ipureintro; exact harg4.read_unread _
    iexact H2
  iexists _; isplitr
  swap; · iexact HS
  ipureintro
  sl_unfold_words
  rw [View.read_writes_eq_canon _ _ _ (fun y => ⟨_, List.Mem.head _, View.mem_set_unit_zero zeroOff0_2 inb_S8192x64_S8192x64_0_0 y⟩)]
  rw [View.canon_cons_unit_zero (S := S8192x64) zeroOff0_2]
  simp only [View.readAt_eq_ld, harg2.read_unread, harg4.read_unread, View.ld_unit_zero (S := S8192) zeroOff0_1,
    View.ld_unit_zero (S := S512x64) zeroOff0_2, View.readCov_unit_zero (S := S8192x64) _ zeroOff0_2]

set_option maxHeartbeats 1000000 in
/-- A node tile that is neither first nor last: the accumulator, found at `xs`, gains the product. -/
theorem run0_add (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S512x64 .f32) (harg4 : arg4.IsWhole) (arg5 : Memref sig .tc .vmem S8192x64 .bf16) (harg5 : arg5.IsWhole)
    (arg6 : Memref sig .tc .vmem S8192x64 .f32) (harg6 : arg6.IsWhole) (hc0 : ¬cond0_reset i) (hc1 : ¬cond0_emit i)
    (x0 : Vec F S8192 .i32) (x2 : Vec F S512x64 .f32) (xs : Vec F S8192x64 .f32) (E : Set ℕ) (K : PUnit → sProp 𝕄) :
    iprop(owns (c : Thread nD τ) arg2 fullShare x0 ∗ owns (c : Thread nD τ) arg4 fullShare x2 ∗ owns (c : Thread nD τ) arg6 fullShare xs
        ∗ (iprop(owns (c : Thread nD τ) arg2 fullShare x0 ∗ owns (c : Thread nD τ) arg4 fullShare x2
            ∗ owns (c : Thread nD τ) arg6 fullShare (k0_pay2 i x0 x2 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f2, %hf2, H2⟩, ⟨%fs, %hfs, HS⟩, Hk⟩
  obtain rfl := harg2.eq_unread hf0; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H2]
  · iexists _; isplitr; · ipureintro; exact harg4.read_unread _
    iexact H2
  iexists _; isplitr
  swap; · iexact HS
  ipureintro
  sl_unfold_words
  rw [View.read_writes_eq_canon _ _ _ (fun y => ⟨_, List.Mem.head _, View.mem_set_unit_zero zeroOff0_2 inb_S8192x64_S8192x64_0_0 y⟩)]
  rw [View.canon_cons_unit_zero (S := S8192x64) zeroOff0_2]
  simp only [View.readAt_eq_ld, harg2.read_unread, harg4.read_unread, harg6.read_unread, View.ld_unit_zero (S := S8192) zeroOff0_1,
    View.ld_unit_zero (S := S512x64) zeroOff0_2, View.ld_unit_zero (S := S8192x64) zeroOff0_2]

set_option maxHeartbeats 1000000 in
/-- Last node tile of an edge tile: the accumulator gains the product, and the output buffer, found at anything, is
    left at the new accumulator scaled row by row by the weights `x1`. -/
theorem run0_emit (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S512x64 .f32) (harg4 : arg4.IsWhole) (arg5 : Memref sig .tc .vmem S8192x64 .bf16) (harg5 : arg5.IsWhole)
    (arg6 : Memref sig .tc .vmem S8192x64 .f32) (harg6 : arg6.IsWhole) (hc0 : ¬cond0_reset i) (hc1 : cond0_emit i)
    (x0 : Vec F S8192 .i32) (x1 : Vec F S8192 .f32) (x2 : Vec F S512x64 .f32) (xs : Vec F S8192x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 i x0 x2 xs) x1)
            ∗ owns (c : Thread nD τ) arg6 fullShare (k0_pay2 i x0 x2 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.Mem.head _, View.mem_set_unit_zero zeroOff0_2 inb_S8192x64_S8192x64_0_0 y⟩)]
    rw [View.canon_cons_unit_zero (S := S8192x64) zeroOff0_2]
    simp only [View.readAt_eq_ld, harg2.read_unread, harg3.read_unread, harg4.read_unread, harg6.read_unread,
      View.ld_unit_zero (S := S8192) zeroOff0_1, View.ld_unit_zero (S := S512x64) zeroOff0_2,
      View.ld_unit_zero (S := S8192x64) zeroOff0_2, View.readCov_unit_zero (S := S8192x64) _ zeroOff0_2]
  iexists _; isplitr
  swap; · iexact HS
  ipureintro
  sl_unfold_words
  rw [View.read_writes_eq_canon _ _ _ (fun y => ⟨_, List.Mem.head _, View.mem_set_unit_zero zeroOff0_2 inb_S8192x64_S8192x64_0_0 y⟩)]
  rw [View.canon_cons_unit_zero (S := S8192x64) zeroOff0_2]
  simp only [View.readAt_eq_ld, harg2.read_unread, harg4.read_unread, harg6.read_unread, View.ld_unit_zero (S := S8192) zeroOff0_1,
    View.ld_unit_zero (S := S512x64) zeroOff0_2, View.ld_unit_zero (S := S8192x64) zeroOff0_2]

/-! ## The accumulator from point to point -/

/-- At a first node tile the accumulator after the point is the product alone. -/
theorem acc0_reset (c : Dev nD) (t : Fin cfg0.N) (h0 : t.val % 196 = 0) :
    acc0 V c t.val t.isLt = k0_pay2 (grid0.coords t) (srcB V c t) (hB V c t) k0_pay1 := by
  obtain ⟨n, hn⟩ := t
  cases n with
  | zero => rfl
  | succ n =>
    dsimp only at h0
    exact congrArg (k0_pay2 (grid0.coords ⟨n + 1, hn⟩) (srcB V c ⟨n + 1, hn⟩) (hB V c ⟨n + 1, hn⟩)) (if_pos h0)

/-- At any other node tile it is the product added to what the point before left. -/
theorem acc0_step (c : Dev nD) (t : Fin cfg0.N) (h0 : ¬t.val % 196 = 0) :
    acc0 V c t.val t.isLt = k0_pay2 (grid0.coords t) (srcB V c t) (hB V c t)
      (acc0 V c (t.val - 1) (Nat.lt_of_le_of_lt (Nat.sub_le _ _) t.isLt)) := by
  obtain ⟨n, hn⟩ := t
  cases n with
  | zero => exact absurd (Nat.zero_mod _) h0
  | succ n =>
    dsimp only at h0
    exact congrArg (k0_pay2 (grid0.coords ⟨n + 1, hn⟩) (srcB V c ⟨n + 1, hn⟩) (hB V c ⟨n + 1, hn⟩)) (if_neg h0)

/-! ## The invariant between points -/

theorem Phi0_zero (c : Dev nD) (n : ℕ) (h : n ≤ cfg0.N) (hz : n = 0) : Phi0 V c n h = Pipeline.ΦA spec0 c := by
  subst hz; rfl

/-- After point `n`: the accumulator at what that point left. -/
theorem Phi0_succ (c : Dev nD) (n : ℕ) (hn : n < cfg0.N) :
    Phi0 V c (n + 1) hn = iprop(owns (c : Thread nD τ) scM0 fullShare (acc0 V c n hn) ∗ rest0 (F := F) c ∗ (∃ r, prngReg c r)) := rfl

/-- Before a point that is not the first: the accumulator at what the point before left. -/
theorem Phi0_pos (c : Dev nD) (n : ℕ) (h : n ≤ cfg0.N) (hz : n ≠ 0) :
    Phi0 V c n h = iprop(owns (c : Thread nD τ) scM0 fullShare (acc0 V c (n - 1) (by omega)) ∗ rest0 (F := F) c ∗ (∃ r, prngReg c r)) := by
  cases n with
  | zero => exact absurd rfl hz
  | succ n => rfl

/-- What the launch hands the call: the accumulator at anything, the other scoped buffers, the generator register. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

theorem Phi0_castSucc (c : Dev nD) (t : Fin cfg0.N) :
    (dat0 V c).Φ t.castSucc = Phi0 V c t.val (Nat.le_of_lt t.isLt) := by
  dsimp only [dat0]; simp only [Fin.coe_castSucc]

/-! ## The input windows' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [live0_0 (grid0.coords t), after0_0]
theorem leaves0_1 (c : Dev nD) (t : Fin cfg0.N) :
    (dat0 V c).leavesExact 1 t = owns (c : Thread nD τ) (ms0_1 t) fullShare (iblk0 V c 1 t) := by
  unfold Dat.leavesExact; rw [live0_1 (grid0.coords t), after0_1]
theorem leaves0_2 (c : Dev nD) (t : Fin cfg0.N) :
    (dat0 V c).leavesExact 2 t = owns (c : Thread nD τ) (ms0_2 t) fullShare (iblk0 V c 2 t) := by
  unfold Dat.leavesExact; rw [live0_2 (grid0.coords t), after0_2]
theorem leaves0_3_emit (c : Dev nD) (t : Fin cfg0.N) (h : cond0_emit (grid0.coords t)) :
    (dat0 V c).leavesExact 3 t = owns (c : Thread nD τ) (ms0_3 t) fullShare (msg0 V c t) := by
  unfold Dat.leavesExact; rw [live0_3_of (grid0.coords t) h, after0_3]

set_option maxHeartbeats 4800000 in
/-- The body at any point. The input buffers hold their blocks; `t mod 196` says which case the point is in; the
    invariant hands the body the accumulator at what the point before left (at anything before the first point) and
    takes it back at what this point leaves; the output buffer is handed back untouched except at a last node tile,
    where it holds the message block; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2]
  have hN : t.val < 29988 := lt_of_lt_of_eq t.isLt (show cfg0.N = 29988 from N_0)
  by_cases h0 : t.val % 196 = 0
  · have hA : cond0_reset (grid0.coords t) := (hcond0_reset t).mpr h0
    have hC : ¬cond0_emit (grid0.coords t) := fun h => by have := (hcond0_emit t).mp h; omega
    rw [Dat.leavesExact_idle (dat0 V c) 3 t (idle0_3_of _ hC) (noFlush0_3 t (by omega))]
    rw [acc0_reset V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩, ⟨%d3, H3⟩⟩
      iapply (run0_reset c (grid0.coords t) (ms0_0 t) (hs0_0 t) (ms0_1 t) (hs0_1 t) (ms0_2 t) (hs0_2 t) (ms0_3 t) (hs0_3 t)
        scM0 (Memref.isWhole_whole _) hA hC (srcB V c t) (hB V c t) Set.univ _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨HS, HR, Hg⟩, Ho, ⟨%d0, H0⟩, ⟨%d1, H1⟩, ⟨%d2, H2⟩, ⟨%d3, H3⟩⟩
      iapply (run0_reset c (grid0.coords t) (ms0_0 t) (hs0_0 t) (ms0_1 t) (hs0_1 t) (ms0_2 t) (hs0_2 t) (ms0_3 t) (hs0_3 t)
        scM0 (Memref.isWhole_whole _) hA hC (srcB V c t) (hB V c t) Set.univ _)
      isplitl [H0]; · iexact H0
      isplitl [H2]; · iexact H2
      isplitl [HS]; · iexists _; iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hA : ¬cond0_reset (grid0.coords t) := fun h => h0 ((hcond0_reset t).mp h)
    have hz : t.val ≠ 0 := by omega
    rw [acc0_step V c t h0]
    rw [Phi0_castSucc V c t, Phi0_pos V c _ _ hz]
    by_cases h1 : t.val % 196 = 195
    · have hC : cond0_emit (grid0.coords t) := (hcond0_emit t).mpr h1
      rw [leaves0_3_emit V c t hC]
      unfold msg0
      rw [acc0_step V c t h0]
      iintro ⟨⟨HS, HR, Hg⟩, Ho, ⟨%d0, H0⟩, ⟨%d1, H1⟩, ⟨%d2, H2⟩, ⟨%d3, H3⟩⟩
      iapply (run0_emit c (grid0.coords t) (ms0_0 t) (hs0_0 t) (ms0_1 t) (hs0_1 t) (ms0_2 t) (hs0_2 t) (ms0_3 t) (hs0_3 t)
        scM0 (Memref.isWhole_whole _) hA hC (srcB V c t) (wtsB V c t) (hB V c t)
        (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hC : ¬cond0_emit (grid0.coords t) := fun h => h1 ((hcond0_emit t).mp h)
      rw [Dat.leavesExact_idle (dat0 V c) 3 t (idle0_3_of _ hC) (noFlush0_3 t h1)]
      iintro ⟨⟨HS, HR, Hg⟩, Ho, ⟨%d0, H0⟩, ⟨%d1, H1⟩, ⟨%d2, H2⟩, ⟨%d3, H3⟩⟩
      iapply (run0_add c (grid0.coords t) (ms0_0 t) (hs0_0 t) (ms0_1 t) (hs0_1 t) (ms0_2 t) (hs0_2 t) (ms0_3 t) (hs0_3 t)
        scM0 (Memref.isWhole_whole _) hA hC (srcB V c t) (hB V c t)
        (acc0 V c (t.val - 1) (Nat.lt_of_le_of_lt (Nat.sub_le _ _) t.isLt)) Set.univ _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-! ## The obligation at every point, and the invariant at the two ends -/

/-- The library's body obligation for call 0, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem Phi_in0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives it back: what the accumulator holds is forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨HS, HR, Hg⟩
  isplitl [HS HR]
  · isplitl [HS]; · iexists _; iexact HS
    iexact HR
  iexact Hg

/-- In particular after the last point. -/
theorem Phi_out0 (c : Dev nD) : (dat0 V c).Φ (Fin.last cfg0.N) ⊢ Pipeline.ΦA spec0 c :=
  Phi0_out V c _ (by rw [Fin.val_last]; have : cfg0.N = 29988 := N_0; omega)

end Cert.KernelIdeal.Hand

end
-- ==== Proof.KI.Body1.lean ====
/-
  The body obligation of the scatter call: at every point of its grid of 196 node tiles by 153 edge tiles (edge
  tile innermost) the body, handed the edge tile's destination ids and message block and the node tile's two
  output blocks, leaves the feature-sum block and the in-degree block at what the recursion over the points says:
  at a first edge tile (point ≡ 0 mod 153) the tile's two products added to zero, at a later one added to what the
  point before left — which is still in the buffers, because a block is written back only at a last edge tile
  (point ≡ 152 mod 153).
-/
import proofs.«415711_j52312701665803_3_alg».proof.Proof.KI.Dats
import proofs.«415711_j52312701665803_3_alg».proof.Proof.KI.Grid
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The body on any four whole buffers -/

/-- The condition under which the body zeroes its two output blocks: the edge-tile coordinate is 0. -/
abbrev cond1 (i : grid1.Coords) : Prop :=
  (Scalar.cmpi .ne (Scalar.extui (Scalar.cmpi .eq (BitVec.ofNat 32 (i 1).val) 0#32)) 0#32) = 1#1

/-- The body zeroes its output blocks exactly at the points ≡ 0 (mod 153): the edge tile is the innermost axis of
    the grid of 196 node tiles by 153 edge tiles, so point `t` is at edge tile `t mod 153`. -/
theorem hcond1 (t : Fin cfg1.N) : cond1 (grid1.coords t) ↔ t.val % 153 = 0 := hfirst1 t

/-- The zero offsets of a whole-buffer access, of rank 1 and of rank 2. -/
theorem hz1 : (![0] : Fin 1 → Nat) = fun _ => 0 := funext fun a => by fin_cases a; rfl
theorem hz2 : (![0, 0] : Fin 2 → Nat) = fun _ => 0 := funext fun a => by fin_cases a <;> rfl

set_option maxHeartbeats 1000000 in
/-- At a first edge tile: whatever the two output blocks held, they are zeroed, read back, and end at the tile's
    products added to zero; the two input blocks are only read. -/
theorem run1_reset (c : Dev nD) (i : grid1.Coords)
    (arg2 : Memref sig .tc .vmem S8192 .i32) (harg2 : arg2.IsWhole) (arg3 : Memref sig .tc .vmem S8192x64 .bf16) (harg3 : arg3.IsWhole)
    (arg4 : Memref sig .tc .vmem S512x64 .f32) (harg4 : arg4.IsWhole) (arg5 : Memref sig .tc .vmem S512x1 .f32) (harg5 : arg5.IsWhole)
    (hc : cond1 i) (x0 : Vec F S8192 .i32) (x1 : Vec F S8192x64 .bf16) (y2 : Vec F S512x64 .f32) (y3 : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ (iprop(owns (c : Thread nD τ) arg2 fullShare x0 ∗ owns (c : Thread nD τ) arg3 fullShare x1
            ∗ owns (c : Thread nD τ) arg4 fullShare (k1_pay4 i x0 x1 k1_pay1)
            ∗ owns (c : Thread nD τ) arg5 fullShare (k1_pay5 i x0 k1_pay2)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self, View.mem_set_unit_zero hz2 inb_S512x64_S512x64_0_0 y⟩)]
    rw [View.canon_cons_unit_zero (S := S512x64) hz2]
    simp only [View.readAt_eq_ld, harg2.read_unread, harg3.read_unread, View.ld_unit_zero (S := S8192) hz1,
      View.ld_unit_zero (S := S8192x64) hz2, View.readCov_unit_zero (S := S512x64) _ hz2]
  · iexists _; isplitr
    swap; · iexact H3
    ipureintro
    sl_unfold_words
    rw [View.read_writes_eq_canon _ _ _ (fun y => ⟨_, List.mem_cons_self, View.mem_set_unit_zero hz2 inb_S512x1_S512x1_0_0 y⟩)]
    rw [View.canon_cons_unit_zero (S := S512x1) hz2]
    simp only [View.readAt_eq_ld, harg2.read_unread, View.ld_unit_zero (S := S8192) hz1,
      View.readCov_unit_zero (S := S512x1) _ hz2]

set_option maxHeartbeats 1000000 in
/-- At a later edge tile: the two output blocks, found at `y2` and `y3`, end at the tile's products added to
    them; the two input blocks are only read. -/
theorem run1_acc (c : Dev nD) (i : grid1.Coords)
    (arg2 : Memref sig .tc .vmem S8192 .i32) (harg2 : arg2.IsWhole) (arg3 : Memref sig .tc .vmem S8192x64 .bf16) (harg3 : arg3.IsWhole)
    (arg4 : Memref sig .tc .vmem S512x64 .f32) (harg4 : arg4.IsWhole) (arg5 : Memref sig .tc .vmem S512x1 .f32) (harg5 : arg5.IsWhole)
    (hc : ¬cond1 i) (x0 : Vec F S8192 .i32) (x1 : Vec F S8192x64 .bf16) (y2 : Vec F S512x64 .f32) (y3 : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ (iprop(owns (c : Thread nD τ) arg2 fullShare x0 ∗ owns (c : Thread nD τ) arg3 fullShare x1
            ∗ owns (c : Thread nD τ) arg4 fullShare (k1_pay4 i x0 x1 y2)
            ∗ owns (c : Thread nD τ) arg5 fullShare (k1_pay5 i x0 y3)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self, View.mem_set_unit_zero hz2 inb_S512x64_S512x64_0_0 y⟩)]
    rw [View.canon_cons_unit_zero (S := S512x64) hz2]
    simp only [View.readAt_eq_ld, harg2.read_unread, harg3.read_unread, harg4.read_unread, View.ld_unit_zero (S := S8192) hz1,
      View.ld_unit_zero (S := S8192x64) hz2, View.ld_unit_zero (S := S512x64) hz2]
  · iexists _; isplitr
    swap; · iexact H3
    ipureintro
    sl_unfold_words
    rw [View.read_writes_eq_canon _ _ _ (fun y => ⟨_, List.mem_cons_self, View.mem_set_unit_zero hz2 inb_S512x1_S512x1_0_0 y⟩)]
    rw [View.canon_cons_unit_zero (S := S512x1) hz2]
    simp only [View.readAt_eq_ld, harg2.read_unread, harg5.read_unread, View.ld_unit_zero (S := S8192) hz1,
      View.ld_unit_zero (S := S512x1) hz2]

/-! ## The accumulated blocks, case by case -/

/-- The feature-sum block after a first edge tile: the tile's product added to zero. -/
theorem sum1_reset (c : Dev nD) (t : Fin cfg1.N) (h0 : t.val % 153 = 0) :
    sum1 V c t.val t.isLt = k1_pay4 (grid1.coords t) (dstB V c t) (msgB V c t) k1_pay1 := by
  obtain ⟨n, hn⟩ := t
  cases n with
  | zero => show sum1 V c 0 hn = _; rw [sum1]
  | succ n =>
    have h0' : (n + 1) % 153 = 0 := h0
    show sum1 V c (n + 1) hn = _
    rw [sum1, if_pos h0']

/-- The feature-sum block after a later edge tile: the tile's product added to what the point before left. -/
theorem sum1_acc (c : Dev nD) (t : Fin cfg1.N) (h0 : ¬t.val % 153 = 0) :
    sum1 V c t.val t.isLt = k1_pay4 (grid1.coords t) (dstB V c t) (msgB V c t)
      (sum1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 153 = 0 := h0
    show sum1 V c (n + 1) hn = _
    rw [sum1, if_neg h0']
    try rfl

/-- The in-degree block after a first edge tile: the tile's column sums added to zero. -/
theorem deg1_reset (c : Dev nD) (t : Fin cfg1.N) (h0 : t.val % 153 = 0) :
    deg1 V c t.val t.isLt = k1_pay5 (grid1.coords t) (dstB V c t) k1_pay2 := by
  obtain ⟨n, hn⟩ := t
  cases n with
  | zero => show deg1 V c 0 hn = _; rw [deg1]
  | succ n =>
    have h0' : (n + 1) % 153 = 0 := h0
    show deg1 V c (n + 1) hn = _
    rw [deg1, if_pos h0']

/-- The in-degree block after a later edge tile: the tile's column sums added to what the point before left. -/
theorem deg1_acc (c : Dev nD) (t : Fin cfg1.N) (h0 : ¬t.val % 153 = 0) :
    deg1 V c t.val t.isLt = k1_pay5 (grid1.coords t) (dstB V c t)
      (deg1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 153 = 0 := h0
    show deg1 V c (n + 1) hn = _
    rw [deg1, if_neg h0']
    try rfl

/-! ## What the body finds in the four buffers -/

/-- The destination ids are fetched at every point: the buffer holds the edge tile's block. -/
theorem before1_0 (c : Dev nD) (t : Fin cfg1.N) (d) : (dat1 V c).before 0 t d = iblk1 V c 0 t := by
  rw [Dat.before_fetched _ 0 t (fetch1_0 t)]
  unfold Dat.fetched Dat.blockOf iblk1
  rw [A_eq1]
  try rfl

/-- The messages are fetched at every point: the buffer holds the edge tile's block. -/
theorem before1_1 (c : Dev nD) (t : Fin cfg1.N) (d) : (dat1 V c).before 1 t d = iblk1 V c 1 t := by
  rw [Dat.before_fetched _ 1 t (fetch1_1 t)]
  unfold Dat.fetched Dat.blockOf iblk1
  rw [A_eq1]
  try rfl

/-- At a later edge tile the feature-sum buffer holds what the point before left: that point is not a last edge
    tile, so it did not write the block back. -/
theorem before1_2_acc (c : Dev nD) (t : Fin cfg1.N) (h0 : ¬t.val % 153 = 0) (d) :
    (dat1 V c).before 2 t d = sum1 V c (t.val - 1) (Nat.lt_of_le_of_lt (Nat.sub_le _ _) t.isLt) := by
  rw [Dat.before_out_kept _ 2 rfl t (by omega)
    (Bool.eq_false_iff.mpr fun h => by have := (flush1_2 _).mp h; dsimp only at this; omega)
    (fun _ => rfl) (fun _ _ => rfl)]
  dsimp only [dat1]

/-- Likewise the in-degree buffer. -/
theorem before1_3_acc (c : Dev nD) (t : Fin cfg1.N) (h0 : ¬t.val % 153 = 0) (d) :
    (dat1 V c).before 3 t d = deg1 V c (t.val - 1) (Nat.lt_of_le_of_lt (Nat.sub_le _ _) t.isLt) := by
  rw [Dat.before_out_kept _ 3 rfl t (by omega)
    (Bool.eq_false_iff.mpr fun h => by have := (flush1_3 _).mp h; dsimp only at this; omega)
    (fun _ => rfl) (fun _ _ => rfl)]
  dsimp only [dat1]

/-! ## The body at a point -/

/-- The four buffers the body is handed at point `t`, and that each is a whole buffer. -/
abbrev ms1_0 (t : Fin cfg1.N) : Memref sig .tc .vmem S8192 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)

/-- What the body is handed at point `t`: the invariant, what the core owes, and the four buffers at what they hold, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the two input buffers hold the edge tile's blocks; at a first edge tile the output
    buffers hold anything and are zeroed, at a later one they hold what the point before left; either way they end
    at the recursion's value at this point. The invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 153 = 0
  · rw [sum1_reset V c t h0, deg1_reset V c t h0]
    iintro ⟨HΦ, Ho, ⟨%d0, H0⟩, ⟨%d1, H1⟩, ⟨%d2, H2⟩, ⟨%d3, H3⟩⟩
    iapply (run1_reset c (grid1.coords t) (ms1_0 t) (hs1_0 t) (ms1_1 t) (hs1_1 t) (ms1_2 t) (hs1_2 t) (ms1_3 t) (hs1_3 t)
      ((hcond1 t).mpr h0) (dstB V c t) (msgB V c t) ((dat1 V c).before 2 t d2) ((dat1 V c).before 3 t d3) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [sum1_acc V c t h0, deg1_acc V c t h0]
    simp only [before1_2_acc V c t h0, before1_3_acc V c t h0]
    iintro ⟨HΦ, Ho, ⟨%d0, H0⟩, ⟨%d1, H1⟩, ⟨%d2, H2⟩, ⟨%d3, H3⟩⟩
    iapply (run1_acc c (grid1.coords t) (ms1_0 t) (hs1_0 t) (ms1_1 t) (hs1_1 t) (ms1_2 t) (hs1_2 t) (ms1_3 t) (hs1_3 t)
      (fun h => h0 ((hcond1 t).mp h)) (dstB V c t) (msgB V c t)
      (sum1 V c (t.val - 1) (Nat.lt_of_le_of_lt (Nat.sub_le _ _) t.isLt))
      (deg1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the scatter call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«415711_j52312701665803_3_alg».proof.Proof.KI.Dats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Call 2 at a grid point: three tiles in, the tile's scores out

The body reads the whole of its three input tiles (the sums, the in-degrees, the features, in that order), and
stores the whole score tile once. So the inputs are left as found and the output holds the pointwise score of
the three tiles, whatever it held before. -/

/-! ## The input tiles stay in their staging buffers -/

/-- The feature tile's current staging buffer holds the tile at every point: the window is an input, uncut and
    never idle, and the body leaves it as found. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Likewise the tile of feature sums. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Likewise the tile of in-degrees. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The body's accesses are of whole tiles -/

/-- The offsets of every access are zero. -/
theorem zeros2_r1 : (![0] : Fin 1 → Nat) = fun _ => 0 := funext fun a => by fin_cases a <;> rfl
theorem zeros2_r2 : (![0, 0] : Fin 2 → Nat) = fun _ => 0 := funext fun a => by fin_cases a <;> rfl

/-- The one store, of the whole score tile, covers that tile. -/
theorem cover2_3 (p : Vec F S512 .f32) (y : S512.Idx) :
    ∃ pc ∈ ([⟨Rect.unit (s := S512) ![0] S512.size inb_S512_S512_0, p⟩] : List (View.Piece (Elt F) S512 .f32)), y ∈ pc.1.set :=
  ⟨_, List.mem_singleton_self _, View.mem_set_unit_zero zeros2_r1 inb_S512_S512_0 y⟩

/-! ## The body's triple -/

set_option maxHeartbeats 1000000 in
/-- The body on whole staging memrefs — the features at `x0`, the sums at `x1`, the in-degrees at `x2`, the score
    tile at anything — runs to the continuation holding the inputs as they were and the score tile at the
    pointwise score of the three. -/
theorem sound_kernel2 (c : Dev nD) (E : Set ℕ) (i : grid2.Coords)
    (arg1 : Memref sig .tc .vmem S512x64 .f32) (harg1 : arg1.IsWhole)
    (arg2 : Memref sig .tc .vmem S512x64 .f32) (harg2 : arg2.IsWhole)
    (arg3 : Memref sig .tc .vmem S512x1 .f32) (harg3 : arg3.IsWhole)
    (arg4 : Memref sig .tc .vmem S512 .f32) (harg4 : arg4.IsWhole)
    (x0 : Vec F S512x64 .f32) (x1 : Vec F S512x64 .f32) (x2 : Vec F S512x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k2_pay1 x1 x2 x0)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover2_3 _)).trans ?_
  rw [View.canon_unit_zero zeros2_r1]
  simp only [View.readAt_eq_ld, View.ld_unit_zero (S := S512x64) zeros2_r2, View.ld_unit_zero (S := S512x1) zeros2_r2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their tiles, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold score2
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of @main: ten stretches of host operations, the three pipelined calls one after another, and a last host
  operation.  Between two of these the core's unscoped buffers stand at contents named here: the launch memory
  carried through the host prefix, then after each call its windows' arrays at what the call's write-backs leave and
  every other buffer untouched, then the last host operation applied.  From the three body obligations every weakly
  fair execution terminates with every unscoped buffer at the last of these contents; the four arguments are
  written by no host operation and are no window's array, so they end as launched.
-/
import proofs.«415711_j52312701665803_3_alg».proof.Proof.KI.Dats
import proofs.«415711_j52312701665803_3_alg».proof.Proof.KI.Body0
import proofs.«415711_j52312701665803_3_alg».proof.Proof.KI.Body1
import proofs.«415711_j52312701665803_3_alg».proof.Proof.KI.Body2
import proofs.«415711_j52312701665803_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

-- the launch memory and the generator registers
variable (m : (ℓ : Loc nD τ sig) → Buf (Elt F) ℓ) (ρ : Dev nD → PrngReg)

/-! ## The buffer contents at each boundary after the host prefix -/

/-- What call 0 is entered with: the launch memory carried through the ten host stretches, read at the
    TensorCore's references. -/
abbrev E0 : (c : Dev nD) → (b : Ref sig .tc) → Buf (Elt F) ((c : Thread nD τ).loc b) := fun c b => V10 m c b

/-- After call 0: its windows' arrays at what the write-backs leave (an input as entered), every other buffer as
    entered. -/
def W11 (c : Dev nD) : Valuation τ sig (Elt F) :=
  Pipeline.withArrays spec0 c (V10 m c) fun w => (dat0 (E0 m) c).arrAt w cfg0.N
theorem W11_arr (c : Dev nD) (w : Fin cfg0.W) :
    W11 m c (Proc.devRef .tc (Pipeline.arrRef spec0 w)) = (dat0 (E0 m) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m c (Proc.devRef .tc b) = V10 m c (Proc.devRef .tc b) := by
  unfold W11; exact Pipeline.withArrays_of_ne spec0 c _ _ b hb
/-- What call 1 is entered with: what call 0 left (no host operation stands between them). -/
abbrev E1 : (c : Dev nD) → (b : Ref sig .tc) → Buf (Elt F) ((c : Thread nD τ).loc b) := fun c b => W11 m c b
theorem hF0 (c : Dev nD) (w : Fin cfg0.W) : (dat0 (E0 m) c).arrAt w cfg0.N = E1 m c (Pipeline.arrRef spec0 w) :=
  (W11_arr m c w).symm
theorem hrest0 (c : Dev nD) : ∀ b, b ∉ Finset.univ.image (Pipeline.arrRef spec0) → E1 m c b = E0 m c b :=
  fun b hb => W11_of_ne m c b fun w e => hb (Finset.mem_image.mpr ⟨w, Finset.mem_univ _, e⟩)

/-- After call 1, likewise. -/
def W12 (c : Dev nD) : Valuation τ sig (Elt F) :=
  Pipeline.withArrays spec1 c (W11 m c) fun w => (dat1 (E1 m) c).arrAt w cfg1.N
theorem W12_arr (c : Dev nD) (w : Fin cfg1.W) :
    W12 m c (Proc.devRef .tc (Pipeline.arrRef spec1 w)) = (dat1 (E1 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
/-- What call 2 is entered with: what call 1 left. -/
abbrev E2 : (c : Dev nD) → (b : Ref sig .tc) → Buf (Elt F) ((c : Thread nD τ).loc b) := fun c b => W12 m c b
theorem hF1 (c : Dev nD) (w : Fin cfg1.W) : (dat1 (E1 m) c).arrAt w cfg1.N = E2 m c (Pipeline.arrRef spec1 w) :=
  (W12_arr m c w).symm
theorem hrest1 (c : Dev nD) : ∀ b, b ∉ Finset.univ.image (Pipeline.arrRef spec1) → E2 m c b = E1 m c b :=
  fun b hb => W12_of_ne m c b fun w e => hb (Finset.mem_image.mpr ⟨w, Finset.mem_univ _, e⟩)

/-- After call 2, likewise. -/
def W13 (c : Dev nD) : Valuation τ sig (Elt F) :=
  Pipeline.withArrays spec2 c (W12 m c) fun w => (dat2 (E2 m) c).arrAt w cfg2.N
theorem W13_arr (c : Dev nD) (w : Fin cfg2.W) :
    W13 m c (Proc.devRef .tc (Pipeline.arrRef spec2 w)) = (dat2 (E2 m) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m c (Proc.devRef .tc b) = W12 m c (Proc.devRef .tc b) := by
  unfold W13; exact Pipeline.withArrays_of_ne spec2 c _ _ b hb
/-- What call 2 left, read at the TensorCore's references. -/
abbrev E3 : (c : Dev nD) → (b : Ref sig .tc) → Buf (Elt F) ((c : Thread nD τ).loc b) := fun c b => W13 m c b
theorem hF2 (c : Dev nD) (w : Fin cfg2.W) : (dat2 (E2 m) c).arrAt w cfg2.N = E3 m c (Pipeline.arrRef spec2 w) :=
  (W13_arr m c w).symm
theorem hrest2 (c : Dev nD) : ∀ b, b ∉ Finset.univ.image (Pipeline.arrRef spec2) → E3 m c b = E2 m c b :=
  fun b hb => W13_of_ne m c b fun w e => hb (Finset.mem_image.mpr ⟨w, Finset.mem_univ _, e⟩)

/-- After the last host operation: the contents @main returns with. -/
abbrev W14 (c : Dev nD) : Valuation τ sig (Elt F) := StableHlo.after hostOps3 (W13 m c)

/-! ### The arguments end as launched -/

/-- `main_arg0` ends as launched: the last host stretch does not write it, it is no window's array of any of the
    three calls, and no stretch of the host prefix writes it. -/
theorem W14_main_arg0 (c : Dev nD) : W14 m c (Proc.devRef .tc main_arg0) = m ((c : Thread nD τ).loc main_arg0) :=
  calc W14 m c (Proc.devRef .tc main_arg0)
    _ = W13 m c (Proc.devRef .tc main_arg0) := StableHlo.after_of_writes_sub hostOps3 _ hostOps3_writes (by decide)
    _ = W12 m c (Proc.devRef .tc main_arg0) := W13_of_ne m c main_arg0 (by decide)
    _ = W11 m c (Proc.devRef .tc main_arg0) := W12_of_ne m c main_arg0 (by decide)
    _ = V10 m c (Proc.devRef .tc main_arg0) := W11_of_ne m c main_arg0 (by decide)
    _ = m ((c : Thread nD τ).loc main_arg0) :=
      (V10_of m c main_arg0 (by decide)).trans <| (V9_of m c main_arg0 (by decide)).trans <| (V8_of m c main_arg0 (by decide)).trans <|
      (V7_of m c main_arg0 (by decide)).trans <| (V6_of m c main_arg0 (by decide)).trans <| (V5_of m c main_arg0 (by decide)).trans <|
      (V4_of m c main_arg0 (by decide)).trans <| (V3_of m c main_arg0 (by decide)).trans <| (V2_of m c main_arg0 (by decide)).trans <|
      (V1_of m c main_arg0 (by decide)).trans rfl

/-- `main_arg1` ends as launched: the last host stretch does not write it, it is no window's array of any of the
    three calls, and no stretch of the host prefix writes it. -/
theorem W14_main_arg1 (c : Dev nD) : W14 m c (Proc.devRef .tc main_arg1) = m ((c : Thread nD τ).loc main_arg1) :=
  calc W14 m c (Proc.devRef .tc main_arg1)
    _ = W13 m c (Proc.devRef .tc main_arg1) := StableHlo.after_of_writes_sub hostOps3 _ hostOps3_writes (by decide)
    _ = W12 m c (Proc.devRef .tc main_arg1) := W13_of_ne m c main_arg1 (by decide)
    _ = W11 m c (Proc.devRef .tc main_arg1) := W12_of_ne m c main_arg1 (by decide)
    _ = V10 m c (Proc.devRef .tc main_arg1) := W11_of_ne m c main_arg1 (by decide)
    _ = m ((c : Thread nD τ).loc main_arg1) :=
      (V10_of m c main_arg1 (by decide)).trans <| (V9_of m c main_arg1 (by decide)).trans <| (V8_of m c main_arg1 (by decide)).trans <|
      (V7_of m c main_arg1 (by decide)).trans <| (V6_of m c main_arg1 (by decide)).trans <| (V5_of m c main_arg1 (by decide)).trans <|
      (V4_of m c main_arg1 (by decide)).trans <| (V3_of m c main_arg1 (by decide)).trans <| (V2_of m c main_arg1 (by decide)).trans <|
      (V1_of m c main_arg1 (by decide)).trans rfl

/-- `main_arg2` ends as launched: the last host stretch does not write it, it is no window's array of any of the
    three calls, and no stretch of the host prefix writes it. -/
theorem W14_main_arg2 (c : Dev nD) : W14 m c (Proc.devRef .tc main_arg2) = m ((c : Thread nD τ).loc main_arg2) :=
  calc W14 m c (Proc.devRef .tc main_arg2)
    _ = W13 m c (Proc.devRef .tc main_arg2) := StableHlo.after_of_writes_sub hostOps3 _ hostOps3_writes (by decide)
    _ = W12 m c (Proc.devRef .tc main_arg2) := W13_of_ne m c main_arg2 (by decide)
    _ = W11 m c (Proc.devRef .tc main_arg2) := W12_of_ne m c main_arg2 (by decide)
    _ = V10 m c (Proc.devRef .tc main_arg2) := W11_of_ne m c main_arg2 (by decide)
    _ = m ((c : Thread nD τ).loc main_arg2) :=
      (V10_of m c main_arg2 (by decide)).trans <| (V9_of m c main_arg2 (by decide)).trans <| (V8_of m c main_arg2 (by decide)).trans <|
      (V7_of m c main_arg2 (by decide)).trans <| (V6_of m c main_arg2 (by decide)).trans <| (V5_of m c main_arg2 (by decide)).trans <|
      (V4_of m c main_arg2 (by decide)).trans <| (V3_of m c main_arg2 (by decide)).trans <| (V2_of m c main_arg2 (by decide)).trans <|
      (V1_of m c main_arg2 (by decide)).trans rfl

/-- `main_arg3` ends as launched: the last host stretch does not write it, it is no window's array of any of the
    three calls, and no stretch of the host prefix writes it. -/
theorem W14_main_arg3 (c : Dev nD) : W14 m c (Proc.devRef .tc main_arg3) = m ((c : Thread nD τ).loc main_arg3) :=
  calc W14 m c (Proc.devRef .tc main_arg3)
    _ = W13 m c (Proc.devRef .tc main_arg3) := StableHlo.after_of_writes_sub hostOps3 _ hostOps3_writes (by decide)
    _ = W12 m c (Proc.devRef .tc main_arg3) := W13_of_ne m c main_arg3 (by decide)
    _ = W11 m c (Proc.devRef .tc main_arg3) := W12_of_ne m c main_arg3 (by decide)
    _ = V10 m c (Proc.devRef .tc main_arg3) := W11_of_ne m c main_arg3 (by decide)
    _ = m ((c : Thread nD τ).loc main_arg3) :=
      (V10_of m c main_arg3 (by decide)).trans <| (V9_of m c main_arg3 (by decide)).trans <| (V8_of m c main_arg3 (by decide)).trans <|
      (V7_of m c main_arg3 (by decide)).trans <| (V6_of m c main_arg3 (by decide)).trans <| (V5_of m c main_arg3 (by decide)).trans <|
      (V4_of m c main_arg3 (by decide)).trans <| (V3_of m c main_arg3 (by decide)).trans <| (V2_of m c main_arg3 (by decide)).trans <|
      (V1_of m c main_arg3 (by decide)).trans rfl

/-! ## The proof data family and the thread state -/

/-- Every call's proof data, each at the contents its call is entered with: a literal match, so that the
    configuration of a call named by a numeral reduces to the printed one. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the
    core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it is left at
    the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the contents @main returns with. -/
abbrev Tₙ (c : Dev nD) : sProp 𝕄 := StableHlo.held (c : Thread nD τ) (Pipeline.ucRefs τ sig) (W14 m c)

/-- The last host segment leaves the last thread state beside the core owing nothing. -/
theorem last_step (c : Dev nD) : iprop(StableHlo.held (c : Thread nD τ) (Pipeline.ucRefs τ sig) (W14 m c) ∗ R c)
    ⊢ iprop(Tₙ m c ∗ ∃ W, owes (c : Thread nD τ) (0 : CellTallies nD τ sig Unit) W) := by
  iintro ⟨Hh, -, HO⟩
  isplitl [Hh]; · iexact Hh
  iexact HO

/-! ## The three calls as segments -/

set_option backward.isDefEq.respectTransparency.types false in
/-- Call 0 as a segment: entered from every unscoped buffer at `V10`, left at `W11`. Its windows' arrays are split
    out of the unscoped buffers and put back at what the write-backs leave; the generator register goes into the
    call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi_in0 (E0 m) c)
    unfold Pipeline.ΦA
    iintro ⟨Hp, -, Hr⟩
    isplitl [Hr]; · iexact Hr
    iexact Hp
  hout c := by
    refine (Phi_out0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from every unscoped buffer at `W11`, left at `W12`. Its windows' arrays are split
    out of the unscoped buffers and put back at what the write-backs leave; the generator register goes into the
    call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from every unscoped buffer at `W12`, left at `W13`. Its windows' arrays are split
    out of the unscoped buffers and put back at what the write-backs leave; the generator register goes into the
    call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 14 segments in order: the ten host stretches, the three calls, the last host operation. -/
abbrev runSegs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .region (reg0 m),
    .region (reg1 m),
    .region (reg2 m),
    .host (hseg hostOps3 hostOps3_sub hostOps3_fresh (W13 m)) ]
/-- @main is the run of the segments. -/
theorem main_run (c : Dev nD) : main (F := F) c = Pipeline.Seg.run (runSegs m) := (main_chain c).trans (by chain_rfl)

set_option backward.isDefEq.respectTransparency.types false in
/-- From any memory with zero counters, every weakly fair execution of @main terminates, nothing faulting, and in every
    final state each core's unscoped buffers stand at the contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨Hh, HSI⟩
      unfold Tₙ StableHlo.held
      imodintro
      iapply (pointsTo_read_all (Pipeline.ucRefs τ sig) (fun b => (((c : Thread nD τ)).1, b)) (W14 m c) s')
      isplitl [Hh] <;> iassumption)
    (hQ := fun s h => h)

/-- The frame: every weakly fair execution of @main terminates, nothing faulting, and every final state has the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c)⟩) (run_all m ρ)

end Cert.KernelIdeal.Hand

end
-- ==== Proof.KI.Val0.lean ====
/-
  The value of call 0's output array, the messages, index by index, for any contents of the buffers at entry.

  Point t of the 153 × 196 grid is edge tile t / 196, node tile t % 196.  The blocks the body reads there are rows
  8192·(t / 196) … of the source ids and of the weights, and rows 512·(t % 196) … of the features.

  At node tile n the body compares every edge's source id word with the 512 node words 512·n … 512·n + 511, turns
  the comparison bits into the numbers 0 and 1, and multiplies that 8192 × 512 matrix with the node tile's 512 × 64
  feature rows onto a zero accumulator.  Row r of the product is therefore the feature row of the edge's source id
  when the id lies in the tile and the zero row otherwise: a sum over 512 columns with at most one nonzero term
  (an id word read as a number is below 2³², and 512·n + k never wraps, so equal words are equal numbers).

  Along an edge tile the accumulator's row r, after node tile n, holds the feature row of the edge's source id when
  the id is below 512·(n + 1) and zero otherwise (by induction on the point: the accumulator restarts from zero
  whenever t % 196 = 0).  At node tile 195 the bound is 100352, the number of feature rows, so the row is the feature
  row of the id (zero for an id that names no row), and the body stores it scaled by the edge's weight.  The points
  with t % 196 = 195 are the ones that write a message block back; block e covers rows 8192·e … 8192·e + 8191, and
  the 153 blocks tile the array, so the array ends holding, at (r, d), feature (id r, d) times weight r.
  No finiteness is needed: only 0·x = 0, 1·x = x and 0 + x = x are used.
-/
import proofs.«415711_j52312701665803_3_alg».proof.Proof.KI.Dats
import proofs.«415711_j52312701665803_3_alg».proof.Proof.KI.Grid
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ
variable (V : (c : Dev nD) → (b : Ref sig .tc) → Buf (Elt Ideal) ((c : Thread nD τ).loc b))

namespace Val0

/-! ## Column forms of the layout operations -/

/-- An `[a]` vector cast to a column `[a, 1]` reads, at `(r, u)`, the operand at `r`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu]; omega)

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot entry as an extended real: the comparison's bit, widened and converted, is 1 on equal words and 0 otherwise. -/
theorem hot_eq (a b : BitVec 32) :
    FloatOps.sitofp (F := Ideal) .f32 ((IntOp.cmpi .eq a b).setWidth 32) = if a = b then (1 : EReal) else 0 := by
  unfold IntOp.cmpi
  by_cases h : a = b
  · subst h
    simp
    show (((1#32 : BitVec 32).toInt : ℝ) : EReal) = 1
    rw [show (1#32 : BitVec 32).toInt = 1 from by decide]
    simp
  · rw [if_neg h]
    have : (a == b) = false := by simpa using h
    simp [this]
    show (((0#32 : BitVec 32).toInt : ℝ) : EReal) = 0
    rw [show (0#32 : BitVec 32).toInt = 0 from by decide]
    simp

/-! ## The one-hot product at an index -/

/-- The left operand's index of the product at output (r, d), contraction k: row r. -/
theorem lhs_dot_0 (j : S8192x64.Idx) (k : dot_S8192x512_S512x64_S8192x64_1_0_0_1_n_n.contr.Idx) :
    ((dot_S8192x512_S512x64_S8192x64_1_0_0_1_n_n.lhsIdx j k) 0).val = (j 0).val := by
  unfold DotDims.lhsIdx
  rw [dif_neg (show ¬(0 : Fin S8192x512.rank) ∈ dot_S8192x512_S512x64_S8192x64_1_0_0_1_n_n.lhsBatch by decide),
    dif_pos (show (0 : Fin S8192x512.rank) ∈ dot_S8192x512_S512x64_S8192x64_1_0_0_1_n_n.lhsNonContracting by decide)]
  rfl

theorem lhs_dot_1 (j : S8192x64.Idx) (k : dot_S8192x512_S512x64_S8192x64_1_0_0_1_n_n.contr.Idx) :
    ((dot_S8192x512_S512x64_S8192x64_1_0_0_1_n_n.lhsIdx j k) 1).val = (k ⟨0, by decide⟩).val :=
  DotDims.lhsIdx_val_of_single dot_S8192x512_S512x64_S8192x64_1_0_0_1_n_n (cl := 1) rfl j k

theorem rhs_dot_0 (j : S8192x64.Idx) (k : dot_S8192x512_S512x64_S8192x64_1_0_0_1_n_n.contr.Idx) :
    ((dot_S8192x512_S512x64_S8192x64_1_0_0_1_n_n.rhsIdx j k) 0).val = (k ⟨0, by decide⟩).val :=
  DotDims.rhsIdx_val_of_single dot_S8192x512_S512x64_S8192x64_1_0_0_1_n_n (cr := 0) rfl j k

theorem rhs_dot_1 (j : S8192x64.Idx) (k : dot_S8192x512_S512x64_S8192x64_1_0_0_1_n_n.contr.Idx) :
    ((dot_S8192x512_S512x64_S8192x64_1_0_0_1_n_n.rhsIdx j k) 1).val = (j 1).val := by
  unfold DotDims.rhsIdx
  rw [dif_neg (show ¬(1 : Fin S512x64.rank) ∈ dot_S8192x512_S512x64_S8192x64_1_0_0_1_n_n.rhsBatch by decide),
    dif_pos (show (1 : Fin S512x64.rank) ∈ dot_S8192x512_S512x64_S8192x64_1_0_0_1_n_n.rhsNonContracting by decide)]
  rfl

/-- The product onto the zero accumulator at (r, d): the plain sum over the 512 columns. -/
theorem matmul_at (L : FVec Ideal S8192x512 .bf16) (R : FVec Ideal S512x64 .bf16) (r : Fin 8192) (d : Fin 64) :
    matmul dot_S8192x512_S512x64_S8192x64_1_0_0_1_n_n none L R (constant S8192x64 .f32 0x00000000#32) (ix2 r d)
      = ∑ k : Fin 512, L (ix2 r k) * R (ix2 k d) := by
  refine (Ideal.matmul_constant_zero_apply dot_S8192x512_S512x64_S8192x64_1_0_0_1_n_n none L R (ix2 r d)).trans ?_
  rw [← Equiv.sum_comp (contrEquiv1 dot_S8192x512_S512x64_S8192x64_1_0_0_1_n_n 512 rfl rfl).symm]
  refine Finset.sum_congr rfl fun k _ => ?_
  have hk := contrEquiv1_symm_val dot_S8192x512_S512x64_S8192x64_1_0_0_1_n_n 512 rfl rfl k
  congr 1
  · refine congrArg L (funext fun a => Fin.ext ?_)
    match a with
    | ⟨0, _⟩ => exact lhs_dot_0 _ _
    | ⟨1, _⟩ => exact (lhs_dot_1 _ _).trans hk
  · refine congrArg R (funext fun a => Fin.ext ?_)
    match a with
    | ⟨0, _⟩ => exact (rhs_dot_0 _ _).trans hk
    | ⟨1, _⟩ => exact rhs_dot_1 _ _

/-- The node tile's first id as a word, plus the column. -/
abbrev nodeWord (i : grid0.Coords) (k : Fin 512) : BitVec 32 :=
  Scalar.muli (BitVec.ofNat 32 (i 1).val) 512#32 + BitVec.ofNat 32 k.val

/-- The accumulating payload at (r, d): what it finds there plus, over the node tile's 512 rows, the feature entry of
    each row whose id word the edge's source word equals. -/
theorem pay2_at (i : grid0.Coords) (x : Vec Ideal S8192 .i32) (h : Vec Ideal S512x64 .f32) (a : Vec Ideal S8192x64 .f32)
    (r : Fin 8192) (d : Fin 64) :
    k0_pay2 i x h a (ix2 r d)
      = a (ix2 r d) + ∑ k : Fin 512, (if x (ix1 r) = nodeWord i k then (1 : EReal) else 0) * h (ix2 k d) := by
  unfold k0_pay2
  dsimp only
  simp only [shapeCast_self]
  refine (addf_apply _ _ _).trans ?_
  congr 1
  refine (matmul_at _ _ r d).trans ?_
  refine Finset.sum_congr rfl fun k _ => ?_
  have e10 : broadcastTo S8192x512 (shapeCast S8192x1 x shapeCasts_S8192_S8192x1) broadcasts_S8192x1_S8192x512 (ix2 r k) = x (ix1 r) :=
    (broadcastTo_a1_ab_apply _ _ r k).trans (shapeCast_a_a1_apply x _ r 0)
  have e11 : broadcastTo S8192x512
      (addi (broadcast S1x512 (Scalar.muli (BitVec.ofNat 32 (i 1).val) 512#32)) (iota Kind.tc S1x512 32 [1] iota_S1x512_d1_w32))
      broadcasts_S1x512_S8192x512 (ix2 r k) = nodeWord i k := by
    refine (broadcastTo_1b_ab_apply _ _ r k).trans ?_
    show IntOp.addi _ (iota Kind.tc S1x512 32 [1] iota_S1x512_d1_w32 (ix2 (0 : Fin 1) k)) = _
    rw [iota_single_apply]
    rfl
  congr 1
  exact (congrArg₂ (fun u v => FloatOps.sitofp (F := Ideal) .f32 ((IntOp.cmpi .eq u v).setWidth 32)) e10 e11).trans (hot_eq _ _)

/-- The zero block the accumulator starts from. -/
theorem pay1_at (r : Fin 8192) (d : Fin 64) : (k0_pay1 (F := Ideal)) (ix2 r d) = 0 := by
  unfold k0_pay1
  simp only [shapeCast_self]
  show Ideal.ofBits .f32 0x00000000#32 = 0
  exact Ideal.ofBits_zero_f32

/-- The message payload at (r, d): the accumulator's entry times the edge's weight. -/
theorem pay3_at (a : Vec Ideal S8192x64 .f32) (w : Vec Ideal S8192 .f32) (r : Fin 8192) (d : Fin 64) :
    k0_pay3 a w (ix2 r d) = a (ix2 r d) * w (ix1 r) := by
  unfold k0_pay3
  simp only [shapeCast_self]
  show a (ix2 r d) * broadcastTo S8192x64 (shapeCast S8192x1 w shapeCasts_S8192_S8192x1) broadcasts_S8192x1_S8192x64 (ix2 r d) = _
  exact congrArg (a (ix2 r d) * ·) ((broadcastTo_a1_ab_apply _ _ r d).trans (shapeCast_a_a1_apply w _ r 0))

/-! ## One node tile's contribution -/

/-- Row `k` of the padded feature array at column `d` (zero past the array's end, which no index reaches). -/
def featAt (H : S100352x64.Idx → EReal) (k : ℕ) (d : Fin 64) : EReal :=
  if hk : k < 100352 then H (ix2 ⟨k, hk⟩ d) else 0

/-- The node word of tile `n`, column `k`, is the number `512·n + k`: nothing wraps below 100352. -/
theorem nodeWord_toNat (i : grid0.Coords) (n : ℕ) (hn : n < 196) (hi : (i 1).val = n) (k : Fin 512) :
    (nodeWord i k).toNat = 512 * n + k.val := by
  have hk := k.isLt
  show (IntOp.muli (BitVec.ofNat 32 (i 1).val) 512#32 + BitVec.ofNat 32 k.val).toNat = _
  unfold IntOp.muli
  rw [hi, BitVec.toNat_add, BitVec.toNat_mul, BitVec.toNat_ofNat, BitVec.toNat_ofNat]
  show (n % 2 ^ 32 * 512 % 2 ^ 32 + k.val % 2 ^ 32) % 2 ^ 32 = _
  omega

/-- The one-hot row against the node tile's feature rows: the feature row of the source id when the id lies in the
    tile, nothing otherwise. -/
theorem gather_term (i : grid0.Coords) (n : ℕ) (hn : n < 196) (hi : (i 1).val = n) (s : BitVec 32)
    (H : S100352x64.Idx → EReal) (h : Vec Ideal S512x64 .f32)
    (hh : ∀ (k : Fin 512) (d : Fin 64), h (ix2 k d) = featAt H (512 * n + k.val) d) (d : Fin 64) :
    ∑ k : Fin 512, (if s = nodeWord i k then (1 : EReal) else 0) * h (ix2 k d)
      = if 512 * n ≤ s.toNat ∧ s.toNat < 512 * (n + 1) then featAt H s.toNat d else 0 := by
  have hw : ∀ k : Fin 512, s = nodeWord i k ↔ s.toNat = 512 * n + k.val := fun k => by
    rw [← nodeWord_toNat i n hn hi k]; exact BitVec.toNat_inj.symm
  by_cases hin : 512 * n ≤ s.toNat ∧ s.toNat < 512 * (n + 1)
  · rw [if_pos hin]
    rw [Finset.sum_eq_single (⟨s.toNat - 512 * n, by omega⟩ : Fin 512)]
    · rw [if_pos ((hw _).mpr (by show s.toNat = 512 * n + (s.toNat - 512 * n); omega)), one_mul, hh]
      congr 1
      show 512 * n + (s.toNat - 512 * n) = s.toNat
      omega
    · intro k _ hk
      rw [if_neg (fun e => hk (Fin.ext (by have := (hw k).mp e; show k.val = s.toNat - 512 * n; omega))), zero_mul]
    · intro hno; exact absurd (Finset.mem_univ _) hno
  · rw [if_neg hin]
    refine Finset.sum_eq_zero fun k _ => ?_
    rw [if_neg (fun e => hin (by have := (hw k).mp e; have := k.isLt; omega)), zero_mul]

/-- One accumulation step: if before node tile `n` the accumulator holds the feature row of every source id below
    `512·n` (zero for the others), after it it holds the row of every id below `512·(n+1)`. -/
theorem step_at (i : grid0.Coords) (n : ℕ) (hn : n < 196) (hi : (i 1).val = n) (x : Vec Ideal S8192 .i32)
    (H : S100352x64.Idx → EReal) (h : Vec Ideal S512x64 .f32) (a : Vec Ideal S8192x64 .f32)
    (hh : ∀ (k : Fin 512) (d : Fin 64), h (ix2 k d) = featAt H (512 * n + k.val) d) (r : Fin 8192) (d : Fin 64)
    (id : ℕ) (hid : (x (ix1 r)).toNat = id)
    (ha : a (ix2 r d) = if id < 512 * n then featAt H id d else 0) :
    k0_pay2 i x h a (ix2 r d) = if id < 512 * (n + 1) then featAt H id d else 0 := by
  subst hid
  rw [pay2_at, ha, gather_term i n hn hi (x (ix1 r)) H h hh d]
  by_cases h1 : (x (ix1 r)).toNat < 512 * n
  · rw [if_pos h1, if_neg (by omega), if_pos (by omega), add_zero]
  · rw [if_neg h1, zero_add]
    by_cases h2 : (x (ix1 r)).toNat < 512 * (n + 1)
    · rw [if_pos ⟨by omega, h2⟩, if_pos h2]
    · rw [if_neg (fun e => h2 e.2), if_neg h2]

/-- Past the last node tile every id that names a row has been met: the bound 512·196 is the array's height. -/
theorem featAt_full (H : S100352x64.Idx → EReal) (id : ℕ) (d : Fin 64) :
    (if id < 512 * (195 + 1) then featAt H id d else 0) = featAt H id d := by
  by_cases h : id < 512 * (195 + 1)
  · rw [if_pos h]
  · rw [if_neg h]; unfold featAt; rw [dif_neg (by omega)]

/-! ## The three input arrays, at their literal types -/

/-- The padded source ids, the padded weights, the padded features, as call 0 finds them. -/
abbrev srcArr (c : Dev nD) : S1253376.Idx → BitVec 32 := V c main_v3
abbrev wtArr (c : Dev nD) : S1253376.Idx → EReal := V c main_v2
abbrev featArr (c : Dev nD) : S100352x64.Idx → EReal := V c main_v1

/-- The source id of padded edge `k`, as a number (zero past the array's end, which no index reaches). -/
def srcAt (S : S1253376.Idx → BitVec 32) (k : ℕ) : ℕ := if hk : k < 1253376 then (S (ix1 ⟨k, hk⟩)).toNat else 0

/-- The weight of padded edge `k`. -/
def wtAt (W : S1253376.Idx → EReal) (k : ℕ) : EReal := if hk : k < 1253376 then W (ix1 ⟨k, hk⟩) else 0

/-- The message entry of padded edge `k`, column `d`: the feature row of the edge's source id, scaled by its weight. -/
def msgAt (S : S1253376.Idx → BitVec 32) (H : S100352x64.Idx → EReal) (W : S1253376.Idx → EReal) (k : ℕ) (d : Fin 64) : EReal :=
  featAt H (srcAt S k) d * wtAt W k

theorem srcAt_lt (S : S1253376.Idx → BitVec 32) (r : Fin 1253376) : srcAt S r.val = (S (ix1 r)).toNat := by
  unfold srcAt; rw [dif_pos r.isLt]

theorem wtAt_lt (W : S1253376.Idx → EReal) (r : Fin 1253376) : wtAt W r.val = W (ix1 r) := by
  unfold wtAt; rw [dif_pos r.isLt]

/-! ## The block indices of the four windows at a point -/

theorem idx0_0 (t : Fin cfg0.N) : win0_0.index t (0 : Fin 1) = t.val / 196 := by
  have hlt := lt_N0 t
  show (BitVec.ofNat 32 ((grid0.coords t) 0).val).toNat = _
  rw [BitVec.toNat_ofNat, coords0_0]
  omega

theorem idx0_1 (t : Fin cfg0.N) : win0_1.index t (0 : Fin 1) = t.val / 196 := by
  have hlt := lt_N0 t
  show (BitVec.ofNat 32 ((grid0.coords t) 0).val).toNat = _
  rw [BitVec.toNat_ofNat, coords0_0]
  omega

theorem idx0_2_0 (t : Fin cfg0.N) : win0_2.index t (0 : Fin 2) = t.val % 196 := by
  show (BitVec.ofNat 32 ((grid0.coords t) 1).val).toNat = _
  rw [BitVec.toNat_ofNat, coords0_1]
  omega

theorem idx0_2_1 (t : Fin cfg0.N) : win0_2.index t (1 : Fin 2) = 0 := rfl

theorem idx0_3_0 (t : Fin cfg0.N) : win0_3.index t (0 : Fin 2) = t.val / 196 := by
  have hlt := lt_N0 t
  show (BitVec.ofNat 32 ((grid0.coords t) 0).val).toNat = _
  rw [BitVec.toNat_ofNat, coords0_0]
  omega

theorem idx0_3_1 (t : Fin cfg0.N) : win0_3.index t (1 : Fin 2) = 0 := rfl

/-! ## The input blocks as entries of their arrays -/

/-- Row `r` of the source-id block at point `t` is edge `8192·(t / 196) + r`. -/
theorem srcB_at (c : Dev nD) (t : Fin cfg0.N) (r : Fin 8192) :
    (srcB V c t (ix1 r)).toNat = srcAt (srcArr V c) (8192 * (t.val / 196) + r.val) := by
  have hlt := lt_N0 t
  have hr := r.isLt
  unfold srcAt
  rw [dif_pos (by omega)]
  refine congrArg BitVec.toNat ?_
  show V c main_v3 (((cfg0.win 0).blk t).view.emb (ix1 r)) = V c main_v3 _
  refine congrArg (V c main_v3) (funext fun a => Fin.ext ?_)
  match a with
  | ⟨0, _⟩ =>
    show win0_0.index t (0 : Fin 1) * 8192 + 1 * r.val = 8192 * (t.val / 196) + r.val
    rw [idx0_0 t]; omega

/-- Row `r` of the weight block at point `t` likewise. -/
theorem wtsB_at (c : Dev nD) (t : Fin cfg0.N) (r : Fin 8192) :
    wtsB V c t (ix1 r) = wtAt (wtArr V c) (8192 * (t.val / 196) + r.val) := by
  have hlt := lt_N0 t
  have hr := r.isLt
  unfold wtAt
  rw [dif_pos (by omega)]
  show V c main_v2 (((cfg0.win 1).blk t).view.emb (ix1 r)) = V c main_v2 _
  refine congrArg (V c main_v2) (funext fun a => Fin.ext ?_)
  match a with
  | ⟨0, _⟩ =>
    show win0_1.index t (0 : Fin 1) * 8192 + 1 * r.val = 8192 * (t.val / 196) + r.val
    rw [idx0_1 t]; omega

/-- Row `k` of the feature block at point `t` is node `512·(t % 196) + k`. -/
theorem hB_at (c : Dev nD) (t : Fin cfg0.N) (k : Fin 512) (d : Fin 64) :
    hB V c t (ix2 k d) = featAt (featArr V c) (512 * (t.val % 196) + k.val) d := by
  have hk := k.isLt
  unfold featAt
  rw [dif_pos (by omega)]
  show V c main_v1 (((cfg0.win 2).blk t).view.emb (ix2 k d)) = V c main_v1 _
  refine congrArg (V c main_v1) (funext fun a => Fin.ext ?_)
  match a with
  | ⟨0, _⟩ =>
    show win0_2.index t (0 : Fin 2) * 512 + 1 * k.val = 512 * (t.val % 196) + k.val
    rw [idx0_2_0 t]; omega
  | ⟨1, _⟩ =>
    show win0_2.index t (1 : Fin 2) * 64 + 1 * d.val = d.val
    rw [idx0_2_1 t]; omega

/-! ## The accumulator along an edge tile -/

/-- One point's step, on the blocks of that point. -/
theorem acc_step (c : Dev nD) (t : ℕ) (ht : t < cfg0.N) (a : Vec Ideal S8192x64 .f32) (r : Fin 8192) (d : Fin 64)
    (ha : a (ix2 r d) = if srcAt (srcArr V c) (8192 * (t / 196) + r.val) < 512 * (t % 196)
        then featAt (featArr V c) (srcAt (srcArr V c) (8192 * (t / 196) + r.val)) d else 0) :
    k0_pay2 (grid0.coords ⟨t, ht⟩) (srcB V c ⟨t, ht⟩) (hB V c ⟨t, ht⟩) a (ix2 r d)
      = if srcAt (srcArr V c) (8192 * (t / 196) + r.val) < 512 * (t % 196 + 1)
        then featAt (featArr V c) (srcAt (srcArr V c) (8192 * (t / 196) + r.val)) d else 0 :=
  step_at (grid0.coords ⟨t, ht⟩) (t % 196) (Nat.mod_lt _ (by decide)) (coords0_1 ⟨t, ht⟩) (srcB V c ⟨t, ht⟩)
    (featArr V c) (hB V c ⟨t, ht⟩) a (fun k d => hB_at V c ⟨t, ht⟩ k d) r d
    (srcAt (srcArr V c) (8192 * (t / 196) + r.val)) (srcB_at V c ⟨t, ht⟩ r) ha

/-- After point `t` (edge tile `t / 196`, node tile `t % 196`) the accumulator's row `r` holds the feature row of the
    edge's source id when the id is below `512·(t % 196 + 1)`, and zero otherwise. -/
theorem acc0_at (c : Dev nD) : ∀ (t : ℕ) (ht : t < cfg0.N) (r : Fin 8192) (d : Fin 64),
    acc0 V c t ht (ix2 r d)
      = if srcAt (srcArr V c) (8192 * (t / 196) + r.val) < 512 * (t % 196 + 1)
        then featAt (featArr V c) (srcAt (srcArr V c) (8192 * (t / 196) + r.val)) d else 0
  | 0, ht, r, d => by
    rw [acc0]
    refine acc_step V c 0 ht _ r d ?_
    rw [pay1_at, if_neg (by omega)]
  | t + 1, ht, r, d => by
    rw [acc0]
    refine acc_step V c (t + 1) ht _ r d ?_
    by_cases hm : (t + 1) % 196 = 0
    · rw [if_pos hm, pay1_at, hm, if_neg (by omega)]
    · rw [if_neg hm, acc0_at c t (Nat.lt_of_succ_lt ht) r d,
        show (t + 1) / 196 = t / 196 from by omega, show (t + 1) % 196 = t % 196 + 1 from by omega]

/-- The message block stored at a last node tile: row `r` is the message row of edge `8192·(t / 196) + r`. -/
theorem msg0_at (c : Dev nD) (t : Fin cfg0.N) (hl : t.val % 196 = 195) (r : Fin 8192) (d : Fin 64) :
    msg0 V c t (ix2 r d) = msgAt (srcArr V c) (featArr V c) (wtArr V c) (8192 * (t.val / 196) + r.val) d := by
  unfold msg0
  refine (pay3_at (acc0 V c t.val t.isLt) (wtsB V c t) r d).trans ?_
  rw [acc0_at V c t.val t.isLt r d, wtsB_at V c t r, hl, featAt_full]
  rfl

/-! ## From the blocks to the array -/

/-- What the message array ends holding. -/
abbrev msgArr (c : Dev nD) : S1253376x64.Idx → EReal :=
  fun j => msgAt (srcArr V c) (featArr V c) (wtArr V c) (j 0).val ⟨(j 1).val, idx2_lt1 j⟩

/-- What a last node tile writes back is its block of `msgArr`. -/
theorem flushed_eq (c : Dev nD) (t : Fin cfg0.N) (hf : (cfg0.win 3).flush t = true) :
    (dat0 V c).flushed 3 t = ((cfg0.win 3).blk t).view.read (Elt Ideal) (msgArr V c) := by
  have hl : t.val % 196 = 195 := (flush0_3 t).mp hf
  show (cfg0.win 3).cut (grid0.coords t) ((dat0 V c).after 3 t) = _
  rw [after0_3]
  funext y
  obtain ⟨r, d, rfl⟩ : ∃ (r : Fin 8192) (d : Fin 64), y = ix2 r d := ⟨y 0, y 1, eq_ix2 y⟩
  show msg0 V c t (ix2 r d) = msgArr V c (((cfg0.win 3).blk t).view.emb (ix2 r d))
  rw [msg0_at V c t hl r d]
  refine congrArg₂ (msgAt (srcArr V c) (featArr V c) (wtArr V c)) ?_ (Fin.ext ?_)
  · show 8192 * (t.val / 196) + r.val = win0_3.index t (0 : Fin 2) * 8192 + 1 * r.val
    rw [idx0_3_0 t]; omega
  · show d.val = win0_3.index t (1 : Fin 2) * 64 + 1 * d.val
    rw [idx0_3_1 t]; omega

/-- Every entry of the array lies in the block of the last node tile of its edge tile. -/
theorem cover (i : S1253376x64.Idx) :
    ∃ t : Fin cfg0.N, (cfg0.win 3).flush t = true ∧ i ∈ ((cfg0.win 3).blk t).view.set := by
  have h0 : (i 0).val < 1253376 := (i 0).isLt
  have h1 : (i 1).val < 64 := (i 1).isLt
  have hlt : 196 * ((i 0).val / 8192) + 195 < cfg0.N := lt_of_lt_of_eq (by omega) N_0.symm
  have hdiv : (196 * ((i 0).val / 8192) + 195) / 196 = (i 0).val / 8192 := by omega
  have hi0 : win0_3.index ⟨196 * ((i 0).val / 8192) + 195, hlt⟩ (0 : Fin 2) = (i 0).val / 8192 := (idx0_3_0 _).trans hdiv
  have hi1 : win0_3.index ⟨196 * ((i 0).val / 8192) + 195, hlt⟩ (1 : Fin 2) = 0 := idx0_3_1 _
  refine ⟨⟨196 * ((i 0).val / 8192) + 195, hlt⟩,
    (flush0_3 _).mpr (by show (196 * ((i 0).val / 8192) + 195) % 196 = 195; omega), ?_⟩
  show i ∈ ((View.whole main_v5).slice (win0_3.rect ⟨196 * ((i 0).val / 8192) + 195, hlt⟩)).set
  rw [View.set_slice_whole, Rect.mem_set_unit]
  intro a
  match a with
  | ⟨0, _⟩ =>
    show win0_3.index ⟨196 * ((i 0).val / 8192) + 195, hlt⟩ (0 : Fin 2) * 8192 ≤ (i 0).val
      ∧ (i 0).val < win0_3.index ⟨196 * ((i 0).val / 8192) + 195, hlt⟩ (0 : Fin 2) * 8192 + 8192
    rw [hi0]; omega
  | ⟨1, _⟩ =>
    show win0_3.index ⟨196 * ((i 0).val / 8192) + 195, hlt⟩ (1 : Fin 2) * 64 ≤ (i 1).val
      ∧ (i 1).val < win0_3.index ⟨196 * ((i 0).val / 8192) + 195, hlt⟩ (1 : Fin 2) * 64 + 64
    rw [hi1]; omega

/-- So the message array ends holding `msgArr`. -/
theorem msg_final (c : Dev nD) : (dat0 V c).arrAt 3 cfg0.N = msgArr V c :=
  (dat0 V c).arrAt_eq_of_cover 3 (msgArr V c) (fun t hf => flushed_eq V c t hf) cover

end Val0

open Val0 in
/-- The messages after the run: at padded edge `r` and column `d`, the feature entry (id, d) of the edge's source id —
    zero when the id names no feature row — times the edge's weight. -/
theorem msg_arr (c : Dev nD) (r : Fin 1253376) (d : Fin 64) :
    (dat0 (F := Ideal) V c).arrAt 3 cfg0.N (ValueIdx.ix2 r d)
      = (if hs : (Val0.srcArr V c (ValueIdx.ix1 r)).toNat < 100352
          then Val0.featArr V c (ValueIdx.ix2 ⟨(Val0.srcArr V c (ValueIdx.ix1 r)).toNat, hs⟩ d) else 0)
        * Val0.wtArr V c (ValueIdx.ix1 r) := by
  refine (congrFun (msg_final V c) (ix2 r d)).trans ?_
  show msgAt (srcArr V c) (featArr V c) (wtArr V c) r.val d = _
  unfold msgAt
  rw [srcAt_lt, wtAt_lt]
  rfl

end Cert.KernelIdeal.Hand

end
-- ==== Proof.KI.Val1.lean ====
/-
  The values of call 1's two output arrays after its run, at the extended reals: row n of the feature sums is
  the sum, over every edge whose destination id is n, of the edge's message row; entry n of the in-degrees is the
  number of such edges.

  Call 1 walks 196 node tiles by 153 edge tiles, edge tile innermost.  At a point the body forms the one-hot matrix of
  the edge tile's 8192 destination ids against the node tile's 512 ids and adds, to the node tile's two blocks, its
  transpose times the tile's messages, respectively times a column of ones; the blocks start from zero at the first
  edge tile.  So after edge tile e the blocks hold the sums over the edges below 8192·(e + 1), and after the last,
  e = 152, over all 8192·153 = 1253376 of them; that is when the blocks are written back, node tile nt to rows
  512·nt … 512·nt + 511, and the 196 node tiles cover the 100352 rows.
-/
import proofs.«415711_j52312701665803_3_alg».proof.Proof.KI.Dats
import proofs.«415711_j52312701665803_3_alg».proof.Proof.KI.Grid
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Mathlib.Algebra.BigOperators.Intervals
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ
variable (V : (c : Dev nD) → (b : Ref sig .tc) → Buf (Elt Ideal) ((c : Thread nD τ).loc b))

/-! ## The body's arithmetic at an index -/

namespace Scatter

/-- The word a comparison for equality widens to, read as a real: one on equal words, zero otherwise. -/
theorem eqWord_toReal (a b : BitVec 32) :
    ((((IntOp.cmpi .eq a b).setWidth 32).toInt : ℝ) : EReal) = if a = b then 1 else 0 := by
  unfold IntOp.cmpi
  by_cases h : a = b
  · subst h; simp
  · have hb : (a == b) = false := by simpa using h
    simp [hb, h]

/-- The column ids of node tile `nt`: `512·nt + j`, with no wrap-around below 2³². -/
theorem colWord (nt j : ℕ) (hnt : nt < 196) (hj : j < 512) :
    IntOp.addi (Scalar.muli (BitVec.ofNat 32 nt) 512#32) (BitVec.ofNat 32 j) = BitVec.ofNat 32 (512 * nt + j) := by
  unfold IntOp.addi Scalar.muli IntOp.muli
  apply BitVec.eq_of_toNat_eq
  simp only [BitVec.toNat_add, BitVec.toNat_mul, BitVec.toNat_ofNat]
  omega

/-- A column of ids spread along the rows of an 8192 × 512 matrix reads, at (r, j), the id of row r. -/
theorem rowSpread_apply (v3 : IVec S8192 32) (h1 : S8192.ShapeCasts S8192) (h2 : S8192.ShapeCasts S8192x1)
    (h3 : S8192x1.Broadcasts S8192x512) (r : Fin 8192) (j : Fin 512) :
    broadcastTo S8192x512 (shapeCast S8192x1 (shapeCast S8192 v3 h1) h2) h3 (ix2 r j) = v3 (ix1 r) := by
  rw [shapeCast_self]
  refine (broadcastTo_apply _ _ (ix2 r j) (ix2 r (0 : Fin 1)) fun a => ?_).trans ?_
  · match a with
    | ⟨0, _⟩ => rfl
    | ⟨1, _⟩ => rfl
  · refine shapeCast_apply _ _ (ix2 r (0 : Fin 1)) (ix1 r) ?_
    rw [Shape.rowMajor_val_one, Shape.rowMajor_val_two]
    show r.val = r.val * 1 + 0
    omega

/-- A row of column ids `w + j` spread along the rows reads, at (r, j), `w + j`. -/
theorem colSpread_apply (w : BitVec 32) (hio : S1x512.Iotas .tc 32 [1]) (h3 : S1x512.Broadcasts S8192x512)
    (r : Fin 8192) (j : Fin 512) :
    broadcastTo S8192x512 (addi (broadcast S1x512 w) (iota .tc S1x512 32 [1] hio)) h3 (ix2 r j)
      = IntOp.addi w (BitVec.ofNat 32 j.val) := by
  refine (broadcastTo_apply _ _ (ix2 r j) (ix2 (0 : Fin 1) j) fun a => ?_).trans ?_
  · match a with
    | ⟨0, _⟩ => rfl
    | ⟨1, _⟩ => rfl
  · show IntOp.addi (broadcast S1x512 w (ix2 (0 : Fin 1) j)) (iota .tc S1x512 32 [1] hio (ix2 (0 : Fin 1) j)) = _
    rw [iota_single_apply]
    rfl

/-- The one-hot matrix of an edge tile against node tile `i 0`: entry (edge row `r`, column `j`) is one exactly
    when the edge's destination id is `512·(i 0) + j`. -/
theorem onehot_apply (i : grid1.Coords) (v3 : Vec Ideal S8192 .i32) (r : Fin 8192) (j : Fin 512) :
    k1_pay3 (F := Ideal) i v3 (ix2 r j)
      = if v3 (ix1 r) = BitVec.ofNat 32 (512 * (i 0).val + j.val) then (1 : EReal) else 0 := by
  have hi : (i 0).val < 196 := (i 0).isLt
  unfold k1_pay3
  dsimp only
  unfold truncf sitofp extui cmpi
  rw [rowSpread_apply v3 _ _ _ r j, colSpread_apply _ _ _ r j, colWord _ _ hi j.isLt]
  exact eqWord_toReal _ _

/-- The matmul of call 1's feature sums: contraction over the edge rows of both operands. -/
theorem lhsS_0 (j : S512x64.Idx) (k : dot_S8192x512_S8192x64_S512x64_0_0_1_1_n_n.contr.Idx) :
    (dot_S8192x512_S8192x64_S512x64_0_0_1_1_n_n.lhsIdx j k 0).val = (k ⟨0, by decide⟩).val :=
  dot_S8192x512_S8192x64_S512x64_0_0_1_1_n_n.lhsIdx_val_of_single (cl := 0) rfl j k
theorem rhsS_0 (j : S512x64.Idx) (k : dot_S8192x512_S8192x64_S512x64_0_0_1_1_n_n.contr.Idx) :
    (dot_S8192x512_S8192x64_S512x64_0_0_1_1_n_n.rhsIdx j k 0).val = (k ⟨0, by decide⟩).val :=
  dot_S8192x512_S8192x64_S512x64_0_0_1_1_n_n.rhsIdx_val_of_single (cr := 0) rfl j k
theorem lhsS_1 (j : S512x64.Idx) (k : dot_S8192x512_S8192x64_S512x64_0_0_1_1_n_n.contr.Idx) :
    (dot_S8192x512_S8192x64_S512x64_0_0_1_1_n_n.lhsIdx j k 1).val = (j 0).val := by
  first
    | (simp [DotDims.lhsIdx, dot_S8192x512_S8192x64_S512x64_0_0_1_1_n_n]; done)
    | (simp [DotDims.lhsIdx, dot_S8192x512_S8192x64_S512x64_0_0_1_1_n_n]; rfl)
    | (unfold DotDims.lhsIdx
       rw [dif_neg (show ¬(1 : Fin S8192x512.rank) ∈ dot_S8192x512_S8192x64_S512x64_0_0_1_1_n_n.lhsBatch by decide),
         dif_pos (show (1 : Fin S8192x512.rank) ∈ dot_S8192x512_S8192x64_S512x64_0_0_1_1_n_n.lhsNonContracting by decide)]
       rfl)
theorem rhsS_1 (j : S512x64.Idx) (k : dot_S8192x512_S8192x64_S512x64_0_0_1_1_n_n.contr.Idx) :
    (dot_S8192x512_S8192x64_S512x64_0_0_1_1_n_n.rhsIdx j k 1).val = (j 1).val := by
  first
    | (simp [DotDims.rhsIdx, dot_S8192x512_S8192x64_S512x64_0_0_1_1_n_n]; done)
    | (simp [DotDims.rhsIdx, dot_S8192x512_S8192x64_S512x64_0_0_1_1_n_n]; rfl)
    | (unfold DotDims.rhsIdx
       rw [dif_neg (show ¬(1 : Fin S8192x64.rank) ∈ dot_S8192x512_S8192x64_S512x64_0_0_1_1_n_n.rhsBatch by decide),
         dif_pos (show (1 : Fin S8192x64.rank) ∈ dot_S8192x512_S8192x64_S512x64_0_0_1_1_n_n.rhsNonContracting by decide)]
       rfl)

theorem mul_onehot (p : Prop) [Decidable p] (x : EReal) : (if p then (1 : EReal) else 0) * x = if p then x else 0 := by
  split_ifs <;> simp

/-- The feature-sum payload at (j, d): what it is given plus, over the tile's edge rows whose destination is
    node `512·(i 0) + j`, the sum of the message entries in column d. -/
theorem pay4_apply (i : grid1.Coords) (v3 : Vec Ideal S8192 .i32) (v16 : Vec Ideal S8192x64 .bf16)
    (v21 : Vec Ideal S512x64 .f32) (j : Fin 512) (d : Fin 64) :
    k1_pay4 (F := Ideal) i v3 v16 v21 (ix2 j d)
      = v21 (ix2 j d) + ∑ r : Fin 8192,
          if v3 (ix1 r) = BitVec.ofNat 32 (512 * (i 0).val + j.val) then v16 (ix2 r d) else 0 := by
  unfold k1_pay4
  dsimp only
  rw [addf_apply, shapeCast_self, shapeCast_self]
  refine congrArg (v21 (ix2 j d) + ·) ?_
  refine (Ideal.matmul_constant_zero_apply (φ₁ := .bf16) (φ₂ := .bf16) dot_S8192x512_S8192x64_S512x64_0_0_1_1_n_n none
    (k1_pay3 (F := Ideal) i v3) v16 (ix2 j d)).trans ?_
  rw [← Equiv.sum_comp (contrEquiv1 dot_S8192x512_S8192x64_S512x64_0_0_1_1_n_n 8192 rfl rfl).symm]
  refine Finset.sum_congr rfl fun r _ => ?_
  have c := contrEquiv1_symm_val dot_S8192x512_S8192x64_S512x64_0_0_1_1_n_n 8192 rfl rfl r
  have l : dot_S8192x512_S8192x64_S512x64_0_0_1_1_n_n.lhsIdx (ix2 j d)
      ((contrEquiv1 dot_S8192x512_S8192x64_S512x64_0_0_1_1_n_n 8192 rfl rfl).symm r) = ix2 r j := by
    funext ax; apply Fin.ext
    match ax with
    | ⟨0, _⟩ => exact (lhsS_0 _ _).trans c
    | ⟨1, _⟩ => exact lhsS_1 _ _
  have l' : dot_S8192x512_S8192x64_S512x64_0_0_1_1_n_n.rhsIdx (ix2 j d)
      ((contrEquiv1 dot_S8192x512_S8192x64_S512x64_0_0_1_1_n_n 8192 rfl rfl).symm r) = ix2 r d := by
    funext ax; apply Fin.ext
    match ax with
    | ⟨0, _⟩ => exact (rhsS_0 _ _).trans c
    | ⟨1, _⟩ => exact rhsS_1 _ _
  rw [l, l', onehot_apply]
  exact mul_onehot _ _

theorem lhsD_0 (j : S512x1.Idx) (k : dot_S8192x512_S8192x1_S512x1_0_0_1_1_n_n.contr.Idx) :
    (dot_S8192x512_S8192x1_S512x1_0_0_1_1_n_n.lhsIdx j k 0).val = (k ⟨0, by decide⟩).val :=
  dot_S8192x512_S8192x1_S512x1_0_0_1_1_n_n.lhsIdx_val_of_single (cl := 0) rfl j k
theorem lhsD_1 (j : S512x1.Idx) (k : dot_S8192x512_S8192x1_S512x1_0_0_1_1_n_n.contr.Idx) :
    (dot_S8192x512_S8192x1_S512x1_0_0_1_1_n_n.lhsIdx j k 1).val = (j 0).val := by
  first
    | (simp [DotDims.lhsIdx, dot_S8192x512_S8192x1_S512x1_0_0_1_1_n_n]; done)
    | (simp [DotDims.lhsIdx, dot_S8192x512_S8192x1_S512x1_0_0_1_1_n_n]; rfl)

/-- The in-degree payload at (j, 0): what it is given plus the number of the tile's edge rows whose destination
    is node `512·(i 0) + j`. -/
theorem pay5_apply (i : grid1.Coords) (v3 : Vec Ideal S8192 .i32) (v25 : Vec Ideal S512x1 .f32) (j : Fin 512) :
    k1_pay5 (F := Ideal) i v3 v25 (ix2 j (0 : Fin 1))
      = v25 (ix2 j (0 : Fin 1)) + ∑ r : Fin 8192,
          if v3 (ix1 r) = BitVec.ofNat 32 (512 * (i 0).val + j.val) then (1 : EReal) else 0 := by
  unfold k1_pay5
  dsimp only
  rw [addf_apply, shapeCast_self]
  refine congrArg (v25 (ix2 j (0 : Fin 1)) + ·) ?_
  refine (Ideal.matmul_constant_zero_apply (φ₁ := .bf16) (φ₂ := .bf16) dot_S8192x512_S8192x1_S512x1_0_0_1_1_n_n none
    (k1_pay3 (F := Ideal) i v3) (broadcast S8192x1 (Scalar.ofBits (F := Ideal) .bf16 0x3F80#16)) (ix2 j (0 : Fin 1))).trans ?_
  rw [← Equiv.sum_comp (contrEquiv1 dot_S8192x512_S8192x1_S512x1_0_0_1_1_n_n 8192 rfl rfl).symm]
  refine Finset.sum_congr rfl fun r _ => ?_
  have c := contrEquiv1_symm_val dot_S8192x512_S8192x1_S512x1_0_0_1_1_n_n 8192 rfl rfl r
  have l : dot_S8192x512_S8192x1_S512x1_0_0_1_1_n_n.lhsIdx (ix2 j (0 : Fin 1))
      ((contrEquiv1 dot_S8192x512_S8192x1_S512x1_0_0_1_1_n_n 8192 rfl rfl).symm r) = ix2 r j := by
    funext ax; apply Fin.ext
    match ax with
    | ⟨0, _⟩ => exact (lhsD_0 _ _).trans c
    | ⟨1, _⟩ => exact lhsD_1 _ _
  rw [l, onehot_apply, broadcast_apply]
  show (if _ then (1 : EReal) else 0) * Ideal.ofBits .bf16 0x3F80#16 = _
  rw [Ideal.ofBits_one_bf16, mul_one]

/-! ## The windows' block indices at a point, in closed form

Point `t` of the 196 × 153 grid is node tile `t / 153`, edge tile `t % 153`; the id and message windows move
with the edge tile, the two output windows with the node tile. -/

theorem idx1_0 (t : Fin cfg1.N) : win1_0.index t 0 = t.val % 153 := by
  show (BitVec.ofNat 32 (grid1.coords t 1).val).toNat = _
  rw [BitVec.toNat_ofNat, coords1_1]
  omega

theorem idx1_1 (t : Fin cfg1.N) : win1_1.index t 0 = t.val % 153 ∧ win1_1.index t 1 = 0 := by
  refine ⟨?_, rfl⟩
  show (BitVec.ofNat 32 (grid1.coords t 1).val).toNat = _
  rw [BitVec.toNat_ofNat, coords1_1]
  omega

theorem idx1_2 (t : Fin cfg1.N) : win1_2.index t 0 = t.val / 153 ∧ win1_2.index t 1 = 0 := by
  have ht := lt_N1 t
  refine ⟨?_, rfl⟩
  show (BitVec.ofNat 32 (grid1.coords t 0).val).toNat = _
  rw [BitVec.toNat_ofNat, coords1_0]
  omega

theorem idx1_3 (t : Fin cfg1.N) : win1_3.index t 0 = t.val / 153 ∧ win1_3.index t 1 = 0 := by
  have ht := lt_N1 t
  refine ⟨?_, rfl⟩
  show (BitVec.ofNat 32 (grid1.coords t 0).val).toNat = _
  rw [BitVec.toNat_ofNat, coords1_0]
  omega

/-! ## The input blocks as rows of the arrays -/

/-- The padded destination ids and the messages as call 1 is entered. -/
abbrev dstArr (c : Dev nD) : IVec S1253376 32 := V c main_v4
abbrev msgArr (c : Dev nD) : S1253376x64.Idx → EReal := V c main_v5

/-- Row `r` of the id block at point `t` is edge `8192·(t % 153) + r`. -/
theorem dstB_apply (c : Dev nD) (t : Fin cfg1.N) (r : Fin 8192) (h : 8192 * (t.val % 153) + r.val < 1253376) :
    dstB V c t (ix1 r) = dstArr V c (ix1 ⟨8192 * (t.val % 153) + r.val, h⟩) := by
  unfold dstB iblk1
  rw [View.read_apply]
  show V c main_v4 _ = V c main_v4 _
  congr 1
  funext a
  apply Fin.ext
  match a with
  | ⟨0, _⟩ => show win1_0.index t 0 * 8192 + 1 * r.val = 8192 * (t.val % 153) + r.val; rw [idx1_0]; omega

/-- Row `r` of the message block at point `t` is edge `8192·(t % 153) + r`, column for column. -/
theorem msgB_apply (c : Dev nD) (t : Fin cfg1.N) (r : Fin 8192) (d : Fin 64) (h : 8192 * (t.val % 153) + r.val < 1253376) :
    msgB V c t (ix2 r d) = msgArr V c (ix2 ⟨8192 * (t.val % 153) + r.val, h⟩ d) := by
  unfold msgB iblk1
  rw [View.read_apply]
  show V c main_v5 _ = V c main_v5 _
  congr 1
  funext a
  apply Fin.ext
  match a with
  | ⟨0, _⟩ => show win1_1.index t 0 * 8192 + 1 * r.val = 8192 * (t.val % 153) + r.val; rw [(idx1_1 t).1]; omega
  | ⟨1, _⟩ => show win1_1.index t 1 * 64 + 1 * d.val = d.val; rw [(idx1_1 t).2]; omega

/-! ## One edge's share of a node's sums -/

/-- What edge `r` adds to column `d` of node `n`'s feature sum: its message entry if its destination is `n`
    (nothing beyond the last edge). -/
def share (c : Dev nD) (n : ℕ) (d : Fin 64) (r : ℕ) : EReal :=
  if h : r < 1253376 then
    (if dstArr V c (ix1 ⟨r, h⟩) = BitVec.ofNat 32 n then msgArr V c (ix2 ⟨r, h⟩ d) else 0)
  else 0

/-- What edge `r` adds to node `n`'s in-degree: one if its destination is `n`. -/
def hit (c : Dev nD) (n : ℕ) (r : ℕ) : EReal :=
  if h : r < 1253376 then (if dstArr V c (ix1 ⟨r, h⟩) = BitVec.ofNat 32 n then 1 else 0) else 0

/-- A share at an edge below the bound, with the node and the column named up to equality. -/
theorem share_eq (c : Dev nD) (n n' : ℕ) (d d' : Fin 64) (r : Fin 1253376) (hn : n' = n) (hd : d'.val = d.val) :
    share V c n d r.val
      = if dstArr V c (ix1 r) = BitVec.ofNat 32 n' then msgArr V c (ix2 r d') else 0 := by
  obtain rfl : d' = d := Fin.ext hd
  subst hn
  unfold share
  rw [dif_pos r.isLt]
  try rfl

theorem hit_eq (c : Dev nD) (n n' : ℕ) (r : Fin 1253376) (hn : n' = n) :
    hit V c n r.val = if dstArr V c (ix1 r) = BitVec.ofNat 32 n' then 1 else 0 := by
  subst hn
  unfold hit
  rw [dif_pos r.isLt]
  try rfl

/-- One point's step on the feature sums: entry (j, d) of the node tile's block gains the shares of the edge tile's
    8192 edges. -/
theorem tile_sum (c : Dev nD) (t : Fin cfg1.N) (acc : Vec Ideal S512x64 .f32) (j : Fin 512) (d : Fin 64) :
    k1_pay4 (F := Ideal) (grid1.coords t) (dstB V c t) (msgB V c t) acc (ix2 j d)
      = acc (ix2 j d)
        + ∑ r ∈ Finset.range 8192, share V c (512 * (t.val / 153) + j.val) d (8192 * (t.val % 153) + r) := by
  have ht := lt_N1 t
  refine (pay4_apply (grid1.coords t) (dstB V c t) (msgB V c t) acc j d).trans ?_
  rw [coords1_0, Finset.sum_range]
  refine congrArg (acc (ix2 j d) + ·) (Finset.sum_congr rfl fun r _ => ?_)
  have h : 8192 * (t.val % 153) + r.val < 1253376 := by have := r.isLt; omega
  unfold share
  rw [dif_pos h, dstB_apply V c t r h, msgB_apply V c t r d h]

/-- One point's step on the in-degrees. -/
theorem tile_deg (c : Dev nD) (t : Fin cfg1.N) (acc : Vec Ideal S512x1 .f32) (j : Fin 512) :
    k1_pay5 (F := Ideal) (grid1.coords t) (dstB V c t) acc (ix2 j (0 : Fin 1))
      = acc (ix2 j (0 : Fin 1))
        + ∑ r ∈ Finset.range 8192, hit V c (512 * (t.val / 153) + j.val) (8192 * (t.val % 153) + r) := by
  have ht := lt_N1 t
  refine (pay5_apply (grid1.coords t) (dstB V c t) acc j).trans ?_
  rw [coords1_0, Finset.sum_range]
  refine congrArg (acc (ix2 j (0 : Fin 1)) + ·) (Finset.sum_congr rfl fun r _ => ?_)
  have h : 8192 * (t.val % 153) + r.val < 1253376 := by have := r.isLt; omega
  unfold hit
  rw [dif_pos h, dstB_apply V c t r h]

/-! ## The blocks after a point: the sums over the edges so far -/

/-- The zero blocks a run starts from. -/
theorem zero_sum (j : Fin 512) (d : Fin 64) : (k1_pay1 (F := Ideal)) (ix2 j d) = 0 := by
  unfold k1_pay1
  exact Ideal.ofBits_zero_f32

theorem zero_deg (j : Fin 512) : (k1_pay2 (F := Ideal)) (ix2 j (0 : Fin 1)) = 0 := by
  unfold k1_pay2
  exact Ideal.ofBits_zero_f32

/-- A run's first tile: zero plus the tile's terms is the sum over the first 8192 terms. -/
theorem run_start (f : ℕ → EReal) (e : ℕ) (he : e = 0) :
    (0 : EReal) + ∑ r ∈ Finset.range 8192, f (8192 * e + r) = ∑ r ∈ Finset.range (8192 * (e + 1)), f r := by
  subst he
  refine (zero_add _).trans ?_
  exact Finset.sum_congr rfl fun r _ => by rw [Nat.mul_zero, Nat.zero_add]

/-- A later tile extends the sum by its 8192 terms. -/
theorem run_extend (f : ℕ → EReal) (e : ℕ) :
    ∑ r ∈ Finset.range (8192 * (e + 1)), f r + ∑ r ∈ Finset.range 8192, f (8192 * (e + 1) + r)
      = ∑ r ∈ Finset.range (8192 * (e + 1 + 1)), f r := by
  rw [show 8192 * (e + 1 + 1) = 8192 * (e + 1) + 8192 by omega, Finset.sum_range_add]

/-- After point `n` = (node tile `n / 153`, edge tile `n % 153`) entry (j, d) of the feature-sum block is the sum
    of the shares of the edges below `8192·(n % 153 + 1)` in node `512·(n / 153) + j`. -/
theorem sum1_inv (c : Dev nD) : ∀ (n : ℕ) (hn : n < cfg1.N) (j : Fin 512) (d : Fin 64),
    sum1 V c n hn (ix2 j d)
      = ∑ r ∈ Finset.range (8192 * (n % 153 + 1)), share V c (512 * (n / 153) + j.val) d r
  | 0, hn, j, d => by
    rw [sum1]
    refine (tile_sum V c ⟨0, hn⟩ (k1_pay1 (F := Ideal)) j d).trans ?_
    rw [zero_sum]
    exact run_start (share V c (512 * (0 / 153) + j.val) d) (0 % 153) rfl
  | n + 1, hn, j, d => by
    rw [sum1]
    by_cases h0 : (n + 1) % 153 = 0
    · rw [if_pos h0]
      refine (tile_sum V c ⟨n + 1, hn⟩ (k1_pay1 (F := Ideal)) j d).trans ?_
      rw [zero_sum]
      exact run_start (share V c (512 * ((n + 1) / 153) + j.val) d) ((n + 1) % 153) h0
    · rw [if_neg h0]
      refine (tile_sum V c ⟨n + 1, hn⟩ (sum1 V c n (Nat.lt_of_succ_lt hn)) j d).trans ?_
      rw [sum1_inv c n (Nat.lt_of_succ_lt hn) j d]
      have hq : (n + 1) / 153 = n / 153 := by omega
      have hm : (n + 1) % 153 = n % 153 + 1 := by omega
      show ∑ r ∈ Finset.range (8192 * (n % 153 + 1)), share V c (512 * (n / 153) + j.val) d r
          + ∑ r ∈ Finset.range 8192, share V c (512 * ((n + 1) / 153) + j.val) d (8192 * ((n + 1) % 153) + r)
        = ∑ r ∈ Finset.range (8192 * ((n + 1) % 153 + 1)), share V c (512 * ((n + 1) / 153) + j.val) d r
      rw [hq, hm]
      exact run_extend (share V c (512 * (n / 153) + j.val) d) (n % 153)

/-- The in-degree block after point `n`, likewise. -/
theorem deg1_inv (c : Dev nD) : ∀ (n : ℕ) (hn : n < cfg1.N) (j : Fin 512),
    deg1 V c n hn (ix2 j (0 : Fin 1))
      = ∑ r ∈ Finset.range (8192 * (n % 153 + 1)), hit V c (512 * (n / 153) + j.val) r
  | 0, hn, j => by
    rw [deg1]
    refine (tile_deg V c ⟨0, hn⟩ (k1_pay2 (F := Ideal)) j).trans ?_
    rw [zero_deg]
    exact run_start (hit V c (512 * (0 / 153) + j.val)) (0 % 153) rfl
  | n + 1, hn, j => by
    rw [deg1]
    by_cases h0 : (n + 1) % 153 = 0
    · rw [if_pos h0]
      refine (tile_deg V c ⟨n + 1, hn⟩ (k1_pay2 (F := Ideal)) j).trans ?_
      rw [zero_deg]
      exact run_start (hit V c (512 * ((n + 1) / 153) + j.val)) ((n + 1) % 153) h0
    · rw [if_neg h0]
      refine (tile_deg V c ⟨n + 1, hn⟩ (deg1 V c n (Nat.lt_of_succ_lt hn)) j).trans ?_
      rw [deg1_inv c n (Nat.lt_of_succ_lt hn) j]
      have hq : (n + 1) / 153 = n / 153 := by omega
      have hm : (n + 1) % 153 = n % 153 + 1 := by omega
      show ∑ r ∈ Finset.range (8192 * (n % 153 + 1)), hit V c (512 * (n / 153) + j.val) r
          + ∑ r ∈ Finset.range 8192, hit V c (512 * ((n + 1) / 153) + j.val) (8192 * ((n + 1) % 153) + r)
        = ∑ r ∈ Finset.range (8192 * ((n + 1) % 153 + 1)), hit V c (512 * ((n + 1) / 153) + j.val) r
      rw [hq, hm]
      exact run_extend (hit V c (512 * (n / 153) + j.val)) (n % 153)

/-- The same at any index of the block. -/
theorem sum1_at (c : Dev nD) (n : ℕ) (hn : n < cfg1.N) (y : S512x64.Idx) :
    sum1 V c n hn y
      = ∑ r ∈ Finset.range (8192 * (n % 153 + 1)),
          share V c (512 * (n / 153) + (y 0).val) ⟨(y 1).val, idx2_lt1 y⟩ r := by
  obtain ⟨j, d, rfl⟩ : ∃ (j : Fin 512) (d : Fin 64), y = ix2 j d := ⟨y 0, y 1, eq_ix2 y⟩
  exact sum1_inv V c n hn j d

theorem deg1_at (c : Dev nD) (n : ℕ) (hn : n < cfg1.N) (y : S512x1.Idx) :
    deg1 V c n hn y = ∑ r ∈ Finset.range (8192 * (n % 153 + 1)), hit V c (512 * (n / 153) + (y 0).val) r := by
  obtain ⟨j, z, rfl⟩ : ∃ (j : Fin 512) (z : Fin 1), y = ix2 j z := ⟨y 0, y 1, eq_ix2 y⟩
  obtain rfl : z = 0 := Subsingleton.elim _ _
  exact deg1_inv V c n hn j

/-! ## From the blocks to the arrays -/

/-- Row `n`, column `d` of the feature sums: the messages of the edges into node `n`, added. -/
def nodeSum (c : Dev nD) (n : Fin 100352) (d : Fin 64) : EReal :=
  ∑ r : Fin 1253376, if dstArr V c (ix1 r) = BitVec.ofNat 32 n.val then msgArr V c (ix2 r d) else 0

/-- Entry `n` of the in-degrees: the number of edges into node `n`. -/
def nodeDeg (c : Dev nD) (n : Fin 100352) : EReal :=
  ∑ r : Fin 1253376, if dstArr V c (ix1 r) = BitVec.ofNat 32 n.val then (1 : EReal) else 0

/-- The two arrays the run leaves. -/
def sumArr (c : Dev nD) : Buf (Elt Ideal) ((c : Thread nD τ).loc main_v6_0) :=
  fun i => nodeSum V c ⟨(i 0).val, (i 0).isLt⟩ ⟨(i 1).val, (i 1).isLt⟩
def degArr (c : Dev nD) : Buf (Elt Ideal) ((c : Thread nD τ).loc main_v6_1) :=
  fun i => nodeDeg V c ⟨(i 0).val, (i 0).isLt⟩

/-- Entry (j, d) of node tile `t / 153`'s block of the feature-sum array is the array's row `512·(t / 153) + j`. -/
theorem read_blk_sum (c : Dev nD) (t : Fin cfg1.N) (f : Buf (Elt Ideal) ((c : Thread nD τ).loc main_v6_0))
    (y : S512x64.Idx) (k : S100352x64.Idx) (hk0 : (k 0).val = 512 * (t.val / 153) + (y 0).val)
    (hk1 : (k 1).val = (y 1).val) :
    ((cfg1.win 2).blk t).view.read (Elt Ideal) f y = f k := by
  rw [View.read_apply]
  show f _ = f _
  congr 1
  funext a
  apply Fin.ext
  match a with
  | ⟨0, _⟩ => show win1_2.index t 0 * 512 + 1 * (y 0).val = (k 0).val; rw [(idx1_2 t).1, hk0]; omega
  | ⟨1, _⟩ => show win1_2.index t 1 * 64 + 1 * (y 1).val = (k 1).val; rw [(idx1_2 t).2, hk1]; omega

/-- Entry (j, 0) of node tile `t / 153`'s block of the in-degree array is the array's entry `512·(t / 153) + j`. -/
theorem read_blk_deg (c : Dev nD) (t : Fin cfg1.N) (f : Buf (Elt Ideal) ((c : Thread nD τ).loc main_v6_1))
    (y : S512x1.Idx) (k : S100352x1.Idx) (hk0 : (k 0).val = 512 * (t.val / 153) + (y 0).val)
    (hk1 : (k 1).val = (y 1).val) :
    ((cfg1.win 3).blk t).view.read (Elt Ideal) f y = f k := by
  rw [View.read_apply]
  show f _ = f _
  congr 1
  funext a
  apply Fin.ext
  match a with
  | ⟨0, _⟩ => show win1_3.index t 0 * 512 + 1 * (y 0).val = (k 0).val; rw [(idx1_3 t).1, hk0]; omega
  | ⟨1, _⟩ => show win1_3.index t 1 * 1 + 1 * (y 1).val = (k 1).val; rw [(idx1_3 t).2, hk1]; omega

/-- What a last edge tile writes back is the node tile's rows of the feature sums. -/
theorem flushed_sum (c : Dev nD) (t : Fin cfg1.N) (hf : (cfg1.win 2).flush t = true) :
    (dat1 V c).flushed 2 t = ((cfg1.win 2).blk t).view.read (Elt Ideal) (sumArr V c) := by
  have h152 : t.val % 153 = 152 := (flush1_2 t).mp hf
  have ht := lt_N1 t
  show (cfg1.win 2).cut (grid1.coords t) ((dat1 V c).after 2 t) = _
  rw [after1_2]
  funext y
  have hy0 : (y 0).val < 512 := (y 0).isLt
  have hy1 : (y 1).val < 64 := (y 1).isLt
  have hrow : 512 * (t.val / 153) + (y 0).val < 100352 := by omega
  refine Eq.trans ?_ (read_blk_sum c t (sumArr V c) y (ix2 ⟨512 * (t.val / 153) + (y 0).val, hrow⟩ ⟨(y 1).val, hy1⟩) rfl rfl).symm
  refine (sum1_at V c t.val t.isLt y).trans ?_
  rw [h152, show 8192 * (152 + 1) = 1253376 from rfl, Finset.sum_range]
  unfold sumArr nodeSum
  exact Finset.sum_congr rfl fun r _ => share_eq V c _ _ _ _ r rfl rfl

/-- and the node tile's entries of the in-degrees. -/
theorem flushed_deg (c : Dev nD) (t : Fin cfg1.N) (hf : (cfg1.win 3).flush t = true) :
    (dat1 V c).flushed 3 t = ((cfg1.win 3).blk t).view.read (Elt Ideal) (degArr V c) := by
  have h152 : t.val % 153 = 152 := (flush1_3 t).mp hf
  have ht := lt_N1 t
  show (cfg1.win 3).cut (grid1.coords t) ((dat1 V c).after 3 t) = _
  rw [after1_3]
  funext y
  have hy0 : (y 0).val < 512 := (y 0).isLt
  have hy1 : (y 1).val < 1 := (y 1).isLt
  have hrow : 512 * (t.val / 153) + (y 0).val < 100352 := by omega
  refine Eq.trans ?_ (read_blk_deg c t (degArr V c) y (ix2 ⟨512 * (t.val / 153) + (y 0).val, hrow⟩ ⟨(y 1).val, hy1⟩) rfl rfl).symm
  refine (deg1_at V c t.val t.isLt y).trans ?_
  rw [h152, show 8192 * (152 + 1) = 1253376 from rfl, Finset.sum_range]
  unfold degArr nodeDeg
  exact Finset.sum_congr rfl fun r _ => hit_eq V c _ _ r rfl
/-- Row `i` lies in the block the last edge tile of node tile `i / 512` writes back. -/
theorem cover_sum (i : S100352x64.Idx) :
    ∃ t : Fin cfg1.N, (cfg1.win 2).flush t = true ∧ i ∈ ((cfg1.win 2).blk t).view.set := by
  have hi0 : (i 0).val < 100352 := (i 0).isLt
  have hi1 : (i 1).val < 64 := (i 1).isLt
  have hlt : 153 * ((i 0).val / 512) + 152 < cfg1.N := by
    show _ < grid1.N
    rw [N_1]; omega
  have hq : (153 * ((i 0).val / 512) + 152) / 153 = (i 0).val / 512 := by omega
  refine ⟨⟨153 * ((i 0).val / 512) + 152, hlt⟩, (flush1_2 _).mpr (by show (153 * ((i 0).val / 512) + 152) % 153 = 152; omega), ?_⟩
  show i ∈ ((View.whole main_v6_0).slice (win1_2.rect ⟨153 * ((i 0).val / 512) + 152, hlt⟩)).set
  rw [View.set_slice_whole, Rect.mem_set_unit]
  intro a
  match a with
  | ⟨0, _⟩ =>
    show win1_2.index ⟨153 * ((i 0).val / 512) + 152, hlt⟩ 0 * 512 ≤ (i 0).val
      ∧ (i 0).val < win1_2.index ⟨153 * ((i 0).val / 512) + 152, hlt⟩ 0 * 512 + 512
    rw [(idx1_2 _).1]
    show (153 * ((i 0).val / 512) + 152) / 153 * 512 ≤ (i 0).val
      ∧ (i 0).val < (153 * ((i 0).val / 512) + 152) / 153 * 512 + 512
    rw [hq]; omega
  | ⟨1, _⟩ =>
    show win1_2.index ⟨153 * ((i 0).val / 512) + 152, hlt⟩ 1 * 64 ≤ (i 1).val
      ∧ (i 1).val < win1_2.index ⟨153 * ((i 0).val / 512) + 152, hlt⟩ 1 * 64 + 64
    rw [(idx1_2 _).2]; omega

theorem cover_deg (i : S100352x1.Idx) :
    ∃ t : Fin cfg1.N, (cfg1.win 3).flush t = true ∧ i ∈ ((cfg1.win 3).blk t).view.set := by
  have hi0 : (i 0).val < 100352 := (i 0).isLt
  have hi1 : (i 1).val < 1 := (i 1).isLt
  have hlt : 153 * ((i 0).val / 512) + 152 < cfg1.N := by
    show _ < grid1.N
    rw [N_1]; omega
  have hq : (153 * ((i 0).val / 512) + 152) / 153 = (i 0).val / 512 := by omega
  refine ⟨⟨153 * ((i 0).val / 512) + 152, hlt⟩, (flush1_3 _).mpr (by show (153 * ((i 0).val / 512) + 152) % 153 = 152; omega), ?_⟩
  show i ∈ ((View.whole main_v6_1).slice (win1_3.rect ⟨153 * ((i 0).val / 512) + 152, hlt⟩)).set
  rw [View.set_slice_whole, Rect.mem_set_unit]
  intro a
  match a with
  | ⟨0, _⟩ =>
    show win1_3.index ⟨153 * ((i 0).val / 512) + 152, hlt⟩ 0 * 512 ≤ (i 0).val
      ∧ (i 0).val < win1_3.index ⟨153 * ((i 0).val / 512) + 152, hlt⟩ 0 * 512 + 512
    rw [(idx1_3 _).1]
    show (153 * ((i 0).val / 512) + 152) / 153 * 512 ≤ (i 0).val
      ∧ (i 0).val < (153 * ((i 0).val / 512) + 152) / 153 * 512 + 512
    rw [hq]; omega
  | ⟨1, _⟩ =>
    show win1_3.index ⟨153 * ((i 0).val / 512) + 152, hlt⟩ 1 * 1 ≤ (i 1).val
      ∧ (i 1).val < win1_3.index ⟨153 * ((i 0).val / 512) + 152, hlt⟩ 1 * 1 + 1
    rw [(idx1_3 _).2]; omega

/-- The feature-sum array after the run. -/
theorem final_sum (c : Dev nD) : (dat1 V c).arrAt 2 cfg1.N = sumArr V c :=
  (dat1 V c).arrAt_eq_of_cover 2 (sumArr V c) (flushed_sum V c) cover_sum

/-- The in-degree array after the run. -/
theorem final_deg (c : Dev nD) : (dat1 V c).arrAt 3 cfg1.N = degArr V c :=
  (dat1 V c).arrAt_eq_of_cover 3 (degArr V c) (flushed_deg V c) cover_deg

end Scatter

/-- Row `n`, column `d` of the feature sums after call 1: the sum over all edges with destination `n` of the
    message's column `d`. -/
theorem sum_arr (c : Dev nD) (n : Fin 100352) (d : Fin 64) :
    (dat1 (F := Ideal) V c).arrAt 2 cfg1.N (ix2 n d)
      = ∑ r : Fin 1253376, (if (V c main_v4 : S1253376.Idx → BitVec 32) (ix1 r) = BitVec.ofNat 32 n.val
          then (V c main_v5 : S1253376x64.Idx → EReal) (ix2 r d) else 0 : EReal) :=
  (congrFun (Scatter.final_sum V c) (ix2 n d)).trans rfl

/-- Entry `n` of the in-degrees after call 1: the number of edges with destination `n`. -/
theorem deg_arr (c : Dev nD) (n : Fin 100352) :
    (dat1 (F := Ideal) V c).arrAt 3 cfg1.N (ix2 n (0 : Fin 1))
      = ∑ r : Fin 1253376, (if (V c main_v4 : S1253376.Idx → BitVec 32) (ix1 r) = BitVec.ofNat 32 n.val
          then (1 : EReal) else 0 : EReal) :=
  (congrFun (Scatter.final_deg V c) (ix2 n (0 : Fin 1))).trans rfl

end Cert.KernelIdeal.Hand

end
-- ==== Proof.KI.Val2.lean ====
import proofs.«415711_j52312701665803_3_alg».proof.Proof.KI.Dats
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the contents of the TensorCore's buffers when call 2 is entered, at the ideal values
variable (V : (c : Dev nD) → (b : Ref sig .tc) → Buf (Elt Ideal) ((c : Thread nD τ).loc b))

/-! # The score array after call 2, row by row

Call 2 is pointwise per node tile: point t reads rows 512·t … 512·t + 511 of the features, the feature sums and the
in-degrees, and writes back the same rows of the score array, each at |Σ_d (h − sum / max(deg, 1))|. The 196 tiles
cover the array's 100352 rows, so after the run every row holds its score. -/

/-- The three arrays call 2 reads, as it is entered with them, at their literal types: the node features, the
    per-node feature sums and the per-node in-degrees. -/
abbrev feat2 (c : Dev nD) : S100352x64.Idx → EReal := V c main_v1
abbrev sums2 (c : Dev nD) : S100352x64.Idx → EReal := V c main_v6_0
abbrev degs2 (c : Dev nD) : S100352x1.Idx → EReal := V c main_v6_1

namespace Val2

/-! ## The score tile at a row -/

/-- The word of 1.0 denotes 1. -/
theorem ofBits_one_f32 : Ideal.ofBits .f32 0x3F800000#32 = 1 := by
  simp [Ideal.ofBits, Ideal.ieee, -EReal.coe_mul]; norm_num

/-- A column broadcast along its rows: at (p, q) it reads the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Summing a 512 by 64 tile along its lanes: the index over row r with lane d put back is (r, d). -/
theorem lift_row (h : S512x64.Reduces [1] S512) (r : Fin 512) (d : Fin 64) : h.lift (ix1 r) d = ix2 r d := by
  funext a; apply Fin.ext
  match a with
  | ⟨0, _⟩ => rfl
  | ⟨1, _⟩ => rfl

/-- The sum along the lanes of a 512 by 64 tile, at row r, is the sum over the 64 lanes of the tile at (r, d):
    the accumulator's word is the sum's neutral element, so nothing is added to the sum. -/
theorem lanesum_apply (src : FVec Ideal S512x64 .f32) (h : S512x64.Reduces [1] S512) (hφ : FKind.Formats .f32)
    (hacc : (0x00000000#32 : BitVec 32) = 0x00000000#32) (r : Fin 512) :
    multiReduction .add [1] S512 src 0x00000000#32 h hφ hacc (ix1 r) = ∑ d : Fin 64, src (ix2 r d) := by
  refine (Ideal.multiReduction_add_single src 0x00000000#32 h hφ hacc (ix1 r)).trans ?_
  show ∑ d : Fin 64, src (h.lift (ix1 r) d) = _
  exact Finset.sum_congr rfl fun d _ => congrArg src (lift_row h r d)

/-- The absolute value of a tile at an index. -/
theorem absf_apply {s : Shape} {φ : FTy} (a : FVec Ideal s φ) (i : s.Idx) : absf a i = max (a i) (-(a i)) := rfl

/-- The score tile at row r, from the tile of sums `v0`, of in-degrees `v2` and of features `v8`:
    |Σ_d (v8[r,d] − v0[r,d] / max(v2[r,0], 1))|. -/
theorem pay_apply (v0 : Vec Ideal S512x64 .f32) (v2 : Vec Ideal S512x1 .f32) (v8 : Vec Ideal S512x64 .f32) (r : Fin 512) :
    k2_pay1 (F := Ideal) v0 v2 v8 (ix1 r)
      = max (∑ d : Fin 64, ((v8 (ix2 r d) : EReal) - Ideal.div (v0 (ix2 r d)) (max (v2 (ix2 r (0 : Fin 1))) 1)))
          (-(∑ d : Fin 64, ((v8 (ix2 r d) : EReal) - Ideal.div (v0 (ix2 r d)) (max (v2 (ix2 r (0 : Fin 1))) 1)))) := by
  unfold k2_pay1
  simp only [shapeCast_self]
  rw [absf_apply, lanesum_apply]
  have h1 : (FloatOps.ofBits FTy.f32 0x3F800000#32 : Ideal .f32) = (1 : EReal) := ofBits_one_f32
  simp only [subf_apply, divf_apply, broadcastTo_a1_ab_apply, maximumf_apply, broadcast_apply, h1]

/-! ## The tiles are rows of the arrays -/

/-- At point t every window of call 2 is on tile t of its array's rows (and on the one tile of its columns). -/
theorem tile_at : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = t.val :=
  (by decide +kernel : ∀ t : Fin grid2.N, _)

/-- The feature tile at point t, at (r, d), is the feature array at row 512·t + r. -/
theorem iblk2_0_apply (c : Dev nD) (t : Fin cfg2.N) (r : Fin 512) (d : Fin 64) (n : Fin 100352) (hn : n.val = 512 * t.val + r.val) :
    (iblk2 V c 0 t : Vec Ideal S512x64 .f32) (ix2 r d) = feat2 V c (ix2 n d) := by
  obtain ⟨e0, e1, -⟩ := tile_at t
  unfold iblk2
  rw [View.read_apply]
  show V c main_v1 _ = V c main_v1 _
  congr 1
  funext a; apply Fin.ext
  match a with
  | ⟨0, _⟩ => show win2_0.index t 0 * 512 + 1 * r.val = n.val; rw [e0, hn]; omega
  | ⟨1, _⟩ => show win2_0.index t 1 * 64 + 1 * d.val = d.val; rw [e1]; omega

/-- The tile of sums likewise. -/
theorem iblk2_1_apply (c : Dev nD) (t : Fin cfg2.N) (r : Fin 512) (d : Fin 64) (n : Fin 100352) (hn : n.val = 512 * t.val + r.val) :
    (iblk2 V c 1 t : Vec Ideal S512x64 .f32) (ix2 r d) = sums2 V c (ix2 n d) := by
  obtain ⟨-, -, e0, e1, -⟩ := tile_at t
  unfold iblk2
  rw [View.read_apply]
  show V c main_v6_0 _ = V c main_v6_0 _
  congr 1
  funext a; apply Fin.ext
  match a with
  | ⟨0, _⟩ => show win2_1.index t 0 * 512 + 1 * r.val = n.val; rw [e0, hn]; omega
  | ⟨1, _⟩ => show win2_1.index t 1 * 64 + 1 * d.val = d.val; rw [e1]; omega

/-- The tile of in-degrees likewise, at its one column. -/
theorem iblk2_2_apply (c : Dev nD) (t : Fin cfg2.N) (r : Fin 512) (n : Fin 100352) (hn : n.val = 512 * t.val + r.val) :
    (iblk2 V c 2 t : Vec Ideal S512x1 .f32) (ix2 r (0 : Fin 1)) = degs2 V c (ix2 n (0 : Fin 1)) := by
  obtain ⟨-, -, -, -, e0, e1, -⟩ := tile_at t
  unfold iblk2
  rw [View.read_apply]
  show V c main_v6_1 _ = V c main_v6_1 _
  congr 1
  funext a; apply Fin.ext
  match a with
  | ⟨0, _⟩ => show win2_2.index t 0 * 512 + 1 * r.val = n.val; rw [e0, hn]; omega
  | ⟨1, _⟩ => show win2_2.index t 1 * 1 + 1 * (0 : Fin 1).val = (0 : Fin 1).val; rw [e1]; rfl

end Val2

open Val2

/-! ## The score array -/

/-- The score of node row n, from the arrays call 2 is entered with. -/
def scoreAt (c : Dev nD) (n : Fin 100352) : EReal :=
  max (∑ d : Fin 64, (feat2 V c (ix2 n d) - Ideal.div (sums2 V c (ix2 n d)) (max (degs2 V c (ix2 n (0 : Fin 1))) 1)))
    (-(∑ d : Fin 64, (feat2 V c (ix2 n d) - Ideal.div (sums2 V c (ix2 n d)) (max (degs2 V c (ix2 n (0 : Fin 1))) 1))))

/-- The whole score array. -/
def scoreArr (c : Dev nD) : S100352.Idx → EReal := fun i => scoreAt V c (i 0)

namespace Val2

/-- An index of the score array is in point t's tile iff its row is among the tile's 512. -/
theorem mem_blk3 (t : Fin cfg2.N) (i : S100352.Idx) :
    i ∈ ((cfg2.win 3).blk t).view.set ↔ ∀ a : Fin 1, win2_3.index t a * S512.size a ≤ (i a).val ∧ (i a).val < win2_3.index t a * S512.size a + S512.size a := by
  show i ∈ ((View.whole main_v7).slice (win2_3.rect t)).set ↔ _
  rw [View.set_slice_whole, Rect.mem_set_unit]
  exact Iff.rfl

/-- Every row is in the tile of the point row / 512, and every point writes its tile back. -/
theorem cover3 (i : S100352.Idx) : ∃ t : Fin cfg2.N, (cfg2.win 3).flush t = true ∧ i ∈ ((cfg2.win 3).blk t).view.set := by
  have hi : (i 0).val < 100352 := (i 0).isLt
  have hN : grid2.N = 196 := N_2
  have ht : (i 0).val / 512 < cfg2.N := by show _ < grid2.N; rw [hN]; omega
  obtain ⟨-, -, -, -, -, -, e⟩ := tile_at ⟨(i 0).val / 512, ht⟩
  refine ⟨⟨(i 0).val / 512, ht⟩, flush2_3 _, ?_⟩
  rw [mem_blk3]
  intro a
  match a with
  | ⟨0, _⟩ =>
    show win2_3.index ⟨(i 0).val / 512, ht⟩ 0 * 512 ≤ (i 0).val ∧ (i 0).val < win2_3.index ⟨(i 0).val / 512, ht⟩ 0 * 512 + 512
    rw [e]
    show (i 0).val / 512 * 512 ≤ (i 0).val ∧ (i 0).val < (i 0).val / 512 * 512 + 512
    omega

/-! ## What the points write back, and the array after the run -/

/-- What point t writes back is tile t of the score array. -/
theorem flushed3_eq (c : Dev nD) (t : Fin cfg2.N) :
    (dat2 V c).flushed 3 t = ((cfg2.win 3).blk t).view.read (Elt Ideal) (scoreArr V c) := by
  show (cfg2.win 3).cut (grid2.coords t) ((dat2 V c).after 3 t) = _
  rw [after2_3]
  unfold score2
  obtain ⟨-, -, -, -, -, -, e3⟩ := tile_at t
  have hN : grid2.N = 196 := N_2
  have ht : t.val < 196 := hN ▸ (show t.val < grid2.N from t.isLt)
  funext j
  obtain ⟨r, rfl⟩ : ∃ r : Fin 512, j = ix1 r := ⟨j 0, eq_ix1 j⟩
  have hn : 512 * t.val + r.val < 100352 := by have := r.isLt; omega
  have hemb : (((cfg2.win 3).blk t).view.emb (ix1 r)) 0 = (⟨512 * t.val + r.val, hn⟩ : Fin 100352) :=
    Fin.ext (by show win2_3.index t 0 * 512 + 1 * r.val = 512 * t.val + r.val; rw [e3]; omega)
  show k2_pay1 (F := Ideal) (iblk2 V c 1 t) (iblk2 V c 2 t) (iblk2 V c 0 t) (ix1 r)
    = scoreAt V c ((((cfg2.win 3).blk t).view.emb (ix1 r)) 0)
  rw [hemb]
  refine (pay_apply _ _ _ r).trans ?_
  unfold scoreAt
  simp only [fun d => iblk2_0_apply V c t r d ⟨512 * t.val + r.val, hn⟩ rfl,
    fun d => iblk2_1_apply V c t r d ⟨512 * t.val + r.val, hn⟩ rfl,
    iblk2_2_apply V c t r ⟨512 * t.val + r.val, hn⟩ rfl]

end Val2

open Val2

/-- The score array after the run of call 2, at node row n: |Σ_d (h[n,d] − sum[n,d] / max(deg[n,0], 1))| of the
    arrays the call is entered with. -/
theorem score_arr (c : Dev nD) (n : Fin 100352) :
    (dat2 V c).arrAt 3 cfg2.N (ix1 n)
      = max (∑ d : Fin 64, (feat2 V c (ix2 n d) - Ideal.div (sums2 V c (ix2 n d)) (max (degs2 V c (ix2 n (0 : Fin 1))) 1)))
          (-(∑ d : Fin 64, (feat2 V c (ix2 n d) - Ideal.div (sums2 V c (ix2 n d)) (max (degs2 V c (ix2 n (0 : Fin 1))) 1)))) := by
  rw [(dat2 V c).arrAt_eq_of_cover 3 (scoreArr V c) (fun t _ => flushed3_eq V c t) cover3]
  rfl

end Cert.KernelIdeal.Hand

end
-- ==== Proof.KI.ValHost.lean ====
/-
  What call 0 is entered with, read at an index: the host lines before it clamp the source ids to [0, 99999] and pad
  the four arrays to whole tiles — the features with 352 zero rows, the weights with 3376 zeros, the clamped source ids
  with 3376 zeros, the destination ids with 3376 words −1.
-/
import proofs.«415711_j52312701665803_3_alg».proof.Proof.Gen.KernelIdeal.Regions
import Idealize.ShloMosaic.Lib.StableHlo.Run
import Idealize.ShloMosaic.Lib.KernelVsHost
import Idealize.ShloMosaic.Lib.ValueIdx
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The padded destination ids are the destination ids followed by the fill word. -/
theorem entry_v4 (c : Dev nD) :
    (V10 m c main_v4 : S1253376.Idx → BitVec 32)
      = pad S1253376 ![0] ![3376] ![0] (m ((c : Thread nD τ).loc main_arg3) : S1250000.Idx → BitVec 32)
          (constantI S_ 32 4294967295#32) pads_S1250000_S1253376_033760 h_S_ := by
  show StableHlo.after hostOps0_9 (V9 m c) (Proc.devRef .tc main_v4) = _
  after_results
  rfl

/-- The padded, clamped source ids. -/
theorem entry_v3 (c : Dev nD) :
    (V10 m c main_v3 : S1253376.Idx → BitVec 32)
      = pad S1253376 ![0] ![3376] ![0]
          (minsi (broadcastInDim S1250000 ![] bcast_S_S1250000 (constantI S_ 32 99999#32))
            (maxsi (broadcastInDim S1250000 ![] bcast_S_S1250000 (constantI S_ 32 0#32)) (m ((c : Thread nD τ).loc main_arg2) : S1250000.Idx → BitVec 32)))
          (constantI S_ 32 0#32) pads_S1250000_S1253376_033760 h_S_ := by
  show StableHlo.after hostOps0_9 (V9 m c) (Proc.devRef .tc main_v3) = _
  after_results
  rfl

/-- The padded weights. -/
theorem entry_v2 (c : Dev nD) :
    (V10 m c main_v2 : S1253376.Idx → EReal)
      = pad S1253376 ![0] ![3376] ![0] (m ((c : Thread nD τ).loc main_arg1) : S1250000.Idx → EReal)
          (sitofp (F := Ideal) .f32 (constantI S_ 32 0#32)) pads_S1250000_S1253376_033760 h_S_ := by
  show StableHlo.after hostOps0_9 (V9 m c) (Proc.devRef .tc main_v2) = _
  after_results
  rfl

/-- The padded features. -/
theorem entry_v1 (c : Dev nD) :
    (V10 m c main_v1 : S100352x64.Idx → EReal)
      = pad S100352x64 ![0, 0] ![352, 0] ![0, 0] (m ((c : Thread nD τ).loc main_arg0) : S100000x64.Idx → EReal)
          (sitofp (F := Ideal) .f32 (constantI S_ 32 0#32)) pads_S100000x64_S100352x64_03520_000 h_S_ := by
  show StableHlo.after hostOps0_9 (V9 m c) (Proc.devRef .tc main_v1) = _
  after_results
  rfl

end Cert.KernelIdeal.Hand

end
-- ==== Proof.Spec.lean ====
/-
  The node score as one function of the four argument arrays, on the extended reals.

  For node n:  deg n  = the number of edges e whose destination id is n;
               msum n d = Σ over those edges of  h[src e, d] · w e;
               score n  = | Σ_d ( h[n, d] − msum n d / max (deg n) 1 ) |,   with |x| = max x (−x).
  An id is a 32-bit word; "the destination id is n" compares it with the word of n, and a source id is read as
  the row number it denotes (rows beyond the table contribute nothing).
-/
import Idealize.ShloMosaic.PureOps.Ideal
import Idealize.ShloMosaic.Lib.ValueIdx

noncomputable section

namespace Cert.Spec

open Idealize.ShloMosaic Idealize.ShloMosaic.ValueIdx

/-- The number of edges arriving at node `n`. -/
def deg (dst : (⟨1, ![1250000]⟩ : Shape).Idx → BitVec 32) (n : Fin 100000) : EReal :=
  ∑ e : Fin 1250000, if dst (ix1 e) = BitVec.ofNat 32 n.val then (1 : EReal) else 0

/-- The feature row an edge carries: its source node's row, scaled by the edge's weight. -/
def edgeMsg (h : (⟨2, ![100000, 64]⟩ : Shape).Idx → EReal) (w : (⟨1, ![1250000]⟩ : Shape).Idx → EReal)
    (src : (⟨1, ![1250000]⟩ : Shape).Idx → BitVec 32) (e : Fin 1250000) (d : Fin 64) : EReal :=
  (if hs : (src (ix1 e)).toNat < 100000 then h (ix2 ⟨(src (ix1 e)).toNat, hs⟩ d) else 0) * w (ix1 e)

/-- The sum of the rows arriving at node `n`, feature `d`. -/
def msum (h : (⟨2, ![100000, 64]⟩ : Shape).Idx → EReal) (w : (⟨1, ![1250000]⟩ : Shape).Idx → EReal)
    (src dst : (⟨1, ![1250000]⟩ : Shape).Idx → BitVec 32) (n : Fin 100000) (d : Fin 64) : EReal :=
  ∑ e : Fin 1250000, if dst (ix1 e) = BitVec.ofNat 32 n.val then edgeMsg h w src e d else 0

/-- The score of node `n`. -/
def score (h : (⟨2, ![100000, 64]⟩ : Shape).Idx → EReal) (w : (⟨1, ![1250000]⟩ : Shape).Idx → EReal)
    (src dst : (⟨1, ![1250000]⟩ : Shape).Idx → BitVec 32) (n : Fin 100000) : EReal :=
  max (∑ d : Fin 64, (h (ix2 n d) - Ideal.div (msum h w src dst n d) (max (deg dst n) 1)))
    (-(∑ d : Fin 64, (h (ix2 n d) - Ideal.div (msum h w src dst n d) (max (deg dst n) 1))))

/-- The whole result array. -/
def G (h : (⟨2, ![100000, 64]⟩ : Shape).Idx → EReal) (w : (⟨1, ![1250000]⟩ : Shape).Idx → EReal)
    (src dst : (⟨1, ![1250000]⟩ : Shape).Idx → BitVec 32) : (⟨1, ![100000]⟩ : Shape).Idx → EReal :=
  fun i => score h w src dst (i 0)

end Cert.Spec

end
-- ==== Proof.Algebra.lean ====
/-
  Small facts joining the kernel's padded arrays to the arguments.
  * A sum over Fin N whose terms vanish from position a on is the sum over Fin a.
  * Clamping a source id that is already a row number (below 100000) to [0, 99999] changes nothing, and such an id
    is the word of its row number.
  * The word −1 (the padding of the destination ids) is no node's word.
-/
import Mathlib.Algebra.BigOperators.Fin
import Idealize.ShloMosaic.PureOps
import Idealize.ShloMosaic.Lib.Affine

namespace Cert.Alg

open Idealize.ShloMosaic

/-- A sum over `Fin N` whose terms vanish from position `a` on is the sum over `Fin a`. -/
theorem sum_fin_tail_zero {M : Type*} [AddCommMonoid M] {a N : ℕ} (haN : a ≤ N) (f : Fin N → M)
    (hz : ∀ i : Fin N, a ≤ i.val → f i = 0) :
    ∑ i : Fin N, f i = ∑ e : Fin a, f ⟨e.val, lt_of_lt_of_le e.isLt haN⟩ := by
  obtain ⟨b, rfl⟩ := Nat.exists_eq_add_of_le haN
  rw [Fin.sum_univ_add]
  have h2 : ∑ i : Fin b, f (Fin.natAdd a i) = 0 :=
    Finset.sum_eq_zero fun i _ => hz _ (by simp [Fin.natAdd])
  rw [h2, add_zero]
  rfl

/-- A word below 100000 is unchanged by the clamp to [0, 99999]. -/
theorem clip_of_lt (x : BitVec 32) (hx : x.toNat < 100000) :
    IntOp.minsi (99999#32 : BitVec 32) (IntOp.maxsi (0#32 : BitVec 32) x) = x := by
  have h1 : IntOp.maxsi (0#32 : BitVec 32) x = x := by
    unfold IntOp.maxsi
    split
    · rename_i h
      rw [BitVec.slt_iff_toInt_lt, BitVec.toInt_eq_toNat_cond, BitVec.toInt_eq_toNat_cond] at h
      have : (0#32 : BitVec 32).toNat = 0 := rfl
      rw [this] at h
      split at h <;> omega
    · rfl
  rw [h1]
  unfold IntOp.minsi
  split
  · rename_i h
    rw [BitVec.slt_iff_toInt_lt, BitVec.toInt_eq_toNat_cond, BitVec.toInt_eq_toNat_cond] at h
    have : (99999#32 : BitVec 32).toNat = 99999 := rfl
    rw [this] at h
    split at h <;> split at h <;> omega
  · rfl

/-- The padding word of the destination ids is no node's word. -/
theorem neg_one_ne_ofNat (n : ℕ) (hn : n < 100352) : (4294967295#32 : BitVec 32) ≠ BitVec.ofNat 32 n := by
  intro h
  have := congrArg BitVec.toNat h
  simp only [BitVec.toNat_ofNat] at this
  omega

end Cert.Alg
-- ==== Proof.KI.Compose.lean ====
/-
  The four padded arrays the calls run on, and what the three calls compute from them, give — read back on the
  first 100000 node rows — the node score of the four argument arrays.

  An edge row below 1250000 of a padded array is the argument's row; the clamp to [0, 99999] leaves a source id
  that is a row number as it is, and the padded feature row of such an id is the feature row: so the message of
  such an edge is the argument edge's message. From row 1250000 on, the padded destination id is the word −1, no
  node's word, so those rows drop out of every node's two sums. A node row below 100000 of the padded features is
  the argument's row, and the slice from offset 0 reads the score at the same row.
-/
import proofs.«415711_j52312701665803_3_alg».proof.Proof.Gen.KernelIdeal.Regions
import proofs.«415711_j52312701665803_3_alg».proof.Proof.Spec
import proofs.«415711_j52312701665803_3_alg».proof.Proof.Algebra
import Idealize.ShloMosaic.Lib.StableHlo.Run
import Idealize.ShloMosaic.Lib.KernelVsHost
import Idealize.ShloMosaic.Lib.ValueIdx
import Idealize.ShloMosaic.Lib.StableHlo.Predicate
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

namespace Compose

/-! ## A padded array read at a row -/

/-- An edge array padded at its end, read at a row of the operand, is the operand there. -/
theorem pad1_real {α : Type} (x : S1250000.Idx → α) {u : Shape} (v : u.Idx → α) (hu : 0 < u.numel)
    (r : Fin 1253376) (hr : r.val < 1250000) :
    pad S1253376 ![0] ![3376] ![0] x v pads_S1250000_S1253376_033760 hu (ix1 r) = x (ix1 (⟨r.val, hr⟩ : Fin 1250000)) := by
  refine pad_apply_of_inside _ _ _ x v pads_S1250000_S1253376_033760 hu (ix1 r) (ix1 (⟨r.val, hr⟩ : Fin 1250000)) fun a => ?_
  match a with
  | ⟨0, _⟩ => show r.val = 0 + r.val * (0 + 1); omega

/-- Read past the operand's rows, it is the fill value. -/
theorem pad1_pad {α : Type} (x : S1250000.Idx → α) {u : Shape} (v : u.Idx → α) (hu : 0 < u.numel)
    (r : Fin 1253376) (hr : 1250000 ≤ r.val) :
    pad S1253376 ![0] ![3376] ![0] x v pads_S1250000_S1253376_033760 hu (ix1 r) = v (Shape.Idx.first hu) := by
  refine pad_apply_of_not_inside _ _ _ x v pads_S1250000_S1253376_033760 hu (ix1 r) (0 : Fin 1) fun h => ?_
  have h3 : (r.val - 0) / (0 + 1) < 1250000 := h.2.2
  rw [Nat.sub_zero, Nat.div_one] at h3
  omega

/-- The feature array padded with rows at its end, read at a row of the operand, is the operand there. -/
theorem pad2_real {α : Type} (x : S100000x64.Idx → α) {u : Shape} (v : u.Idx → α) (hu : 0 < u.numel)
    (n : Fin 100352) (hn : n.val < 100000) (d : Fin 64) :
    pad S100352x64 ![0, 0] ![352, 0] ![0, 0] x v pads_S100000x64_S100352x64_03520_000 hu (ix2 n d)
      = x (ix2 (⟨n.val, hn⟩ : Fin 100000) d) := by
  refine pad_apply_of_inside _ _ _ x v pads_S100000x64_S100352x64_03520_000 hu (ix2 n d) (ix2 (⟨n.val, hn⟩ : Fin 100000) d) fun a => ?_
  match a with
  | ⟨0, _⟩ => show n.val = 0 + n.val * (0 + 1); omega
  | ⟨1, _⟩ => show d.val = 0 + d.val * (0 + 1); omega

/-- The float fill value, the zero word read as an integer, is 0. -/
theorem fill_zero : sitofp (F := Ideal) .f32 (constantI S_ 32 0#32) (Shape.Idx.first h_S_) = (0 : EReal) := by
  show (((0#32 : BitVec 32).toInt : ℝ) : EReal) = 0
  rw [show (0#32 : BitVec 32).toInt = 0 from rfl, Int.cast_zero, EReal.coe_zero]

/-- The clamped source ids at an edge whose id is a row number: the id. -/
theorem clamp_apply (src : S1250000.Idx → BitVec 32) (e : Fin 1250000) (he : (src (ix1 e)).toNat < 100000) :
    (minsi (broadcastInDim S1250000 ![] bcast_S_S1250000 (constantI S_ 32 99999#32))
      (maxsi (broadcastInDim S1250000 ![] bcast_S_S1250000 (constantI S_ 32 0#32)) src)) (ix1 e) = src (ix1 e) := by
  show IntOp.minsi (99999#32 : BitVec 32) (IntOp.maxsi (0#32 : BitVec 32) (src (ix1 e))) = src (ix1 e)
  exact Cert.Alg.clip_of_lt _ he

/-! ## The edges' messages, and the rows past the edges -/

section
variable (h : S100000x64.Idx → EReal) (w : S1250000.Idx → EReal) (src dst : S1250000.Idx → BitVec 32)
  (hsrc : ∀ e : Fin 1250000, (src (ix1 e)).toNat < 100000)
  (hp : S100352x64.Idx → EReal) (wp : S1253376.Idx → EReal) (sp dp : S1253376.Idx → BitVec 32)
  (hhp : hp = pad S100352x64 ![0, 0] ![352, 0] ![0, 0] h (sitofp (F := Ideal) .f32 (constantI S_ 32 0#32)) pads_S100000x64_S100352x64_03520_000 h_S_)
  (hwp : wp = pad S1253376 ![0] ![3376] ![0] w (sitofp (F := Ideal) .f32 (constantI S_ 32 0#32)) pads_S1250000_S1253376_033760 h_S_)
  (hsp : sp = pad S1253376 ![0] ![3376] ![0] (minsi (broadcastInDim S1250000 ![] bcast_S_S1250000 (constantI S_ 32 99999#32)) (maxsi (broadcastInDim S1250000 ![] bcast_S_S1250000 (constantI S_ 32 0#32)) src)) (constantI S_ 32 0#32) pads_S1250000_S1253376_033760 h_S_)
  (hdp : dp = pad S1253376 ![0] ![3376] ![0] dst (constantI S_ 32 4294967295#32) pads_S1250000_S1253376_033760 h_S_)

include hhp in
/-- A node row below 100000 of the padded features is the features' row. -/
theorem hp_real (n : Fin 100352) (hn : n.val < 100000) (d : Fin 64) : hp (ix2 n d) = h (ix2 (⟨n.val, hn⟩ : Fin 100000) d) := by
  rw [hhp]; exact pad2_real h _ h_S_ n hn d

include hwp in
/-- An edge row of the padded weights is the weight. -/
theorem wp_real (r : Fin 1253376) (hr : r.val < 1250000) : wp (ix1 r) = w (ix1 (⟨r.val, hr⟩ : Fin 1250000)) := by
  rw [hwp]; exact pad1_real w _ h_S_ r hr

include hsrc hsp in
/-- An edge row of the padded, clamped source ids is the source id. -/
theorem sp_real (r : Fin 1253376) (hr : r.val < 1250000) : sp (ix1 r) = src (ix1 (⟨r.val, hr⟩ : Fin 1250000)) := by
  rw [hsp, pad1_real _ _ h_S_ r hr]; exact clamp_apply src _ (hsrc _)

include hdp in
/-- An edge row of the padded destination ids is the destination id. -/
theorem dp_real (r : Fin 1253376) (hr : r.val < 1250000) : dp (ix1 r) = dst (ix1 (⟨r.val, hr⟩ : Fin 1250000)) := by
  rw [hdp]; exact pad1_real dst _ h_S_ r hr

include hdp in
/-- Past the edges the padded destination id is no node's word. -/
theorem dp_pad (r : Fin 1253376) (hr : 1250000 ≤ r.val) (n : ℕ) (hn : n < 100352) : dp (ix1 r) ≠ BitVec.ofNat 32 n := by
  rw [hdp, pad1_pad dst _ h_S_ r hr]
  exact Cert.Alg.neg_one_ne_ofNat n hn

variable (msg : S1253376x64.Idx → EReal)
  (hmsg : ∀ (r : Fin 1253376) (d : Fin 64), msg (ix2 r d) = (if hs : (sp (ix1 r)).toNat < 100352 then hp (ix2 ⟨(sp (ix1 r)).toNat, hs⟩ d) else 0) * wp (ix1 r))

include hsrc hhp hwp hsp hmsg in
/-- The message of an edge row is the argument edge's message. -/
theorem msg_real (r : Fin 1253376) (hr : r.val < 1250000) (d : Fin 64) :
    msg (ix2 r d) = Cert.Spec.edgeMsg h w src (⟨r.val, hr⟩ : Fin 1250000) d := by
  have hs : (src (ix1 (⟨r.val, hr⟩ : Fin 1250000))).toNat < 100000 := hsrc _
  rw [hmsg, sp_real src hsrc sp hsp r hr, wp_real w wp hwp r hr]
  unfold Cert.Spec.edgeMsg
  rw [dif_pos (show (src (ix1 (⟨r.val, hr⟩ : Fin 1250000))).toNat < 100352 by omega), dif_pos hs,
    hp_real h hp hhp ⟨(src (ix1 (⟨r.val, hr⟩ : Fin 1250000))).toNat, by omega⟩ hs d]

/-! ## The two sums of a node -/

variable (sums : S100352x64.Idx → EReal)
  (hsum : ∀ (n : Fin 100352) (d : Fin 64), sums (ix2 n d) = ∑ r : Fin 1253376, if dp (ix1 r) = BitVec.ofNat 32 n.val then msg (ix2 r d) else 0)
  (degs : S100352x1.Idx → EReal)
  (hdeg : ∀ n : Fin 100352, degs (ix2 n (0 : Fin 1)) = ∑ r : Fin 1253376, if dp (ix1 r) = BitVec.ofNat 32 n.val then (1 : EReal) else 0)

include hsrc hhp hwp hsp hdp hmsg hsum in
/-- The feature sum of a node row below 100000 is the sum of the messages arriving at the node. -/
theorem sums_eq_msum (n : Fin 100352) (hn : n.val < 100000) (d : Fin 64) :
    sums (ix2 n d) = Cert.Spec.msum h w src dst (⟨n.val, hn⟩ : Fin 100000) d := by
  rw [hsum, Cert.Alg.sum_fin_tail_zero (a := 1250000) (by omega) _ fun r hr => if_neg (dp_pad dst dp hdp r hr n.val n.isLt)]
  unfold Cert.Spec.msum
  refine Finset.sum_congr rfl fun e _ => ?_
  rw [dp_real dst dp hdp ⟨e.val, _⟩ e.isLt, msg_real h w src hsrc hp wp sp hhp hwp hsp msg hmsg ⟨e.val, _⟩ e.isLt d]

include hdp hdeg in
/-- The in-degree of a node row below 100000 is the number of edges arriving at the node. -/
theorem degs_eq_deg (n : Fin 100352) (hn : n.val < 100000) :
    degs (ix2 n (0 : Fin 1)) = Cert.Spec.deg dst (⟨n.val, hn⟩ : Fin 100000) := by
  rw [hdeg, Cert.Alg.sum_fin_tail_zero (a := 1250000) (by omega) _ fun r hr => if_neg (dp_pad dst dp hdp r hr n.val n.isLt)]
  unfold Cert.Spec.deg
  refine Finset.sum_congr rfl fun e _ => ?_
  rw [dp_real dst dp hdp ⟨e.val, _⟩ e.isLt]

end

end Compose

open Compose

/-! ## The sliced score is the node score -/

theorem compose_eq_G
    (h : S100000x64.Idx → EReal) (w : S1250000.Idx → EReal) (src dst : S1250000.Idx → BitVec 32)
    (hsrc : ∀ e : Fin 1250000, (src (ix1 e)).toNat < 100000)
    (hp : S100352x64.Idx → EReal) (wp : S1253376.Idx → EReal) (sp dp : S1253376.Idx → BitVec 32)
    (hhp : hp = pad S100352x64 ![0, 0] ![352, 0] ![0, 0] h (sitofp (F := Ideal) .f32 (constantI S_ 32 0#32)) pads_S100000x64_S100352x64_03520_000 h_S_)
    (hwp : wp = pad S1253376 ![0] ![3376] ![0] w (sitofp (F := Ideal) .f32 (constantI S_ 32 0#32)) pads_S1250000_S1253376_033760 h_S_)
    (hsp : sp = pad S1253376 ![0] ![3376] ![0] (minsi (broadcastInDim S1250000 ![] bcast_S_S1250000 (constantI S_ 32 99999#32)) (maxsi (broadcastInDim S1250000 ![] bcast_S_S1250000 (constantI S_ 32 0#32)) src)) (constantI S_ 32 0#32) pads_S1250000_S1253376_033760 h_S_)
    (hdp : dp = pad S1253376 ![0] ![3376] ![0] dst (constantI S_ 32 4294967295#32) pads_S1250000_S1253376_033760 h_S_)
    (msg : S1253376x64.Idx → EReal)
    (hmsg : ∀ (r : Fin 1253376) (d : Fin 64), msg (ix2 r d) = (if hs : (sp (ix1 r)).toNat < 100352 then hp (ix2 ⟨(sp (ix1 r)).toNat, hs⟩ d) else 0) * wp (ix1 r))
    (sums : S100352x64.Idx → EReal)
    (hsum : ∀ (n : Fin 100352) (d : Fin 64), sums (ix2 n d) = ∑ r : Fin 1253376, if dp (ix1 r) = BitVec.ofNat 32 n.val then msg (ix2 r d) else 0)
    (degs : S100352x1.Idx → EReal)
    (hdeg : ∀ n : Fin 100352, degs (ix2 n (0 : Fin 1)) = ∑ r : Fin 1253376, if dp (ix1 r) = BitVec.ofNat 32 n.val then (1 : EReal) else 0)
    (score : S100352.Idx → EReal)
    (hscore : ∀ n : Fin 100352, score (ix1 n) = max (∑ d : Fin 64, (hp (ix2 n d) - Ideal.div (sums (ix2 n d)) (max (degs (ix2 n (0 : Fin 1))) 1))) (-(∑ d : Fin 64, (hp (ix2 n d) - Ideal.div (sums (ix2 n d)) (max (degs (ix2 n (0 : Fin 1))) 1))))) :
    extractStridedSlice S100000 ![0] score slices_S100352_S100000_0 = Cert.Spec.G h w src dst := by
  funext i
  obtain ⟨n, rfl⟩ : ∃ n : Fin 100000, i = ix1 n := ⟨i 0, eq_ix1 i⟩
  have hn : n.val < 100352 := by have := n.isLt; omega
  have hslice : extractStridedSlice S100000 ![0] score slices_S100352_S100000_0 (ix1 n) = score (ix1 (⟨n.val, hn⟩ : Fin 100352)) :=
    extractStridedSlice_apply _ score slices_S100352_S100000_0 (ix1 n) (ix1 (⟨n.val, hn⟩ : Fin 100352)) fun a => by
      match a with
      | ⟨0, _⟩ => show n.val = 0 + n.val; omega
  rw [hslice, hscore]
  show _ = Cert.Spec.score h w src dst n
  unfold Cert.Spec.score
  have hd : degs (ix2 (⟨n.val, hn⟩ : Fin 100352) (0 : Fin 1)) = Cert.Spec.deg dst n :=
    degs_eq_deg dst dp hdp degs hdeg ⟨n.val, hn⟩ n.isLt
  have hrow : ∀ d : Fin 64, hp (ix2 (⟨n.val, hn⟩ : Fin 100352) d) - Ideal.div (sums (ix2 (⟨n.val, hn⟩ : Fin 100352) d)) (max (degs (ix2 (⟨n.val, hn⟩ : Fin 100352) (0 : Fin 1))) 1)
      = h (ix2 n d) - Ideal.div (Cert.Spec.msum h w src dst n d) (max (Cert.Spec.deg dst n) 1) := fun d => by
    rw [hd, hp_real h hp hhp ⟨n.val, hn⟩ n.isLt d, sums_eq_msum h w src dst hsrc hp wp sp dp hhp hwp hsp hdp msg hmsg sums hsum ⟨n.val, hn⟩ n.isLt d]
  simp only [hrow]

end Cert.KernelIdeal.Hand

end
-- ==== Proof.KI.Result.lean ====
/-
  The array @main returns, as a function of the four arguments: the last host line cuts the first 100000 entries out
  of call 2's score array; call 2 read the padded features and what call 1 left (the per-node sums and in-degrees);
  call 1 read the padded destination ids and the messages call 0 left; call 0 read the padded, clamped source ids, the
  padded weights and the padded features.  Each array is named by the call that wrote it, and the composition of the
  three calls' values with the host lines' padding is the node score of the specification.
-/
import proofs.«415711_j52312701665803_3_alg».proof.Proof.KI.Run
import proofs.«415711_j52312701665803_3_alg».proof.Proof.KI.Val0
import proofs.«415711_j52312701665803_3_alg».proof.Proof.KI.Val1
import proofs.«415711_j52312701665803_3_alg».proof.Proof.KI.Val2
import proofs.«415711_j52312701665803_3_alg».proof.Proof.KI.ValHost
import proofs.«415711_j52312701665803_3_alg».proof.Proof.KI.Compose

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The returned array is the first 100000 entries of call 2's score array. -/
theorem result_slice (c : Dev nD) :
    (W14 m c (Proc.devRef .tc main_v8) : S100000.Idx → EReal)
      = extractStridedSlice S100000 ![0] (W13 m c (Proc.devRef .tc main_v7) : S100352.Idx → EReal) slices_S100352_S100000_0 := by
  show StableHlo.after hostOps3 (W13 m c) (Proc.devRef .tc main_v8) = _
  after_results

/-- Call 0 leaves its feature array as it found it: the padded features reach call 2 unchanged. -/
theorem feat_kept (c : Dev nD) : (W12 m c (Proc.devRef .tc main_v1) : S100352x64.Idx → EReal) = V10 m c main_v1 := by
  rw [W12_of_ne m c main_v1 (by decide)]
  exact (W11_arr m c 2).trans (((dat0 (E0 m) c).arrAt_in 2 rfl _).trans (A_eq0 (E0 m) c 2))

/-- The padded destination ids reach call 1 unchanged. -/
theorem dst_kept (c : Dev nD) : (W11 m c (Proc.devRef .tc main_v4) : S1253376.Idx → BitVec 32) = V10 m c main_v4 :=
  W11_of_ne m c main_v4 (by decide)

/-- THE RESULT: under the source ids' range the returned array is the specification's score array of the arguments. -/
theorem result_eq_G (c : Dev nD)
    (hsrc : ∀ e : Fin 1250000, ((m ((c : Thread nD τ).loc main_arg2) : S1250000.Idx → BitVec 32) (ix1 e)).toNat < 100000) :
    (W14 m c (Proc.devRef .tc main_v8) : S100000.Idx → EReal)
      = Cert.Spec.G (m ((c : Thread nD τ).loc main_arg0)) (m ((c : Thread nD τ).loc main_arg1))
          (m ((c : Thread nD τ).loc main_arg2)) (m ((c : Thread nD τ).loc main_arg3)) := by
  rw [result_slice]
  refine compose_eq_G _ _ _ _ hsrc (V10 m c main_v1) (V10 m c main_v2) (V10 m c main_v3) (V10 m c main_v4)
    (entry_v1 m c) (entry_v2 m c) (entry_v3 m c) (entry_v4 m c)
    (W11 m c (Proc.devRef .tc main_v5)) ?_ (W12 m c (Proc.devRef .tc main_v6_0)) ?_ (W12 m c (Proc.devRef .tc main_v6_1)) ?_
    (W13 m c (Proc.devRef .tc main_v7)) ?_
  · intro r d
    rw [show W11 m c (Proc.devRef .tc main_v5) = (dat0 (E0 m) c).arrAt 3 cfg0.N from W11_arr m c 3]
    exact msg_arr (E0 m) c r d
  · intro n d
    rw [show W12 m c (Proc.devRef .tc main_v6_0) = (dat1 (E1 m) c).arrAt 2 cfg1.N from W12_arr m c 2]
    rw [sum_arr (E1 m) c n d, ← dst_kept m c]
  · intro n
    rw [show W12 m c (Proc.devRef .tc main_v6_1) = (dat1 (E1 m) c).arrAt 3 cfg1.N from W12_arr m c 3]
    rw [deg_arr (E1 m) c n, ← dst_kept m c]
  · intro n
    rw [show W13 m c (Proc.devRef .tc main_v7) = (dat2 (E2 m) c).arrAt 3 cfg2.N from W13_arr m c 3]
    rw [score_arr (E2 m) c n, ← feat_kept m c]

end Cert.KernelIdeal.Hand

end
-- ==== Proof.RefIsG.lean ====
/-
  The reference program's result, at the ideal instance, is the specification's function of the four argument arrays.

  Read stage by stage: the source ids are their own normalisation when they are in range; the row gather then reads the
  row the id names; each accumulating scatter is, at an element, the initial value there plus the sum of the updates whose
  destination id, read as a signed word, is that element's number — and a word reads as the number n below 2^31 exactly
  when it is the word of n, so an id outside the table lands nowhere; the initial arrays are zero; the sum over the
  features starts from zero; the absolute value is the larger of the sum and its negation.
-/
import proofs.«415711_j52312701665803_3_alg».proof.Proof.Spec
import proofs.«415711_j52312701665803_3_alg».proof.Proof.Gen.ReferenceIdeal.Run
import proofs.«415711_j52312701665803_3_alg».proof.Proof.Gen.ReferenceIdeal.Read
import Idealize.ShloMosaic.PureOps.Ideal.Laws
import Idealize.ShloMosaic.Lib.ValueIdx
import Idealize.ShloMosaic.Lib.IdealHost

set_option maxRecDepth 16384

noncomputable section

namespace Cert.ReferenceIdeal.RefValue

open Cert.ReferenceIdeal
open Idealize.ShloMosaic Idealize.ShloMosaic.ValueIdx
open scoped BigOperators

/-- The dimension numbers of a gather of whole rows: the operand's row axis collapsed and start-indexed, its column axis
    the result's offset axis, the start indices a column. -/
abbrev rowGather (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, k): column k of the operand's row at the e-th start index, read signed and clamped into the table. -/
theorem rowGather_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N D E wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowGather N D E wf).start (ix2 e k) idx 0 + (rowGather N D E wf).batchCoord (ix2 e k) 0
      + (rowGather N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e k) ⟨List.idxOf (0 : Fin 2) (rowGather N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N D E wf).start (ix2 e k) idx 1 + (rowGather N D E wf).batchCoord (ix2 e k) 1
      + (rowGather N D E wf).offCoord (ix2 e k) 1 = k.val
    rw [GatherDims.batchCoord_eq_zero _ _ _ List.not_mem_nil]
    have hst : (rowGather N D E wf).start (ix2 e k) idx 1 = 0 := by
      unfold GatherDims.start
      rw [dif_neg (show ¬ (1 : Fin 2) ∈ ([0] : List (Fin 2)) by decide)]
    rw [hst]
    simp only [Nat.add_zero, Nat.zero_add]
    unfold GatherDims.offCoord
    rw [dif_pos ((GatherDims.mem_sKept _ _).mpr ⟨(show ¬ (1 : Fin 2) ∈ ([0] : List (Fin 2)) by decide), List.not_mem_nil⟩)]
    rfl

/-! ## The accumulating scatters -/

/-- An update lands on operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    constructor
    · intro he a
      have h1 := congrArg Fin.val (congrFun (Option.some.inj he) a)
      have h2 := h a
      simp only at h1
      omega
    · intro hall
      congr 1
      funext a
      refine Fin.ext ?_
      have h2 := hall a
      simp only
      omega
  · rename_i h
    constructor
    · intro he; cases he
    · intro hall
      exfalso; apply h
      intro a
      have h2 := hall a
      have h3 : (i a).val < s.size a := (i a).isLt
      constructor <;> omega

/-- The dimension numbers of a scatter of whole rows: the operand's row axis inserted and scattered to, its column axis
    the updates' window axis, the scatter indices a column. -/
abbrev rowScatter (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update (e, k) lands on (n, c) exactly when the e-th scatter index, read signed, is n and k is c. -/
theorem rowScatter_resultIdx {N D E w : Nat} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (c : Fin D) :
    (rowScatter N D E wf).resultIdx? (ix2 e k) idx = some (ix2 n c)
      ↔ (idx (ix2 e (0 : Fin 1))).toInt = (n.val : Int) ∧ k = c := by
  have hs0 : (rowScatter N D E wf).start (ix2 e k) idx 0 + ((rowScatter N D E wf).window (ix2 e k) 0 : Nat)
      = (idx (ix2 e (0 : Fin 1))).toInt := by
    have hw : (rowScatter N D E wf).window (ix2 e k) 0 = 0 := by
      unfold ScatterDims.window
      rw [dif_neg (show ¬ (0 : Fin 2) ∈ (rowScatter N D E wf).sKept from fun h => by
        have := (List.mem_filter.1 h).2; simp at this)]
    rw [hw]
    unfold ScatterDims.start
    rw [dif_pos (show (0 : Fin 2) ∈ (rowScatter N D E wf).scatterDimsToOperandDims from List.mem_singleton.mpr rfl)]
    have hsi : (rowScatter N D E wf).siIdx (ix2 e k) ⟨List.idxOf (0 : Fin 2) (rowScatter N D E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]; simp
  have hs1 : (rowScatter N D E wf).start (ix2 e k) idx 1 + ((rowScatter N D E wf).window (ix2 e k) 1 : Nat)
      = (k.val : Int) := by
    have hst : (rowScatter N D E wf).start (ix2 e k) idx 1 = 0 := by
      unfold ScatterDims.start
      rw [dif_neg (show ¬ (1 : Fin 2) ∈ ([0] : List (Fin 2)) by decide)]
    have hw : (rowScatter N D E wf).window (ix2 e k) 1 = k.val := by
      unfold ScatterDims.window
      rw [dif_pos (show (1 : Fin 2) ∈ (rowScatter N D E wf).sKept from
        List.mem_filter.2 ⟨List.mem_finRange _, by simp⟩)]
      rfl
    rw [hst, hw]; simp
  rw [resultIdx?_eq_some_iff, Fin.forall_fin_two, hs0, hs1]
  constructor
  · rintro ⟨h0, h1⟩
    exact ⟨h0, Fin.ext (by exact_mod_cast h1)⟩
  · rintro ⟨h0, rfl⟩
    exact ⟨h0, rfl⟩

/-- The accumulating row scatter at (n, c): the operand there plus the updates' column c over the rows whose scatter
    index, read signed, is n. -/
theorem rowScatterAdd_apply {N D E w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  rw [Finset.sum_eq_single c]
  · by_cases h : (idx (ix2 e (0 : Fin 1))).toInt = (n.val : Int)
    · rw [if_pos ((rowScatter_resultIdx wf idx e c n c).2 ⟨h, rfl⟩), if_pos h]
    · rw [if_neg (fun hh => h ((rowScatter_resultIdx wf idx e c n c).1 hh).1), if_neg h]
  · intro k _ hk
    exact if_neg (fun hh => hk ((rowScatter_resultIdx wf idx e k n c).1 hh).2)
  · intro h; exact absurd (Finset.mem_univ _) h

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- The dimension numbers of a scatter of single elements into a vector: its one axis inserted and scattered to, no
    window axis, the scatter indices a column. -/
abbrev cellScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e lands on n exactly when the e-th scatter index, read signed, is n. -/
theorem cellScatter_resultIdx {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (cellScatter N E wf).resultIdx? (ix1 e) idx = some (ix1 n) ↔ (idx (ix2 e (0 : Fin 1))).toInt = (n.val : Int) := by
  have hs0 : (cellScatter N E wf).start (ix1 e) idx 0 + ((cellScatter N E wf).window (ix1 e) 0 : Nat)
      = (idx (ix2 e (0 : Fin 1))).toInt := by
    have hw : (cellScatter N E wf).window (ix1 e) 0 = 0 := by
      unfold ScatterDims.window
      rw [dif_neg (show ¬ (0 : Fin 1) ∈ (cellScatter N E wf).sKept from fun h => by
        have := (List.mem_filter.1 h).2; simp at this)]
    rw [hw]
    unfold ScatterDims.start
    rw [dif_pos (show (0 : Fin 1) ∈ (cellScatter N E wf).scatterDimsToOperandDims from List.mem_singleton.mpr rfl)]
    have hsi : (cellScatter N E wf).siIdx (ix1 e) ⟨List.idxOf (0 : Fin 1) (cellScatter N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]; simp
  rw [resultIdx?_eq_some_iff]
  constructor
  · intro h; rw [← hs0]; exact h 0
  · intro h a
    obtain rfl : a = 0 := Subsingleton.elim _ _
    rw [hs0]; exact h

/-- The accumulating element scatter at n: the operand there plus the updates over the positions whose scatter index,
    read signed, is n. -/
theorem cellScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (cellScatter N E wf) x idx upd (ix1 n)
      = x (ix1 n) + ∑ e : Fin E, if (idx (ix2 e (0 : Fin 1))).toInt = (n.val : Int) then upd (ix1 e) else 0 := by
  unfold Ideal.hostScatterAdd
  congr 1
  rw [Finset.sum_filter, sum_idx1]
  refine Finset.sum_congr rfl fun e _ => ?_
  by_cases h : (idx (ix2 e (0 : Fin 1))).toInt = (n.val : Int)
  · rw [if_pos ((cellScatter_resultIdx wf idx e n).2 h), if_pos h]
  · rw [if_neg (fun hh => h ((cellScatter_resultIdx wf idx e n).1 hh)), if_neg h]

/-- At the ideal instance the host's accumulating scatter is the exact one. -/
theorem host_scatterAdd_eq {s si su : Shape} {φ : FTy} {w : Nat} (d : ScatterDims s si su) (x : FVec Ideal s φ)
    (idx : IVec si w) (upd : FVec Ideal su φ) :
    Host.scatterAdd d x idx upd = Ideal.hostScatterAdd d x idx upd := rfl

/-! ## Words -/

/-- A 32-bit word reads, signed, as a number below the table's height exactly when it is that number's word. -/
theorem toInt_eq_natCast_iff (b : BitVec 32) (n : Nat) (hn : n < 100000) :
    b.toInt = (n : Int) ↔ b = BitVec.ofNat 32 n := by
  constructor
  · intro h
    apply BitVec.eq_of_toNat_eq
    rw [BitVec.toNat_ofNat]
    have h1 := BitVec.toInt_eq_toNat_cond b
    have h2 := b.isLt
    split at h1 <;> omega
  · rintro rfl
    rw [BitVec.toInt_eq_toNat_cond, BitVec.toNat_ofNat]
    split <;> omega

/-- A source id in range is not negative as a signed word, so its normalisation is itself. -/
theorem norm_src (s : BitVec 32) (hs : s.toNat < 100000) :
    Scalar.select (IntOp.cmpi .slt s 0#32) (IntOp.addi s 100000#32) s = s := by
  have h : IntOp.cmpi .slt s 0#32 = 0#1 := by
    have hlt : s.slt 0#32 = false := by
      rw [BitVec.slt, BitVec.toInt_eq_toNat_cond]
      simp only [BitVec.toInt_zero, decide_eq_false_iff_not, not_lt]
      split <;> omega
    show BitVec.ofBool (s.slt 0#32) = 0#1
    rw [hlt]; rfl
  rw [h]
  exact select_zero _ _

/-- A source id in range, read signed and clamped into the table, is the row it denotes. -/
theorem clamp_src (s : BitVec 32) (hs : s.toNat < 100000) : min s.toInt.toNat (100000 - 1) = s.toNat := by
  have h : s.toInt = (s.toNat : Int) := by
    rw [BitVec.toInt_eq_toNat_cond]; split <;> omega
  rw [h, Int.toNat_natCast]; omega

/-! ## The reference's stages at an index -/

section Stages

variable (x0 : (⟨S100000x64, .f32⟩ : BufTy).Contents (Elt Ideal)) (x1 : (⟨S1250000, .f32⟩ : BufTy).Contents (Elt Ideal))
  (x2 x3 : (⟨S1250000, .i32⟩ : BufTy).Contents (Elt Ideal))

/-- The normalised source ids, as a column, at row e: the id itself when it is in range. -/
theorem v5_at (e : Fin 1250000) (hs : (x2 (ix1 e)).toNat < 100000) :
    Read.val_main_v5 (F := Ideal) x2 (ix2 e (0 : Fin 1)) = x2 (ix1 e) := by
  have hi : Read.idx_main_v5 (ix2 e (0 : Fin 1)) = ix1 e := funext fun a => by match a with | ⟨0, _⟩ => rfl
  rw [Read.val_main_v5_apply, hi, Read.val_main_v4_apply, Read.val_main_v1_apply, Read.val_main_v3_apply,
    Read.val_main_v0_apply, Read.val_main_v2_apply, Read.val_main_c_apply, Read.val_main_c_0_apply]
  exact norm_src _ hs

/-- The gathered rows at (e, d): feature d of the row the e-th source id names. -/
theorem v6_at (e : Fin 1250000) (d : Fin 64) (hs : (x2 (ix1 e)).toNat < 100000) :
    Read.val_main_v6 (F := Ideal) x0 x2 (ix2 e d) = x0 (ix2 ⟨(x2 (ix1 e)).toNat, hs⟩ d) := by
  refine (rowGather_apply (N := 100000) (D := 64) (E := 1250000) (by decide)
    Gen.gather_S100000x64_S1250000x1_S1250000x64_1_0_n_n_0_1_164_wf x0 (Read.val_main_v5 (F := Ideal) x2) e d).trans ?_
  refine congrArg x0 (funext fun a => ?_)
  match a with
  | ⟨0, _⟩ =>
    refine Fin.ext ?_
    show min (Read.val_main_v5 (F := Ideal) x2 (ix2 e (0 : Fin 1))).toInt.toNat (100000 - 1) = (x2 (ix1 e)).toNat
    rw [v5_at x2 e hs]
    exact clamp_src _ hs
  | ⟨1, _⟩ => rfl

/-- The messages at (e, d): the gathered feature times the edge's weight. -/
theorem v9_at (e : Fin 1250000) (d : Fin 64) (hs : (x2 (ix1 e)).toNat < 100000) :
    Read.val_main_v9 (F := Ideal) x0 x1 x2 (ix2 e d) = x0 (ix2 ⟨(x2 (ix1 e)).toNat, hs⟩ d) * x1 (ix1 e) := by
  have h8 : Read.idx_main_v7 (Read.idx_main_v8 (ix2 e d)) = ix1 e := funext fun a => by match a with | ⟨0, _⟩ => rfl
  rw [Read.val_main_v9_apply, v6_at x0 x2 e d hs, Read.val_main_v8_apply, Read.val_main_v7_apply, h8, Ideal.mulf_def]

/-- The row scatter's printed dimension numbers are the row scatter's. -/
theorem rowScatter_eq : (scatter_S100000x64_S1250000x1_S1250000x64_1_0_0_1 : ScatterDims S100000x64 S1250000x1 S1250000x64)
    = rowScatter 100000 64 1250000 Gen.scatter_S100000x64_S1250000x1_S1250000x64_1_0_0_1_wf := rfl

/-- The element scatter's printed dimension numbers are the element scatter's. -/
theorem cellScatter_eq : (scatter_S100000_S1250000x1_S1250000_n_0_0_1 : ScatterDims S100000 S1250000x1 S1250000)
    = cellScatter 100000 1250000 Gen.scatter_S100000_S1250000x1_S1250000_n_0_0_1_wf := rfl

/-- The scattered message sums at (n, d) are the specification's. -/
theorem v12_at (hsrc : ∀ e : Fin 1250000, (x2 (ix1 e)).toNat < 100000) (n : Fin 100000) (d : Fin 64) :
    Read.val_main_v12 (F := Ideal) x0 x1 x2 x3 (ix2 n d) = Cert.Spec.msum x0 x1 x2 x3 n d := by
  unfold Read.val_main_v12
  rw [host_scatterAdd_eq, rowScatter_eq, rowScatterAdd_apply, Read.val_main_v10_apply, Read.val_main_cst_apply,
    Ideal.ofBits_def, Ideal.ofBits_zero_f32, zero_add]
  unfold Cert.Spec.msum
  refine Finset.sum_congr rfl fun e _ => ?_
  have h11 : Read.idx_main_v11 (ix2 e (0 : Fin 1)) = ix1 e := funext fun a => by match a with | ⟨0, _⟩ => rfl
  rw [Read.val_main_v11_apply, h11, v9_at x0 x1 x2 e d (hsrc e)]
  unfold Cert.Spec.edgeMsg
  rw [dif_pos (hsrc e)]
  exact if_congr (toInt_eq_natCast_iff _ _ n.isLt) (by with_reducible rfl) (by with_reducible rfl)

/-- The scattered ones at n are the specification's in-degree. -/
theorem v16_at (n : Fin 100000) : Read.val_main_v16 (F := Ideal) x3 (ix1 n) = Cert.Spec.deg x3 n := by
  unfold Read.val_main_v16
  rw [host_scatterAdd_eq, cellScatter_eq, cellScatterAdd_apply, Read.val_main_v14_apply, Read.val_main_cst_2_apply,
    Ideal.ofBits_def, Ideal.ofBits_zero_f32, zero_add]
  unfold Cert.Spec.deg
  refine Finset.sum_congr rfl fun e _ => ?_
  have h15 : Read.idx_main_v15 (ix2 e (0 : Fin 1)) = ix1 e := funext fun a => by match a with | ⟨0, _⟩ => rfl
  rw [Read.val_main_v15_apply, h15, Read.val_main_v13_apply, Read.val_main_cst_1_apply, Ideal.ofBits_def,
    Ideal.ofBits_one_f32]
  exact if_congr (toInt_eq_natCast_iff _ _ n.isLt) (by with_reducible rfl) (by with_reducible rfl)

/-- The divisor at (n, d): the larger of node n's in-degree and one. -/
theorem v20_at (n : Fin 100000) (d : Fin 64) :
    Read.val_main_v20 (F := Ideal) x3 (ix2 n d) = max (Cert.Spec.deg x3 n) 1 := by
  have h : Read.idx_main_v19 (Read.idx_main_v20 (ix2 n d)) = ix1 n := funext fun a => by match a with | ⟨0, _⟩ => rfl
  rw [Read.val_main_v20_apply, Read.val_main_v19_apply, h, Read.val_main_v18_apply, v16_at, Read.val_main_v17_apply,
    Read.val_main_cst_3_apply, Ideal.ofBits_def, Ideal.ofBits_one_f32, Ideal.maximumf_def]

/-- The feature sum at n: the sum over the features of the node's row less the mean message. -/
theorem v23_at (hsrc : ∀ e : Fin 1250000, (x2 (ix1 e)).toNat < 100000) (n : Fin 100000) :
    Read.val_main_v23 (F := Ideal) x0 x1 x2 x3 (ix1 n)
      = ∑ d : Fin 64, (x0 (ix2 n d) - Ideal.div (Cert.Spec.msum x0 x1 x2 x3 n d) (max (Cert.Spec.deg x3 n) 1)) := by
  have hk : ∀ k : Fin 64, Read.idx_main_v23 (ix1 n) k = ix2 n k := fun k =>
    funext fun a => by match a with | ⟨0, _⟩ => rfl | ⟨1, _⟩ => rfl
  rw [Read.val_main_v23_apply, Read.val_main_cst_4_apply, Ideal.ofBits_def, Ideal.ofBits_zero_f32, zero_add]
  refine Finset.sum_congr rfl fun d _ => ?_
  rw [hk, Read.val_main_v22_apply, Read.val_main_v21_apply, v12_at x0 x1 x2 x3 hsrc, v20_at, Ideal.subf_def,
    Ideal.hostDivf_def]

/-- THE REFERENCE IS THE SPECIFICATION: with every source id in range, the reference's result array is the node score. -/
theorem result_eq_G (hsrc : ∀ e : Fin 1250000, (x2 (ix1 e)).toNat < 100000) :
    Read.val_main_v24 (F := Ideal) x0 x1 x2 x3 = Cert.Spec.G x0 x1 x2 x3 := by
  funext i
  obtain ⟨n, rfl⟩ : ∃ n : Fin 100000, i = ix1 n := ⟨i 0, eq_ix1 i⟩
  have hG : Cert.Spec.G x0 x1 x2 x3 (ix1 n) = Cert.Spec.score x0 x1 x2 x3 n := rfl
  rw [hG, Read.val_main_v24_apply, v23_at x0 x1 x2 x3 hsrc, Ideal.hostAbsf_def, Ideal.absf_def]
  unfold Cert.Spec.score
  with_reducible rfl

end Stages

end Cert.ReferenceIdeal.RefValue

end
-- ==== Proof.PreFacts.lean ====
/-
  What the precondition says of the source ids: the printed predicate is the conjunction of four all-of
  reductions, and its last two state, entry by entry, 0 ≤ src e (signed) and src e < 100000 (signed).
  Together: the unsigned reading of every source id is below 100000.
-/
import proofs.«415711_j52312701665803_3_alg».proof.Pre_finite_inputs
import Idealize.ShloMosaic.Lib.ReduceAll
import Idealize.ShloMosaic.Lib.ValueIdx
import Idealize.ShloMosaic.Lib.Affine

noncomputable section

namespace Cert.PreFacts

open Idealize.ShloMosaic Idealize.ShloMosaic.ValueIdx

instance : Subsingleton Cert.Pre_finite_inputs.S_.Idx := ⟨fun a b => funext fun d => d.elim0⟩

/-- A 32-bit word that is nonnegative and below 100000 as a signed number is below 100000 as an unsigned one. -/
theorem toNat_lt_of_signed (x : BitVec 32) (h0 : (0#32 : BitVec 32).toInt ≤ x.toInt) (h1 : x.toInt < (100000#32 : BitVec 32).toInt) :
    x.toNat < 100000 := by
  have e0 : (0#32 : BitVec 32).toInt = 0 := by decide
  have e1 : (100000#32 : BitVec 32).toInt = 100000 := by decide
  rw [e0] at h0; rw [e1] at h1
  rw [BitVec.toInt_eq_toNat_cond] at h0 h1
  have hx := x.isLt
  split at h0 <;> omega

variable {F : FTy → Type} [FloatOps F] [Cert.Pre_finite_inputs.Facts]

/-- Under the precondition every source id, read unsigned, is a row number of the feature table. -/
theorem src_range (a0 : FVec F Cert.Pre_finite_inputs.S100000x64 .f32) (a1 : FVec F Cert.Pre_finite_inputs.S1250000 .f32)
    (a2 a3 : IVec Cert.Pre_finite_inputs.S1250000 32)
    (h : Cert.Pre_finite_inputs.fn (F := F) a0 a1 a2 a3 = fun _ => 1#1) (e : Fin 1250000) :
    (a2 (ix1 e)).toNat < 100000 := by
  have h0 := congrFun h ix0
  dsimp only [Cert.Pre_finite_inputs.fn, Cert.Pre_finite_inputs.fn_part1, andi] at h0
  obtain ⟨h12, h15⟩ := IntOp.andi_eq_one.1 h0
  obtain ⟨_, h11⟩ := IntOp.andi_eq_one.1 h12
  have hge := Host.reduce_andi_all _ _ _ _ _ h11 (ix1 e)
  have hlt := Host.reduce_andi_all _ _ _ _ _ h15 (ix1 e)
  dsimp only [cmpi] at hge hlt
  exact toNat_lt_of_signed _ (IntOp.cmpi_sge.1 hge) (IntOp.cmpi_slt.1 hlt)

end Cert.PreFacts

end
-- ==== Proof.lean ====
/-
  The certificate of the node-score kernel against its jnp reference, over the extended reals.

  The kernel computes, for every node n, | Σ_d ( h[n,d] − msum[n,d] / max(deg[n], 1) ) | where deg[n] counts the edges
  arriving at n and msum[n,·] sums their weighted source rows; it does the gather of source rows and the scatter to
  destination nodes as products with one-hot matrices, tile by tile, in three pipelined calls.  The reference gathers,
  scatter-adds and reduces on the host.  At the ideal instance both are the specification's function G of the four
  arguments (Proof/Spec.lean), provided every source id is a row number of the feature table — the precondition's
  added conjuncts; without them the reference wraps a negative id around the table while the kernel clamps it to row 0.

  * The three frames: each program runs to the end, faults nowhere and returns its arguments unchanged — the two kernel
    programs by the run of @main as host stretches and three kernel regions (Proof/K/Run.lean at the word-level
    instance, Proof/KI/Run.lean at the ideal one), the reference by its run as a sequence of host operations.
  * The idealization rewrote nothing, so its ledger is empty.
  * The value claim: the kernel's returned array is G of the arguments (Proof/KI/Result.lean: the three calls' values
    composed with the host padding), the reference's is G of the arguments (Proof/RefIsG.lean).
-/
import proofs.«415711_j52312701665803_3_alg».proof.Defs
import proofs.«415711_j52312701665803_3_alg».proof.Proof.Gen.Kernel
import proofs.«415711_j52312701665803_3_alg».proof.Proof.Gen.KernelIdeal
import proofs.«415711_j52312701665803_3_alg».proof.Proof.Gen.ReferenceIdeal
import proofs.«415711_j52312701665803_3_alg».proof.Proof.Gen.Pre_finite_inputs
import proofs.«415711_j52312701665803_3_alg».proof.Proof.Gen.ReferenceIdeal.Run
import proofs.«415711_j52312701665803_3_alg».proof.Proof.Gen.ReferenceIdeal.Read
import proofs.«415711_j52312701665803_3_alg».proof.Proof.K.Run
import proofs.«415711_j52312701665803_3_alg».proof.Proof.KI.Run
import proofs.«415711_j52312701665803_3_alg».proof.Proof.KI.Result
import proofs.«415711_j52312701665803_3_alg».proof.Proof.RefIsG
import proofs.«415711_j52312701665803_3_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and returns its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is a sequence of host operations: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's score array of the arguments. -/
theorem algebraic : Cert.algebraic_KernelIdeal_ReferenceIdeal := by
  intro m ρ m' ρ' hpre hagree
  have hsrc : ∀ (c : Dev Cert.KernelIdeal.nD) (e : Fin 1250000),
      ((m ((c : Thread Cert.KernelIdeal.nD Cert.KernelIdeal.τ).loc Cert.KernelIdeal.main_arg2) : Cert.KernelIdeal.S1250000.Idx → BitVec 32) (ix1 e)).toNat < 100000 :=
    fun c e => Cert.PreFacts.src_range _ _ _ _ (hpre c) e
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · refine (θ_run (Cert.KernelIdeal.defs (F := Ideal)) _ _).mono (fun r h c => ⟨?_, ?_, ?_, ?_, ?_⟩) (Cert.KernelIdeal.Hand.run_all m ρ)
    · exact (h c _ (Cert.KernelIdeal.Hand.mem_uc Cert.KernelIdeal.main_v8 (by decide))).trans (Cert.KernelIdeal.Hand.result_eq_G m c (hsrc c))
    · exact (h c _ (Cert.KernelIdeal.Hand.mem_uc Cert.KernelIdeal.main_arg0 (by decide))).trans (Cert.KernelIdeal.Hand.W14_main_arg0 m c)
    · exact (h c _ (Cert.KernelIdeal.Hand.mem_uc Cert.KernelIdeal.main_arg1 (by decide))).trans (Cert.KernelIdeal.Hand.W14_main_arg1 m c)
    · exact (h c _ (Cert.KernelIdeal.Hand.mem_uc Cert.KernelIdeal.main_arg2 (by decide))).trans (Cert.KernelIdeal.Hand.W14_main_arg2 m c)
    · exact (h c _ (Cert.KernelIdeal.Hand.mem_uc Cert.KernelIdeal.main_arg3 (by decide))).trans (Cert.KernelIdeal.Hand.W14_main_arg3 m c)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v24_eq, (hagree c).1, (hagree c).2.1, (hagree c).2.2.1, (hagree c).2.2.2]
    exact Cert.ReferenceIdeal.RefValue.result_eq_G _ _ _ _ (hsrc c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
